-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x128 : Shape := ⟨3, ![3, 128, 128]⟩
abbrev S3x128 : Shape := ⟨2, ![3, 128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S2x600000 : Shape := ⟨2, ![2, 600000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S256 .f32) (main_arg5 : FVec F S256x2 .f32) (main_arg6 : FVec F S2 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x2 .f32 := Host.absf main_arg5
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : FVec F S3x128x128 .f32) (main_arg2 : FVec F S3x128 .f32) (main_arg3 : FVec F S128x256 .f32) (main_arg4 : FVec F S256 .f32) (main_arg5 : FVec F S256x2 .f32) (main_arg6 : FVec F S2 .f32) (main_arg7 : IVec S2x600000 32) (main_arg8 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S50000x128 : Shape := ⟨2, ![50000, 128]⟩
abbrev S3x128x128 : Shape := ⟨3, ![3, 128, 128]⟩
abbrev S3x128 : Shape := ⟨2, ![3, 128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S1x128x128 : Shape := ⟨3, ![1, 128, 128]⟩
abbrev S128x128 : Shape := ⟨2, ![128, 128]⟩
abbrev S5000x128 : Shape := ⟨2, ![5000, 128]⟩
abbrev S650000x128 : Shape := ⟨2, ![650000, 128]⟩
abbrev S1x128 : Shape := ⟨2, ![1, 128]⟩
abbrev S128 : Shape := ⟨1, ![128]⟩
abbrev S50176x128 : Shape := ⟨2, ![50176, 128]⟩
abbrev S50000x1 : Shape := ⟨2, ![50000, 1]⟩
abbrev S1x256 : Shape := ⟨2, ![1, 256]⟩
abbrev S50000x256 : Shape := ⟨2, ![50000, 256]⟩
abbrev S256x50000 : Shape := ⟨2, ![256, 50000]⟩
abbrev S256x50176 : Shape := ⟨2, ![256, 50176]⟩
abbrev S256x128 : Shape := ⟨2, ![256, 128]⟩
abbrev S256x3584 : Shape := ⟨2, ![256, 3584]⟩
abbrev S3584x128 : Shape := ⟨2, ![3584, 128]⟩
abbrev S256x1 : Shape := ⟨2, ![256, 1]⟩
abbrev S256x256 : Shape := ⟨2, ![256, 256]⟩
abbrev S1x2 : Shape := ⟨2, ![1, 2]⟩

abbrev nBuf : Space → Nat
  | .hbm => 159
  | .vmem => 27
  | .smem => 0
  | _ => 0

abbrev hbmTy0_0 (i : Nat) : BufTy := match i % 128 with
  | 0 => ⟨S50000x128, .f32⟩
  | 1 => ⟨S3x128x128, .f32⟩
  | 2 => ⟨S3x128, .f32⟩
  | 3 => ⟨S128x256, .f32⟩
  | 4 => ⟨S256, .f32⟩
  | 5 => ⟨S256x2, .f32⟩
  | 6 => ⟨S2, .f32⟩
  | 7 => ⟨S2x600000, .i32⟩
  | 8 => ⟨S50000, .i32⟩
  | 9 => ⟨S50000, .i32⟩
  | 10 => ⟨S1x600000, .i32⟩
  | 11 => ⟨S600000, .i32⟩
  | 12 => ⟨S650000, .i32⟩
  | 13 => ⟨S1x600000, .i32⟩
  | 14 => ⟨S600000, .i32⟩
  | 15 => ⟨S650000, .i32⟩
  | 16 => ⟨S_, .f32⟩
  | 17 => ⟨S650000, .f32⟩
  | 18 => ⟨S_, .f32⟩
  | 19 => ⟨S50000, .f32⟩
  | 20 => ⟨S650000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S650000, .i32⟩
  | 35 => ⟨S650000, .i1⟩
  | 36 => ⟨S_, .i32⟩
  | 37 => ⟨S650000, .i32⟩
  | 38 => ⟨S650000, .i32⟩
  | 39 => ⟨S650000, .i32⟩
  | 40 => ⟨S650000x1, .i32⟩
  | 41 => ⟨S650000, .f32⟩
  | 42 => ⟨S_, .i32⟩
  | 43 => ⟨S650000, .i32⟩
  | 44 => ⟨S650000, .i1⟩
  | 45 => ⟨S_, .i32⟩
  | 46 => ⟨S650000, .i32⟩
  | 47 => ⟨S650000, .i32⟩
  | 48 => ⟨S650000, .i32⟩
  | 49 => ⟨S650000x1, .i32⟩
  | 50 => ⟨S650000, .f32⟩
  | 51 => ⟨S650000, .f32⟩
  | 52 => ⟨S1x128x128, .f32⟩
  | 53 => ⟨S128x128, .f32⟩
  | 54 => ⟨S50000x128, .f32⟩
  | 55 => ⟨S_, .i32⟩
  | 56 => ⟨S650000, .i32⟩
  | 57 => ⟨S650000, .i1⟩
  | 58 => ⟨S_, .i32⟩
  | 59 => ⟨S650000, .i32⟩
  | 60 => ⟨S650000, .i32⟩
  | 61 => ⟨S650000, .i32⟩
  | 62 => ⟨S650000x1, .i32⟩
  | 63 => ⟨S650000x128, .f32⟩
  | 64 => ⟨S650000x1, .f32⟩
  | 65 => ⟨S650000x128, .f32⟩
  | 66 => ⟨S650000x128, .f32⟩
  | 67 => ⟨S_, .f32⟩
  | 68 => ⟨S50000x128, .f32⟩
  | 69 => ⟨S650000x1, .i32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S1x128x128, .f32⟩
  | 80 => ⟨S128x128, .f32⟩
  | 81 => ⟨S50000x128, .f32⟩
  | 82 => ⟨S_, .i32⟩
  | 83 => ⟨S650000, .i32⟩
  | 84 => ⟨S650000, .i1⟩
  | 85 => ⟨S_, .i32⟩
  | 86 => ⟨S650000, .i32⟩
  | 87 => ⟨S650000, .i32⟩
  | 88 => ⟨S650000, .i32⟩
  | 89 => ⟨S650000x1, .i32⟩
  | 90 => ⟨S650000x128, .f32⟩
  | 91 => ⟨S650000x1, .f32⟩
  | 92 => ⟨S650000x128, .f32⟩
  | 93 => ⟨S650000x128, .f32⟩
  | 94 => ⟨S_, .f32⟩
  | 95 => ⟨S50000x128, .f32⟩
  | 96 => ⟨S650000x1, .i32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S1x128x128, .f32⟩
  | 107 => ⟨S128x128, .f32⟩
  | 108 => ⟨S50000x128, .f32⟩
  | 109 => ⟨S_, .i32⟩
  | 110 => ⟨S650000, .i32⟩
  | 111 => ⟨S650000, .i1⟩
  | 112 => ⟨S_, .i32⟩
  | 113 => ⟨S650000, .i32⟩
  | 114 => ⟨S650000, .i32⟩
  | 115 => ⟨S650000, .i32⟩
  | 116 => ⟨S650000x1, .i32⟩
  | 117 => ⟨S650000x128, .f32⟩
  | 118 => ⟨S650000x1, .f32⟩
  | 119 => ⟨S650000x128, .f32⟩
  | 120 => ⟨S650000x128, .f32⟩
  | 121 => ⟨S_, .f32⟩
  | 122 => ⟨S50000x128, .f32⟩
  | 123 => ⟨S650000x1, .i32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S_, .i32⟩
  | 6 => ⟨S_, .f32⟩
  | 7 => ⟨S50176x128, .f32⟩
  | 8 => ⟨S50000x1, .i32⟩
  | 9 => ⟨S1x256, .i32⟩
  | 10 => ⟨S50000x256, .i32⟩
  | 11 => ⟨S50000x256, .i32⟩
  | 12 => ⟨S50000x256, .i1⟩
  | 13 => ⟨S50000x256, .f32⟩
  | 14 => ⟨S256x50000, .f32⟩
  | 15 => ⟨S_, .i32⟩
  | 16 => ⟨S_, .f32⟩
  | 17 => ⟨S256x50176, .f32⟩
  | 18 => ⟨S256x128, .f32⟩
  | 19 => ⟨S_, .f32⟩
  | 20 => ⟨S50000x1, .f32⟩
  | 21 => ⟨S_, .f32⟩
  | 22 => ⟨S256x1, .f32⟩
  | 23 => ⟨S50000x1, .i32⟩
  | 24 => ⟨S256x1, .f32⟩
  | 25 => ⟨S_, .f32⟩
  | 26 => ⟨S256x1, .f32⟩
  | 27 => ⟨S256x1, .f32⟩
  | 28 => ⟨S256x128, .f32⟩
  | 29 => ⟨S256x128, .f32⟩
  | 30 => ⟨S256x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S256x3584, .f32⟩
  | .local _ .vmem, ⟨16, _⟩ => ⟨S256x3584, .f32⟩
  | .local _ .vmem, ⟨17, _⟩ => ⟨S3584x128, .f32⟩
  | .local _ .vmem, ⟨18, _⟩ => ⟨S3584x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S128x256, .f32⟩
  | .local _ .vmem, ⟨23, _⟩ => ⟨S256, .f32⟩
  | .local _ .vmem, ⟨24, _⟩ => ⟨S256x2, .f32⟩
  | .local _ .vmem, ⟨25, _⟩ => ⟨S2, .f32⟩
  | .local _ .vmem, ⟨26, _⟩ => ⟨S256x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call2_cst : Ref sig .tc := ⟨.hbm, 103, rfl⟩
abbrev main_call2_v0 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_13 : Ref sig .tc := ⟨.hbm, 109, rfl⟩
abbrev main_v79 : Ref sig .tc := ⟨.hbm, 110, rfl⟩
abbrev main_v80 : Ref sig .tc := ⟨.hbm, 111, rfl⟩
abbrev main_c_14 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_15 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_call3_cst : Ref sig .tc := ⟨.hbm, 130, rfl⟩
abbrev main_call3_v0 : Ref sig .tc := ⟨.hbm, 131, rfl⟩
abbrev main_v97 : Ref sig .tc := ⟨.hbm, 132, rfl⟩
abbrev main_c_16 : Ref sig .tc := ⟨.hbm, 133, rfl⟩
abbrev main_call4_v0 : Ref sig .tc := ⟨.hbm, 134, rfl⟩
abbrev main_v98 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_call5_v3 : Ref sig .tc := ⟨.hbm, 139, rfl⟩
abbrev main_call5_v4 : Ref sig .tc := ⟨.hbm, 140, rfl⟩
abbrev main_v99 : Ref sig .tc := ⟨.hbm, 141, rfl⟩
abbrev main_v100 : Ref sig .tc := ⟨.hbm, 142, rfl⟩
abbrev main_c_17 : Ref sig .tc := ⟨.hbm, 143, rfl⟩
abbrev main_call6_v0 : Ref sig .tc := ⟨.hbm, 144, rfl⟩
abbrev main_v101 : Ref sig .tc := ⟨.hbm, 145, rfl⟩
abbrev main_v102 : Ref sig .tc := ⟨.hbm, 146, rfl⟩
abbrev main_cst_18 : Ref sig .tc := ⟨.hbm, 147, rfl⟩
abbrev main_v103 : Ref sig .tc := ⟨.hbm, 148, rfl⟩
abbrev main_cst_19 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_20 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_scratch0 : Ref sig .tc := ⟨.vmem, 20, rfl⟩
abbrev cc4_stg0_0 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg5_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![14], ![false]⟩

def k3_cond2 (i : grid3.Coords) : BitVec 1 :=
  let arg0 : BitVec 32 := BitVec.ofNat 32 (i 0).val
  let c13_i32 : BitVec 32 := 13#32
  let v15 : BitVec 1 := Scalar.cmpi .eq arg0 c13_i32
  let v16 : BitVec 32 := Scalar.extui v15
  let c0_i32_8 : BitVec 32 := 0#32
  let v17 : BitVec 1 := Scalar.cmpi .ne v16 c0_i32_8
  v17

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x3584 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3584x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  shapeCasts_S5000x128_S5000x128 : S5000x128.ShapeCasts S5000x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  pads_S50000x128_S50176x128_01760_000 : S50000x128.Pads (![0, 0] : Fin 2 → Nat) ![176, 0] ![0, 0] S50176x128
  h_S_ : 0 < S_.numel
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S1x256_S50000x256_0_1 : S1x256.BroadcastsInDim S50000x256 (![0, 1] : Fin 2 → Fin S50000x256.rank)
  transposes_S50000x256_S256x50000_1_0 : S50000x256.Transposes [1, 0] S256x50000
  pads_S256x50000_S256x50176_000_01760 : S256x50000.Pads (![0, 0] : Fin 2 → Nat) ![0, 176] ![0, 0] S256x50176
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x3584_S256x3584_0_0 : ∀ a, (![0, 0] : Fin 2 → Nat) a + S256x3584.size a ≤ S256x3584.size a
  h_S256x3584 : 0 < S256x3584.numel
  shapeCasts_S256x3584_S256x3584 : S256x3584.ShapeCasts S256x3584
  inb_S3584x128_S3584x128_0_0 : ∀ a, (![0, 0] : Fin 2 → Nat) a + S3584x128.size a ≤ S3584x128.size a
  h_S3584x128 : 0 < S3584x128.numel
  shapeCasts_S3584x128_S3584x128 : S3584x128.ShapeCasts S3584x128
  bcast_S_S50000x1 : S_.BroadcastsInDim S50000x1 (![] : Fin 0 → Fin S50000x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S256x2_S256x2_0_0 : ∀ a, (![0, 0] : Fin 2 → Nat) a + S256x2.size a ≤ S256x2.size a
  h_S256x2 : 0 < S256x2.numel
  inb_S2_S2_0 : ∀ a, (![0] : Fin 1 → Nat) a + S2.size a ≤ S2.size a
  h_S2 : 0 < S2.numel
  shapeCasts_S2_S1x2 : S2.ShapeCasts S1x2
  broadcasts_S1x2_S256x2 : S1x2.Broadcasts S256x2
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S256x3584_S3584x128_S256x128_1_0_0_1_n_n_wf : DotDims.WF S256x3584 S3584x128 S256x128 [1] [0] [0] [1] [] []
  scatter_S256x1_S50000x1_S50000x1_1_0_0_1_wf : ScatterDims.WF S256x1 S50000x1 S50000x1 [1] [0] [0] 1
  dot_S256x128_S128x256_S256x256_1_0_0_1_n_n_wf : DotDims.WF S256x128 S128x256 S256x256 [1] [0] [0] [1] [] []
  dot_S256x256_S256x2_S256x2_1_0_0_1_n_n_wf : DotDims.WF S256x256 S256x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x3584.size a ≤ S256x50176.size a
  hwx3_0 : ∀ i : grid3.Coords, EltTy.bits .f32 = 32 ∨ (Rect.block (s := S256x50176) S256x3584.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3584x128.size a ≤ S50176x128.size a
  hwx3_1 : ∀ i : grid3.Coords, EltTy.bits .f32 = 32 ∨ (Rect.block (s := S50176x128) S3584x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x128.size a ≤ S256x128.size a
  hwx4_0 : ∀ i : grid4.Coords, EltTy.bits .f32 = 32 ∨ (Rect.block (s := S256x128) S256x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256.size a ≤ S256.size a
  hwx4_2 : ∀ i : grid4.Coords, EltTy.bits .f32 = 32 ∨ (Rect.block (s := S256) S256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x2.size a ≤ S256x2.size a
  hwx4_3 : ∀ i : grid4.Coords, EltTy.bits .f32 = 32 ∨ (Rect.block (s := S256x2) S256x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S2.size a ≤ S2.size a
  hwx4_4 : ∀ i : grid4.Coords, EltTy.bits .f32 = 32 ∨ (Rect.block (s := S2) S2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x2.size a ≤ S256x2.size a
  hwx4_5 : ∀ i : grid4.Coords, EltTy.bits .f32 = 32 ∨ (Rect.block (s := S256x2) S256x2.size (cc4_transform_5 i) (hinb4_5 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S256x3584_S3584x128_S256x128_1_0_0_1_n_n : DotDims S256x3584 S3584x128 S256x128 where
  lhsContracting := [1]
  rhsContracting := [0]
  lhsNonContracting := [0]
  rhsNonContracting := [1]
  lhsBatch := []
  rhsBatch := []
  wf := dot_S256x3584_S3584x128_S256x128_1_0_0_1_n_n_wf
def scatter_S256x1_S50000x1_S50000x1_1_0_0_1 : ScatterDims S256x1 S50000x1 S50000x1 where
  updateWindowDims := [1]
  insertedWindowDims := [0]
  scatterDimsToOperandDims := [0]
  indexVectorDim := 1
  wf := scatter_S256x1_S50000x1_S50000x1_1_0_0_1_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x2_S256x2_1_0_0_1_n_n : DotDims S256x256 S256x2 S256x2 where
  lhsContracting := [1]
  rhsContracting := [0]
  lhsNonContracting := [0]
  rhsNonContracting := [1]
  lhsBatch := []
  rhsBatch := []
  wf := dot_S256x256_S256x2_S256x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v75) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v77) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v78) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v101) S256x3584.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v98) S3584x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v102) S256x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v110) S256x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg3) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg4) S256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg5) S256x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg6) S2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v111) S256x2.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S3x128x128 : Shape := ⟨3, ![3, 128, 128]⟩
abbrev S3x128 : Shape := ⟨2, ![3, 128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S1x128x128 : Shape := ⟨3, ![1, 128, 128]⟩
abbrev S128x128 : Shape := ⟨2, ![128, 128]⟩
abbrev S650000x128 : Shape := ⟨2, ![650000, 128]⟩
abbrev S1x128 : Shape := ⟨2, ![1, 128]⟩
abbrev S128 : Shape := ⟨1, ![128]⟩
abbrev S256x128 : Shape := ⟨2, ![256, 128]⟩
abbrev S50000x1 : Shape := ⟨2, ![50000, 1]⟩
abbrev S256x1 : Shape := ⟨2, ![256, 1]⟩
abbrev S256x256 : Shape := ⟨2, ![256, 256]⟩
abbrev S1x256 : Shape := ⟨2, ![1, 256]⟩
abbrev S1x2 : Shape := ⟨2, ![1, 2]⟩

abbrev nBuf : Space → Nat
  | .hbm => 159
  | .vmem => 0
  | .smem => 0
  | _ => 0

abbrev hbmTy0_0 (i : Nat) : BufTy := match i % 128 with
  | 0 => ⟨S50000x128, .f32⟩
  | 1 => ⟨S3x128x128, .f32⟩
  | 2 => ⟨S3x128, .f32⟩
  | 3 => ⟨S128x256, .f32⟩
  | 4 => ⟨S256, .f32⟩
  | 5 => ⟨S256x2, .f32⟩
  | 6 => ⟨S2, .f32⟩
  | 7 => ⟨S2x600000, .i32⟩
  | 8 => ⟨S50000, .i32⟩
  | 9 => ⟨S50000, .i32⟩
  | 10 => ⟨S1x600000, .i32⟩
  | 11 => ⟨S600000, .i32⟩
  | 12 => ⟨S650000, .i32⟩
  | 13 => ⟨S1x600000, .i32⟩
  | 14 => ⟨S600000, .i32⟩
  | 15 => ⟨S650000, .i32⟩
  | 16 => ⟨S_, .f32⟩
  | 17 => ⟨S650000, .f32⟩
  | 18 => ⟨S_, .f32⟩
  | 19 => ⟨S50000, .f32⟩
  | 20 => ⟨S650000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S650000, .i32⟩
  | 35 => ⟨S650000, .i1⟩
  | 36 => ⟨S_, .i32⟩
  | 37 => ⟨S650000, .i32⟩
  | 38 => ⟨S650000, .i32⟩
  | 39 => ⟨S650000, .i32⟩
  | 40 => ⟨S650000x1, .i32⟩
  | 41 => ⟨S650000, .f32⟩
  | 42 => ⟨S_, .i32⟩
  | 43 => ⟨S650000, .i32⟩
  | 44 => ⟨S650000, .i1⟩
  | 45 => ⟨S_, .i32⟩
  | 46 => ⟨S650000, .i32⟩
  | 47 => ⟨S650000, .i32⟩
  | 48 => ⟨S650000, .i32⟩
  | 49 => ⟨S650000x1, .i32⟩
  | 50 => ⟨S650000, .f32⟩
  | 51 => ⟨S650000, .f32⟩
  | 52 => ⟨S1x128x128, .f32⟩
  | 53 => ⟨S128x128, .f32⟩
  | 54 => ⟨S50000x128, .f32⟩
  | 55 => ⟨S_, .i32⟩
  | 56 => ⟨S650000, .i32⟩
  | 57 => ⟨S650000, .i1⟩
  | 58 => ⟨S_, .i32⟩
  | 59 => ⟨S650000, .i32⟩
  | 60 => ⟨S650000, .i32⟩
  | 61 => ⟨S650000, .i32⟩
  | 62 => ⟨S650000x1, .i32⟩
  | 63 => ⟨S650000x128, .f32⟩
  | 64 => ⟨S650000x1, .f32⟩
  | 65 => ⟨S650000x128, .f32⟩
  | 66 => ⟨S650000x128, .f32⟩
  | 67 => ⟨S_, .f32⟩
  | 68 => ⟨S50000x128, .f32⟩
  | 69 => ⟨S650000x1, .i32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S1x128x128, .f32⟩
  | 80 => ⟨S128x128, .f32⟩
  | 81 => ⟨S50000x128, .f32⟩
  | 82 => ⟨S_, .i32⟩
  | 83 => ⟨S650000, .i32⟩
  | 84 => ⟨S650000, .i1⟩
  | 85 => ⟨S_, .i32⟩
  | 86 => ⟨S650000, .i32⟩
  | 87 => ⟨S650000, .i32⟩
  | 88 => ⟨S650000, .i32⟩
  | 89 => ⟨S650000x1, .i32⟩
  | 90 => ⟨S650000x128, .f32⟩
  | 91 => ⟨S650000x1, .f32⟩
  | 92 => ⟨S650000x128, .f32⟩
  | 93 => ⟨S650000x128, .f32⟩
  | 94 => ⟨S_, .f32⟩
  | 95 => ⟨S50000x128, .f32⟩
  | 96 => ⟨S650000x1, .i32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S1x128x128, .f32⟩
  | 107 => ⟨S128x128, .f32⟩
  | 108 => ⟨S50000x128, .f32⟩
  | 109 => ⟨S_, .i32⟩
  | 110 => ⟨S650000, .i32⟩
  | 111 => ⟨S650000, .i1⟩
  | 112 => ⟨S_, .i32⟩
  | 113 => ⟨S650000, .i32⟩
  | 114 => ⟨S650000, .i32⟩
  | 115 => ⟨S650000, .i32⟩
  | 116 => ⟨S650000x1, .i32⟩
  | 117 => ⟨S650000x128, .f32⟩
  | 118 => ⟨S650000x1, .f32⟩
  | 119 => ⟨S650000x128, .f32⟩
  | 120 => ⟨S650000x128, .f32⟩
  | 121 => ⟨S_, .f32⟩
  | 122 => ⟨S50000x128, .f32⟩
  | 123 => ⟨S650000x1, .i32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S_, .f32⟩
  | 6 => ⟨S256x128, .f32⟩
  | 7 => ⟨S50000x1, .i32⟩
  | 8 => ⟨S256x128, .f32⟩
  | 9 => ⟨S_, .f32⟩
  | 10 => ⟨S50000x1, .f32⟩
  | 11 => ⟨S_, .f32⟩
  | 12 => ⟨S256x1, .f32⟩
  | 13 => ⟨S50000x1, .i32⟩
  | 14 => ⟨S256x1, .f32⟩
  | 15 => ⟨S_, .f32⟩
  | 16 => ⟨S256x1, .f32⟩
  | 17 => ⟨S256x1, .f32⟩
  | 18 => ⟨S256x128, .f32⟩
  | 19 => ⟨S256x128, .f32⟩
  | 20 => ⟨S256x256, .f32⟩
  | 21 => ⟨S1x256, .f32⟩
  | 22 => ⟨S256x256, .f32⟩
  | 23 => ⟨S256x256, .f32⟩
  | 24 => ⟨S_, .f32⟩
  | 25 => ⟨S256x256, .f32⟩
  | 26 => ⟨S256x256, .f32⟩
  | 27 => ⟨S256x2, .f32⟩
  | 28 => ⟨S1x2, .f32⟩
  | 29 => ⟨S256x2, .f32⟩
  | 30 => ⟨S256x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call2_cst : Ref sig .tc := ⟨.hbm, 103, rfl⟩
abbrev main_call2_v0 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_13 : Ref sig .tc := ⟨.hbm, 109, rfl⟩
abbrev main_v79 : Ref sig .tc := ⟨.hbm, 110, rfl⟩
abbrev main_v80 : Ref sig .tc := ⟨.hbm, 111, rfl⟩
abbrev main_c_14 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_15 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_call3_cst : Ref sig .tc := ⟨.hbm, 130, rfl⟩
abbrev main_call3_v0 : Ref sig .tc := ⟨.hbm, 131, rfl⟩
abbrev main_v97 : Ref sig .tc := ⟨.hbm, 132, rfl⟩
abbrev main_cst_16 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_17 : Ref sig .tc := ⟨.hbm, 137, rfl⟩
abbrev main_v101 : Ref sig .tc := ⟨.hbm, 138, rfl⟩
abbrev main_cst_18 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_19 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_call4_cst : Ref sig .tc := ⟨.hbm, 152, rfl⟩
abbrev main_call4_v0 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  slices_S3x128x128_S1x128x128_0_0_0 : S3x128x128.Slices ![0, 0, 0] S1x128x128
  shapeCasts_S1x128x128_S128x128 : S1x128x128.ShapeCasts S128x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S256x128 : S_.BroadcastsInDim S256x128 (![] : Fin 0 → Fin S256x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S256x128_S50000x1_S50000x128_1_0_0_1_wf : ScatterDims.WF S256x128 S50000x1 S50000x128 [1] [0] [0] 1
  scatter_S256x1_S50000x1_S50000x1_1_0_0_1_wf : ScatterDims.WF S256x1 S50000x1 S50000x1 [1] [0] [0] 1
  dot_S256x128_S128x256_S256x256_1_0_0_1_n_n_wf : DotDims.WF S256x128 S128x256 S256x256 [1] [0] [0] [1] [] []
  dot_S256x256_S256x2_S256x2_1_0_0_1_n_n_wf : DotDims.WF S256x256 S256x2 S256x2 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256x1_S50000x1_S50000x1_1_0_0_1 : ScatterDims S256x1 S50000x1 S50000x1 where
  updateWindowDims := [1]
  insertedWindowDims := [0]
  scatterDimsToOperandDims := [0]
  indexVectorDim := 1
  wf := scatter_S256x1_S50000x1_S50000x1_1_0_0_1_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x2_S256x2_1_0_0_1_n_n : DotDims S256x256 S256x2 S256x2 where
  lhsContracting := [1]
  rhsContracting := [0]
  lhsNonContracting := [0]
  rhsNonContracting := [1]
  lhsBatch := []
  rhsBatch := []
  wf := dot_S256x256_S256x2_S256x2_1_0_0_1_n_n_wf

class Facts : Prop extends Facts₀ where

variable [Facts]
-- ==== Proof.K.Lin0.lean ====
/- The class-A half of REGION 0 of @main (custom_call 0, `cc0__linear_kernel`, pipeline 0), at a parameter `V`: the
   TensorCore's buffer contents when the region is entered. The region is one block-row product: a grid of 10
   points; at point `i` the body reads the 5000x128 block `i` of the left operand (window 0) and the whole 128x128
   right operand (window 1, the same block at every point), and stores their matrix product over the 5000x128
   block `i` of the result (window 2). Here: each window's block at a point, read off its array as found; what the
   body leaves in the result window's staging buffer as a function of the two input blocks; the body's triple on
   whole staging memrefs; the pipeline's proof data; and the body obligation at every point. -/
import proofs.«430049_j55997783605449_1_alg».proof.Proof.Gen.Kernel.Launch
import proofs.«430049_j55997783605449_1_alg».proof.Proof.Gen.Kernel.Skeleton
import proofs.«430049_j55997783605449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000x128 extents is never evaluated point by point; the structural look at the
-- tiling still recurses along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0__linear_kernel` (pipeline 0), at the entry contents `V` -/

/-! ## The windows' blocks -/

/-- Window `w`'s block at point `t`: the sub-array its block index selects at `t`, read off the window's array as the
    region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the left operand's row block): its current staging buffer holds its block at every point, for ANY
    proof data whose array is `V`'s (`hA`) and whose body leaves the block in place (`hafter`). The window is uncut
    and has no idle point, so where it is fetched the buffer is the fetched block, and where it is not the block
    index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the right operand, whole): the same. Its block index is constant, so it is fetched at the first
    point only; at every later point the buffer still holds that block, which is that point's block too. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 5000x128 buffer as one rectangle: what the body loads of window 0 and stores of window 2. -/
abbrev r0_0 : Rect S5000x128 := Rect.unit (s := S5000x128) ![0, 0] S5000x128.size inb_S5000x128_S5000x128_0_0
/-- The whole 128x128 buffer as one rectangle: what the body loads of window 1. -/
abbrev r0_1 : Rect S128x128 := Rect.unit (s := S128x128) ![0, 0] S128x128.size inb_S128x128_S128x128_0_0

/-! ## What the body leaves in the output window's buffer -/

/-- Window 2's staging buffer after the body, from the input windows' blocks: its one store, the whole buffer
    overwritten by the product of the two loaded operands (each rounded to bf16, accumulated in f32 from zero: the
    skeleton's payload). -/
def out0_2 (xa : Vec F S5000x128 .f32) (xb : Vec F S128x128 .f32) : Vec F S5000x128 .f32 :=
  View.canon [⟨r0_0, k0_pay1 (View.ld xa r0_0) (View.ld xb r0_1)⟩]

/-- The one store is the whole buffer: a tiling by one rectangle of full extents, so every index lies in it. -/
theorem cover0_2 (pa : Vec F S5000x128 .f32) (y : S5000x128.Idx) :
    ∃ pc ∈ ([⟨r0_0, pa⟩] : List (View.Piece (Elt F) S5000x128 .f32)), y ∈ pc.1.set :=
  View.cover_of_tiled [⟨r0_0, pa⟩] S5000x128.size (by rfl) y

/-! ## The body's triple -/

set_option maxHeartbeats 1000000 in
/-- The kernel body on whole staging memrefs — the two inputs' at read contents `xa`, `xb`, the output's at anything —
    runs to the continuation holding the inputs' as they were and the output's at `out0_2 xa xb`. The body is its
    skeleton: two loads of the inputs, one load of the output buffer whose value is not used (any contents allow
    it), one store of the payload over the whole output buffer. The grid coordinate is not read. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (xa : Vec F S5000x128 .f32) (xb : Vec F S128x128 .f32) (K : PUnit → sProp 𝕄) :
    iprop(owns (c : Thread nD τ) arg1 fullShare xa ∗ owns (c : Thread nD τ) arg2 fullShare xb
        ∗ (∃ d, owns (c : Thread nD τ) arg3 fullShare d)
        ∗ (iprop(owns (c : Thread nD τ) arg1 fullShare xa ∗ owns (c : Thread nD τ) arg2 fullShare xb
            ∗ owns (c : Thread nD τ) arg3 fullShare (out0_2 xa xb)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%fa, %hfa, Ha⟩, ⟨%fb, %hfb, Hb⟩, ⟨%dc, %fc, -, Hc⟩, Hk⟩
  subst hfa
  subst hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover0_2 _)

/-! ## The pipeline's proof data -/

/-- The proof data of pipeline 0 on core `c`: the arrays as the region finds them (`V`); after the body at point `t`
    each input's buffer still at its block and the output's at `out0_2` of the two input blocks; the invariant is the
    core's scoped rest and random-number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's case split reduced at each window number). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debt, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same, each buffer at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two inputs' memrefs hold their blocks (`before0_0`, `before0_1`) and the output's holds
    something, so `sound_kernel0` applies; the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%da, Ha⟩, ⟨%db, Hb⟩, ⟨%dc, Hc⟩⟩
  iapply (sound_kernel0 c Set.univ _ _ _ _ _ _ _ (iblk0 V c 0 t) (iblk0 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point: its conjunctions over the three windows written out. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Lin1.lean ====
/- The class-A half of REGION 1 of @main (custom_call 1, `cc1__linear_kernel`, pipeline 1), at a parameter `V`: the
   TensorCore's buffer contents when the region is entered. The region is one block-row product: a grid of 10
   points; at point `i` the body reads the 5000x128 block `i` of the left operand (window 0) and the whole 128x128
   right operand (window 1, the same block at every point), and stores their matrix product over the 5000x128
   block `i` of the result (window 2). Here: each window's block at a point, read off its array as found; what the
   body leaves in the result window's staging buffer as a function of the two input blocks; the body's triple on
   whole staging memrefs; the pipeline's proof data; and the body obligation at every point. -/
import proofs.«430049_j55997783605449_1_alg».proof.Proof.Gen.Kernel.Launch
import proofs.«430049_j55997783605449_1_alg».proof.Proof.Gen.Kernel.Skeleton
import proofs.«430049_j55997783605449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000x128 extents is never evaluated point by point; the structural look at the
-- tiling still recurses along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: custom_call 1, `cc1__linear_kernel` (pipeline 1), at the entry contents `V` -/

/-! ## The windows' blocks -/

/-- Window `w`'s block at point `t`: the sub-array its block index selects at `t`, read off the window's array as the
    region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the left operand's row block): its current staging buffer holds its block at every point, for ANY
    proof data whose array is `V`'s (`hA`) and whose body leaves the block in place (`hafter`). The window is uncut
    and has no idle point, so where it is fetched the buffer is the fetched block, and where it is not the block
    index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the right operand, whole): the same. Its block index is constant, so it is fetched at the first
    point only; at every later point the buffer still holds that block, which is that point's block too. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 5000x128 buffer as one rectangle: what the body loads of window 0 and stores of window 2. -/
abbrev r1_0 : Rect S5000x128 := Rect.unit (s := S5000x128) ![0, 0] S5000x128.size inb_S5000x128_S5000x128_0_0
/-- The whole 128x128 buffer as one rectangle: what the body loads of window 1. -/
abbrev r1_1 : Rect S128x128 := Rect.unit (s := S128x128) ![0, 0] S128x128.size inb_S128x128_S128x128_0_0

/-! ## What the body leaves in the output window's buffer -/

/-- Window 2's staging buffer after the body, from the input windows' blocks: its one store, the whole buffer
    overwritten by the product of the two loaded operands (each rounded to bf16, accumulated in f32 from zero: the
    skeleton's payload). -/
def out1_2 (xa : Vec F S5000x128 .f32) (xb : Vec F S128x128 .f32) : Vec F S5000x128 .f32 :=
  View.canon [⟨r1_0, k1_pay1 (View.ld xa r1_0) (View.ld xb r1_1)⟩]

/-- The one store is the whole buffer: a tiling by one rectangle of full extents, so every index lies in it. -/
theorem cover1_2 (pa : Vec F S5000x128 .f32) (y : S5000x128.Idx) :
    ∃ pc ∈ ([⟨r1_0, pa⟩] : List (View.Piece (Elt F) S5000x128 .f32)), y ∈ pc.1.set :=
  View.cover_of_tiled [⟨r1_0, pa⟩] S5000x128.size (by rfl) y

/-! ## The body's triple -/

set_option maxHeartbeats 1000000 in
/-- The kernel body on whole staging memrefs — the two inputs' at read contents `xa`, `xb`, the output's at anything —
    runs to the continuation holding the inputs' as they were and the output's at `out1_2 xa xb`. The body is its
    skeleton: two loads of the inputs, one load of the output buffer whose value is not used (any contents allow
    it), one store of the payload over the whole output buffer. The grid coordinate is not read. -/
theorem sound_kernel1 (c : Dev nD) (E : Set ℕ) (i : grid1.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (xa : Vec F S5000x128 .f32) (xb : Vec F S128x128 .f32) (K : PUnit → sProp 𝕄) :
    iprop(owns (c : Thread nD τ) arg1 fullShare xa ∗ owns (c : Thread nD τ) arg2 fullShare xb
        ∗ (∃ d, owns (c : Thread nD τ) arg3 fullShare d)
        ∗ (iprop(owns (c : Thread nD τ) arg1 fullShare xa ∗ owns (c : Thread nD τ) arg2 fullShare xb
            ∗ owns (c : Thread nD τ) arg3 fullShare (out1_2 xa xb)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%fa, %hfa, Ha⟩, ⟨%fb, %hfb, Hb⟩, ⟨%dc, %fc, -, Hc⟩, Hk⟩
  subst hfa
  subst hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover1_2 _)

/-! ## The pipeline's proof data -/

/-- The proof data of pipeline 1 on core `c`: the arrays as the region finds them (`V`); after the body at point `t`
    each input's buffer still at its block and the output's at `out1_2` of the two input blocks; the invariant is the
    core's scoped rest and random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's case split reduced at each window number). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the core's debt, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the same, each buffer at the proof data's `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two inputs' memrefs hold their blocks (`before1_0`, `before1_1`) and the output's holds
    something, so `sound_kernel1` applies; the invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%da, Ha⟩, ⟨%db, Hb⟩, ⟨%dc, Hc⟩⟩
  iapply (sound_kernel1 c Set.univ _ _ _ _ _ _ _ (iblk1 V c 0 t) (iblk1 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point: its conjunctions over the three windows written out. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Lin2.lean ====
/- The class-A half of REGION 2 of @main (custom_call 2, `cc2__linear_kernel`, pipeline 2), at a parameter `V`: the
   TensorCore's buffer contents when the region is entered. The region is one block-row product: a grid of 10
   points; at point `i` the body reads the 5000x128 block `i` of the left operand (window 0) and the whole 128x128
   right operand (window 1, the same block at every point), and stores their matrix product over the 5000x128
   block `i` of the result (window 2). Here: each window's block at a point, read off its array as found; what the
   body leaves in the result window's staging buffer as a function of the two input blocks; the body's triple on
   whole staging memrefs; the pipeline's proof data; and the body obligation at every point. -/
import proofs.«430049_j55997783605449_1_alg».proof.Proof.Gen.Kernel.Launch
import proofs.«430049_j55997783605449_1_alg».proof.Proof.Gen.Kernel.Skeleton
import proofs.«430049_j55997783605449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000x128 extents is never evaluated point by point; the structural look at the
-- tiling still recurses along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 2 of @main: custom_call 2, `cc2__linear_kernel` (pipeline 2), at the entry contents `V` -/

/-! ## The windows' blocks -/

/-- Window `w`'s block at point `t`: the sub-array its block index selects at `t`, read off the window's array as the
    region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the left operand's row block): its current staging buffer holds its block at every point, for ANY
    proof data whose array is `V`'s (`hA`) and whose body leaves the block in place (`hafter`). The window is uncut
    and has no idle point, so where it is fetched the buffer is the fetched block, and where it is not the block
    index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the right operand, whole): the same. Its block index is constant, so it is fetched at the first
    point only; at every later point the buffer still holds that block, which is that point's block too. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 5000x128 buffer as one rectangle: what the body loads of window 0 and stores of window 2. -/
abbrev r2_0 : Rect S5000x128 := Rect.unit (s := S5000x128) ![0, 0] S5000x128.size inb_S5000x128_S5000x128_0_0
/-- The whole 128x128 buffer as one rectangle: what the body loads of window 1. -/
abbrev r2_1 : Rect S128x128 := Rect.unit (s := S128x128) ![0, 0] S128x128.size inb_S128x128_S128x128_0_0

/-! ## What the body leaves in the output window's buffer -/

/-- Window 2's staging buffer after the body, from the input windows' blocks: its one store, the whole buffer
    overwritten by the product of the two loaded operands (each rounded to bf16, accumulated in f32 from zero: the
    skeleton's payload). -/
def out2_2 (xa : Vec F S5000x128 .f32) (xb : Vec F S128x128 .f32) : Vec F S5000x128 .f32 :=
  View.canon [⟨r2_0, k2_pay1 (View.ld xa r2_0) (View.ld xb r2_1)⟩]

/-- The one store is the whole buffer: a tiling by one rectangle of full extents, so every index lies in it. -/
theorem cover2_2 (pa : Vec F S5000x128 .f32) (y : S5000x128.Idx) :
    ∃ pc ∈ ([⟨r2_0, pa⟩] : List (View.Piece (Elt F) S5000x128 .f32)), y ∈ pc.1.set :=
  View.cover_of_tiled [⟨r2_0, pa⟩] S5000x128.size (by rfl) y

/-! ## The body's triple -/

set_option maxHeartbeats 1000000 in
/-- The kernel body on whole staging memrefs — the two inputs' at read contents `xa`, `xb`, the output's at anything —
    runs to the continuation holding the inputs' as they were and the output's at `out2_2 xa xb`. The body is its
    skeleton: two loads of the inputs, one load of the output buffer whose value is not used (any contents allow
    it), one store of the payload over the whole output buffer. The grid coordinate is not read. -/
theorem sound_kernel2 (c : Dev nD) (E : Set ℕ) (i : grid2.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (xa : Vec F S5000x128 .f32) (xb : Vec F S128x128 .f32) (K : PUnit → sProp 𝕄) :
    iprop(owns (c : Thread nD τ) arg1 fullShare xa ∗ owns (c : Thread nD τ) arg2 fullShare xb
        ∗ (∃ d, owns (c : Thread nD τ) arg3 fullShare d)
        ∗ (iprop(owns (c : Thread nD τ) arg1 fullShare xa ∗ owns (c : Thread nD τ) arg2 fullShare xb
            ∗ owns (c : Thread nD τ) arg3 fullShare (out2_2 xa xb)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%fa, %hfa, Ha⟩, ⟨%fb, %hfb, Hb⟩, ⟨%dc, %fc, -, Hc⟩, Hk⟩
  subst hfa
  subst hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover2_2 _)

/-! ## The pipeline's proof data -/

/-- The proof data of pipeline 2 on core `c`: the arrays as the region finds them (`V`); after the body at point `t`
    each input's buffer still at its block and the output's at `out2_2` of the two input blocks; the invariant is the
    core's scoped rest and random-number register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's case split reduced at each window number). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`: the invariant, the core's debt, and each window's current staging
    buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: the same, each buffer at the proof data's `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two inputs' memrefs hold their blocks (`before2_0`, `before2_1`) and the output's holds
    something, so `sound_kernel2` applies; the invariant and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%da, Ha⟩, ⟨%db, Hb⟩, ⟨%dc, Hc⟩⟩
  iapply (sound_kernel2 c Set.univ _ _ _ _ _ _ _ (iblk2 V c 0 t) (iblk2 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point: its conjunctions over the three windows written out. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Pool3.lean ====
/- The frame half of REGION 3 of @main (custom_call 3, `cc3__pool_kernel`, pipeline 3), at a parameter `V`: the
   TensorCore's buffer contents when the region is entered. The region is one matrix product accumulated over a
   contracted axis cut into 14 blocks: at point `i` the body reads the 256x3584 column block `i` of the left operand
   (window 0) and the 3584x128 row block `i` of the right operand (window 1), and adds their product into a 256x128
   accumulator the kernel keeps in a scratch buffer of its own between the points: zeroed at the first point, read,
   added to and stored back at every point, and copied into the 256x128 result (window 2, one constant block) at the
   last point only. So the result window is idle at every point but the last, and the scratch carries a value from
   point to point: the region's invariant names it, by recursion on the point. Here: each window's block at a point;
   the accumulated table after each point; the body's triple in each of its three control cases (first point, middle
   points, last point); the invariant; the pipeline's proof data; the body obligation at every point; and the
   invariant's two ends against the class invariant. -/
import proofs.«430049_j55997783605449_1_alg».proof.Proof.Gen.Kernel.Launch
import proofs.«430049_j55997783605449_1_alg».proof.Proof.Gen.Kernel.Skeleton
import proofs.«430049_j55997783605449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- the tables have long axes: a structural look at a rectangle of their extents recurses along them
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 3 of @main: custom_call 3, `cc3__pool_kernel` (pipeline 3), at the entry contents `V` -/

/-! ## The windows' blocks -/

/-- Window `w`'s block at point `t`: the sub-array its block index selects at `t`, read off the window's array as the
    region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the left operand's column block): its current staging buffer holds its block at every point, for
    ANY proof data whose array is `V`'s (`hA`) and whose body leaves the block in place (`hafter`). The window is
    uncut and has no idle point, so where it is fetched the buffer is the fetched block, and where it is not the block
    index has not moved since the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the right operand's row block): the same. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The carried accumulator -/

/-- The scratch operand: a whole scoped buffer of the kernel's own, passed beside the windows. -/
abbrev scM3 : Memref sig .tc .vmem S256x128 .f32 := Memref.whole cc3_scratch0

/-- What the scratch holds after point `n`: the accumulated table. After the first point, the product of the first
    two blocks added to the zero table; after each later point, that point's product added to what the point before
    left. -/
def acc3 (c : Dev nD) : (n : ℕ) → n < cfg3.N → Vec F S256x128 .f32
  | 0, h => k3_pay2 (iblk3 V c 0 ⟨0, h⟩) (iblk3 V c 1 ⟨0, h⟩) (k3_pay1 (F := F))
  | n + 1, h => k3_pay2 (iblk3 V c 0 ⟨n + 1, h⟩) (iblk3 V c 1 ⟨n + 1, h⟩) (acc3 c n (Nat.lt_of_succ_lt h))

/-- The recursion's two equations. -/
theorem acc3_zero (c : Dev nD) (h : 0 < cfg3.N) :
    acc3 V c 0 h = k3_pay2 (iblk3 V c 0 ⟨0, h⟩) (iblk3 V c 1 ⟨0, h⟩) (k3_pay1 (F := F)) := rfl
theorem acc3_succ (c : Dev nD) (n : ℕ) (h : n + 1 < cfg3.N) :
    acc3 V c (n + 1) h = k3_pay2 (iblk3 V c 0 ⟨n + 1, h⟩) (iblk3 V c 1 ⟨n + 1, h⟩) (acc3 V c n (Nat.lt_of_succ_lt h)) := rfl

/-- The accumulated table at the first point, stated at the point. -/
theorem acc3_at_zero (c : Dev nD) (t : Fin cfg3.N) (h0 : t.val = 0) :
    acc3 V c t.val t.isLt = k3_pay2 (iblk3 V c 0 t) (iblk3 V c 1 t) (k3_pay1 (F := F)) := by
  obtain ⟨n, hn⟩ := t
  cases n with
  | zero => rfl
  | succ n => exact absurd h0 (Nat.succ_ne_zero n)

/-- The accumulated table at a later point, stated at the point: its product added to what the point before left. -/
theorem acc3_at_pos (c : Dev nD) (t : Fin cfg3.N) (h0 : t.val ≠ 0) :
    acc3 V c t.val t.isLt
      = k3_pay2 (iblk3 V c 0 t) (iblk3 V c 1 t) (acc3 V c (t.val - 1) (Nat.lt_of_le_of_lt (Nat.sub_le _ _) t.isLt)) := by
  obtain ⟨n, hn⟩ := t
  cases n with
  | zero => exact absurd rfl h0
  | succ n => rfl

/-! ## The body's branch conditions -/

/-- The condition of the body's first conditional (the accumulator's zeroing), from the grid coordinate: the
    skeleton's scalar chain substituted. -/

abbrev cond3_0 (i : grid3.Coords) : Prop := (Scalar.cmpi .ne (Scalar.extui (Scalar.cmpi .eq (BitVec.ofNat 32 (i 0).val) 0#32)) 0#32) = 1#1
/-- The condition of the body's second conditional (the copy into the result). -/
abbrev cond3_1 (i : grid3.Coords) : Prop := k3_cond2 i = 1#1

/-- The first holds at point 0 only, the second at point 13 only: decided over the grid. -/
theorem hcond3_0 : ∀ t : Fin cfg3.N, cond3_0 (grid3.coords t) ↔ t.val = 0 :=
  (by decide +kernel : ∀ t : Fin grid3.N, cond3_0 (grid3.coords t) ↔ t.val = 0)
theorem hcond3_1 : ∀ t : Fin cfg3.N, cond3_1 (grid3.coords t) ↔ t.val = 13 :=
  (by decide +kernel : ∀ t : Fin grid3.N, cond3_1 (grid3.coords t) ↔ t.val = 13)

/-! ## Whole-buffer loads and stores

Every access of the body is through the rectangle of a buffer's full extents at offset zero. A load through it reads
the buffer's contents; a store through it, last, leaves its payload whatever was stored before; a load through it
after such a store reads that payload. -/

/-- The zero offsets, however spelt. -/
theorem hz3 : (![0, 0] : Fin 2 → Nat) = fun _ => 0 := funext fun a => by fin_cases a <;> rfl

/-- The whole 256x128 buffer (the scratch, the result window), the whole 256x3584 buffer (window 0) and the whole
    3584x128 buffer (window 1), each as one rectangle. -/
abbrev r3s : Rect S256x128 := Rect.unit (s := S256x128) ![0, 0] S256x128.size inb_S256x128_S256x128_0_0
abbrev r3a : Rect S256x3584 := Rect.unit (s := S256x3584) ![0, 0] S256x3584.size inb_S256x3584_S256x3584_0_0
abbrev r3b : Rect S3584x128 := Rect.unit (s := S3584x128) ![0, 0] S3584x128.size inb_S3584x128_S3584x128_0_0

/-- A load through the whole-buffer rectangle reads the contents. -/
theorem ld3a (X : Vec F S256x3584 .f32) : View.ld X r3a = X := View.ld_unit_zero (S := S256x3584) hz3 _ X
theorem ld3b (X : Vec F S3584x128 .f32) : View.ld X r3b = X := View.ld_unit_zero (S := S3584x128) hz3 _ X
theorem ld3s (X : Vec F S256x128 .f32) : View.ld X r3s = X := View.ld_unit_zero (S := S256x128) hz3 _ X

/-- A list of stores headed by a whole-buffer store covers the buffer. -/
theorem cover3s (p : Vec F S256x128 .f32) (L : List (View.Piece (Elt F) S256x128 .f32)) (y : S256x128.Idx) :
    ∃ pc ∈ ((⟨r3s, p⟩ : View.Piece (Elt F) S256x128 .f32) :: L), y ∈ pc.1.set :=
  ⟨_, List.mem_cons_self, View.mem_set_unit_zero (S := S256x128) hz3 inb_S256x128_S256x128_0_0 y⟩

/-- After stores the last of which is a whole-buffer store, the buffer reads that store's payload, whatever view it is
    read through and whatever it held before. -/
theorem read3s (v : View sig .tc .vmem S256x128 .f32) (fs : v.ty.Contents (Elt F)) (p : Vec F S256x128 .f32)
    (L : List (View.Piece (Elt F) S256x128 .f32)) :
    v.read (Elt F) (v.writes (Elt F) fs ((⟨r3s, p⟩ : View.Piece (Elt F) S256x128 .f32) :: L)) = p := by
  rw [View.read_writes_eq_canon v fs _ (cover3s p L)]
  exact View.canon_cons_unit_zero (S := S256x128) hz3 _ p L

/-- A whole-buffer load after such stores reads the last one's payload. -/
theorem readCov3s (v : View sig .tc .vmem S256x128 .f32) (p : Vec F S256x128 .f32)
    (L : List (View.Piece (Elt F) S256x128 .f32)) :
    v.readCov ((⟨r3s, p⟩ : View.Piece (Elt F) S256x128 .f32) :: L) r3s.toLoadRect = p :=
  View.readCov_cons_toLoadRect v r3s p L

/-- The accumulation step respects equality of its three arguments. -/
theorem pay3_congr {a a' : Vec F S256x3584 .f32} {b b' : Vec F S3584x128 .f32} {s s' : Vec F S256x128 .f32}
    (ha : a = a') (hb : b = b') (hs : s = s') : k3_pay2 a b s = k3_pay2 a' b' s' := by
  subst ha; subst hb; subst hs; rfl

/-! ## The body's triple, in its three control cases

The body is its skeleton: under the first condition, a load of the scratch whose value is not used and a whole-buffer
store of the zero table into it; then loads of the two input buffers and two loads of the scratch (the second unused),
and a whole-buffer store of the accumulation step's payload into the scratch; then, under the second condition, a
load of the scratch, an unused load of the result buffer and a whole-buffer store of the loaded table into it. Each
case is run on whole memrefs, the inputs' at read contents `x0`, `x1`, each conditional decided by the case's
hypothesis. The result buffer is not mentioned where the case does not touch it. -/

set_option maxHeartbeats 1000000 in
/-- THE FIRST POINT (first conditional taken, second not): from the scratch at anything, the body leaves in it the
    first product added to the zero table. -/
theorem run3_first (c : Dev nD) (E : Set ℕ) (i : grid3.Coords)
    (arg1 : Memref sig .tc .vmem S256x3584 .f32) (harg1 : arg1.IsWhole)
    (arg2 : Memref sig .tc .vmem S3584x128 .f32) (harg2 : arg2.IsWhole)
    (arg3 : Memref sig .tc .vmem S256x128 .f32) (harg3 : arg3.IsWhole)
    (arg4 : Memref sig .tc .vmem S256x128 .f32) (harg4 : arg4.IsWhole)
    (hc0 : cond3_0 i) (hc1 : ¬cond3_1 i)
    (x0 : Vec F S256x3584 .f32) (x1 : Vec F S3584x128 .f32) (K : PUnit → sProp 𝕄) :
    iprop(owns (c : Thread nD τ) arg1 fullShare x0 ∗ owns (c : Thread nD τ) arg2 fullShare x1
        ∗ (∃ d, owns (c : Thread nD τ) arg4 fullShare d)
        ∗ (iprop(owns (c : Thread nD τ) arg1 fullShare x0 ∗ owns (c : Thread nD τ) arg2 fullShare x1
            ∗ owns (c : Thread nD τ) arg4 fullShare (k3_pay2 x0 x1 (k3_pay1 (F := F)))) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%ds, %fs, -, HS⟩, Hk⟩
  subst hf0
  subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read3s, readCov3s]
  exact pay3_congr (ld3a _) (ld3b _) rfl

set_option maxHeartbeats 1000000 in
/-- A MIDDLE POINT (neither conditional taken): from the scratch at `xs`, the body leaves in it the point's product
    added to `xs`. -/
theorem run3_mid (c : Dev nD) (E : Set ℕ) (i : grid3.Coords)
    (arg1 : Memref sig .tc .vmem S256x3584 .f32) (harg1 : arg1.IsWhole)
    (arg2 : Memref sig .tc .vmem S3584x128 .f32) (harg2 : arg2.IsWhole)
    (arg3 : Memref sig .tc .vmem S256x128 .f32) (harg3 : arg3.IsWhole)
    (arg4 : Memref sig .tc .vmem S256x128 .f32) (harg4 : arg4.IsWhole)
    (hc0 : ¬cond3_0 i) (hc1 : ¬cond3_1 i)
    (x0 : Vec F S256x3584 .f32) (x1 : Vec F S3584x128 .f32) (xs : Vec F S256x128 .f32) (K : PUnit → sProp 𝕄) :
    iprop(owns (c : Thread nD τ) arg1 fullShare x0 ∗ owns (c : Thread nD τ) arg2 fullShare x1
        ∗ owns (c : Thread nD τ) arg4 fullShare xs
        ∗ (iprop(owns (c : Thread nD τ) arg1 fullShare x0 ∗ owns (c : Thread nD τ) arg2 fullShare x1
            ∗ owns (c : Thread nD τ) arg4 fullShare (k3_pay2 x0 x1 xs)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%fs, %hfs, HS⟩, Hk⟩
  subst hf0
  subst hf1
  subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read3s]
  exact pay3_congr (ld3a _) (ld3b _) (ld3s _)

set_option maxHeartbeats 1000000 in
/-- THE LAST POINT (first conditional not taken, second taken): from the scratch at `xs` and the result buffer at
    anything, the body leaves in both the point's product added to `xs`. -/
theorem run3_last (c : Dev nD) (E : Set ℕ) (i : grid3.Coords)
    (arg1 : Memref sig .tc .vmem S256x3584 .f32) (harg1 : arg1.IsWhole)
    (arg2 : Memref sig .tc .vmem S3584x128 .f32) (harg2 : arg2.IsWhole)
    (arg3 : Memref sig .tc .vmem S256x128 .f32) (harg3 : arg3.IsWhole)
    (arg4 : Memref sig .tc .vmem S256x128 .f32) (harg4 : arg4.IsWhole)
    (hc0 : ¬cond3_0 i) (hc1 : cond3_1 i)
    (x0 : Vec F S256x3584 .f32) (x1 : Vec F S3584x128 .f32) (xs : Vec F S256x128 .f32) (K : PUnit → sProp 𝕄) :
    iprop(owns (c : Thread nD τ) arg1 fullShare x0 ∗ owns (c : Thread nD τ) arg2 fullShare x1
        ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k3_pay2 x0 x1 xs)
            ∗ owns (c : Thread nD τ) arg4 fullShare (k3_pay2 x0 x1 xs)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d2, %f2, -, H2⟩, ⟨%fs, %hfs, HS⟩, Hk⟩
  subst hf0
  subst hf1
  subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read3s, readCov3s]
    exact pay3_congr (ld3a _) (ld3b _) (ld3s _)
  iexists _; isplitr
  swap; · iexact HS
  ipureintro
  sl_unfold_run_names
  rw [read3s]
  exact pay3_congr (ld3a _) (ld3b _) (ld3s _)

/-! ## The region invariant -/

/-- Separating conjunction associates, as an equation of propositions. -/
theorem sep_assoc_eq3 (P Q R : sProp 𝕄) : (iprop((P ∗ Q) ∗ R) : sProp 𝕄) = iprop(P ∗ Q ∗ R) := by
  have h₁ : (iprop((P ∗ Q) ∗ R) : sProp 𝕄) ⊢ iprop(P ∗ Q ∗ R) := by
    iintro ⟨⟨HP, HQ⟩, HR⟩
    isplitl [HP]; · iexact HP
    isplitl [HQ]; · iexact HQ
    iexact HR
  have h₂ : (iprop(P ∗ Q ∗ R) : sProp 𝕄) ⊢ iprop((P ∗ Q) ∗ R) := by
    iintro ⟨HP, HQ, HR⟩
    isplitr [HR]
    · isplitl [HP]; · iexact HP
      iexact HQ
    iexact HR
  exact BI.equiv_iff.mp ⟨h₁, h₂⟩

/-- What the class invariant holds beside the scratch: the core's other scoped buffers that are no staging buffer of
    this call, each at some contents, and the generator register at some state. -/
def Rest3 (c : Dev nD) : sProp 𝕄 :=
  iprop(Pipeline.scopedRestBut (Ix := Unit) (Name := ℕ) (U := UR sig nD τ) (Lvl := ℕ) (Val := Elt F) spec3 c [cc3_scratch0]
    ∗ ∃ r, prngReg c r)

/-- The class invariant with the scratch split off as a memref owned at some contents: what the body obligation hands
    the run at the first point and what the region gives back. -/
theorem PhiA3_eq (c : Dev nD) :
    (Pipeline.ΦA spec3 c : sProp 𝕄) = iprop((∃ d, owns (c : Thread nD τ) scM3 fullShare d) ∗ Rest3 c) := by
  unfold Pipeline.ΦA Rest3
  rw [Pipeline.scopedRest_split_of_list spec3 c [cc3_scratch0] (by decide) (by decide)]
  simp only [scM3, owns_whole]
  exact sep_assoc_eq3 _ _ _

/-- The region invariant before position `n`: before the first point the class's (the scratch at anything);
    afterwards the scratch at the table accumulated through the point before, the rest as the class has it. -/
def PhiS3 (c : Dev nD) : (n : ℕ) → n ≤ cfg3.N → sProp 𝕄
  | 0, _ => Pipeline.ΦA spec3 c
  | n + 1, hn => iprop(owns (c : Thread nD τ) scM3 fullShare (acc3 V c n hn) ∗ Rest3 c)

theorem PhiS3_zero (c : Dev nD) (n : ℕ) (h : n ≤ cfg3.N) (hz : n = 0) : PhiS3 V c n h = Pipeline.ΦA spec3 c := by
  subst hz; rfl

/-- After point `n` (before point `n + 1`): the scratch at that point's accumulated table. -/
theorem PhiS3_succ (c : Dev nD) (n : ℕ) (hn : n < cfg3.N) :
    PhiS3 V c (n + 1) hn = iprop(owns (c : Thread nD τ) scM3 fullShare (acc3 V c n hn) ∗ Rest3 c) := rfl

/-- Before a point that is not the first: the scratch at what the point before left. -/
theorem PhiS3_pos (c : Dev nD) (n : ℕ) (h : n ≤ cfg3.N) (hz : n ≠ 0) :
    PhiS3 V c n h = iprop(owns (c : Thread nD τ) scM3 fullShare (acc3 V c (n - 1) (by omega)) ∗ Rest3 c) := by
  cases n with
  | zero => exact absurd rfl hz
  | succ n => rfl

/-! ## The pipeline's proof data -/

/-- The proof data of pipeline 3 on core `c`: the arrays as the region finds them (`V`); after the body at point `t`
    each input's buffer still at its block and the result's at the table accumulated through `t` (what the last point
    stores there; at the other points the window is idle and this is not consulted); the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the definition's case split reduced at each window number). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

/-- The invariant at a point's start, restated at the point's number. -/
theorem PhiS3_castSucc (c : Dev nD) (t : Fin cfg3.N) :
    (dat3 V c).Φ t.castSucc = PhiS3 V c t.val (Nat.le_of_lt t.isLt) := by
  dsimp only [dat3]; simp only [Fin.coe_castSucc]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## Where the windows are idle -/

/-- The input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
/-- Where the second conditional is not taken the result window is idle, and the pipeline does not write it back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
/-- Where it is taken the result window is live. -/
theorem liveAt3_2 : ∀ t : Fin cfg3.N, cond3_1 (grid3.coords t) → cfg3.idle 2 (grid3.coords t) = false := by decide +kernel

/-! ## The body obligation, at a generic point -/

/-- What the body is called with at point `t`: the invariant, the core's debt, and each window's current staging
    buffer at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns: the invariant at the next position, the same debt, each buffer at what the body leaves (an
    idle window's at what it held). -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' memrefs hold their blocks; the point's number says which of the three cases it
    is in. At the first point the invariant is the class's and hands the run the scratch at anything; at a later point
    it hands the scratch at what the point before left. The run gives the scratch back at this point's accumulated
    table, which is the invariant at the next position. The result window's buffer is handed back untouched at the
    points where it is idle, and at the last point holds the accumulated table. The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 14 := lt_of_lt_of_eq t.isLt (show cfg3.N = 14 from N_3)
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  by_cases h0 : t.val = 0
  · have h1 : ¬t.val = 13 := by omega
    rw [Dat.leavesExact_idle (dat3 V c) 2 t (idleAt3_2 t (fun h => h1 ((hcond3_1 t).mp h))) (noFlush3_2 t (fun h => h1 ((hcond3_1 t).mp h)))]
    rw [acc3_at_zero V c t h0]
    rw [PhiS3_castSucc V c t, PhiS3_zero V c _ _ h0, PhiA3_eq]
    iintro ⟨⟨HS, HR⟩, Ho, ⟨%d0, H0⟩, ⟨%d1, H1⟩, ⟨%d2, H2⟩⟩
    iapply (run3_first c Set.univ (grid3.coords t) _ _ _ _ _ _ _ _ ((hcond3_0 t).mpr h0) (fun h => h1 ((hcond3_1 t).mp h)) (iblk3 V c 0 t) (iblk3 V c 1 t) _)
    isplitl [H0]; · iexact H0
    isplitl [H1]; · iexact H1
    isplitl [HS]; · iexact HS
    iintro ⟨H0, H1, HS⟩
    isplitl [HS HR]
    · isplitl [HS]; · iexact HS
      iexact HR
    isplitl [Ho]; · iexact Ho
    isplitl [H0]; · iexact H0
    isplitl [H1]; · iexact H1
    iexists _; iexact H2
  · by_cases h1 : t.val = 13
    · rw [show (dat3 V c).leavesExact 2 t = owns (c : Thread nD τ) (st3_2 t) fullShare ((dat3 V c).after 2 t) from by
        unfold Dat.leavesExact; rw [liveAt3_2 t ((hcond3_1 t).mpr h1)], after3_2]
      rw [acc3_at_pos V c t h0]
      rw [PhiS3_castSucc V c t, PhiS3_pos V c _ _ h0]
      iintro ⟨⟨HS, HR⟩, Ho, ⟨%d0, H0⟩, ⟨%d1, H1⟩, ⟨%d2, H2⟩⟩
      iapply (run3_last c Set.univ (grid3.coords t) _ _ _ _ _ _ _ _ (fun h => h0 ((hcond3_0 t).mp h)) ((hcond3_1 t).mpr h1) (iblk3 V c 0 t) (iblk3 V c 1 t) _ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat3 V c) 2 t (idleAt3_2 t (fun h => h1 ((hcond3_1 t).mp h))) (noFlush3_2 t (fun h => h1 ((hcond3_1 t).mp h)))]
      rw [acc3_at_pos V c t h0]
      rw [PhiS3_castSucc V c t, PhiS3_pos V c _ _ h0]
      iintro ⟨⟨HS, HR⟩, Ho, ⟨%d0, H0⟩, ⟨%d1, H1⟩, ⟨%d2, H2⟩⟩
      iapply (run3_mid c Set.univ (grid3.coords t) _ _ _ _ _ _ _ _ (fun h => h0 ((hcond3_0 t).mp h)) (fun h => h1 ((hcond3_1 t).mp h)) (iblk3 V c 0 t) (iblk3 V c 1 t) _ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexists _; iexact H2

/-- The library's body obligation, at every point: its conjunctions over the three windows written out. -/
theorem body_obligation3 (c : Dev nD) : BodyObligation (dat3 (F := F) V c) (defs₀ (F := F)) Variants.none () Set.univ := fun t => by
  rw [bigSep_W3, bigSep_W3]
  exact sound_body3 V c t

/-! ## The invariant's two ends -/

/-- What the launch hands the region (the class invariant) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class invariant back: the scratch's named contents are
    forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨HS, HR⟩
  isplitl [HS]
  · iexists _; iexact HS
  iexact HR

/-- The same after the last point. -/
theorem hout3 (c : Dev nD) : (dat3 V c).Φ (Fin.last cfg3.N) ⊢ Pipeline.ΦA spec3 c :=
  Phi_out3 V c _ (by rw [Fin.val_last]; have : cfg3.N = 14 := N_3; omega)

end Cert.Kernel.Hand

end
-- ==== Proof.K.Mlp4.lean ====
/- The class-A half of REGION 4 of the kernel's @main: the last pallas_call, the two-layer perceptron on the pooled
   features, one grid point, five input windows (the pooled features, the two weight matrices and the two bias rows)
   and one output window (the logits). Everything is stated at a PARAMETER V, the TensorCore's buffer contents when
   the region is entered: each window's block read off V, what the body leaves in the output window's staging buffer
   as a function of the five input blocks, the body's triple, the pipeline's proof data and the body obligation. -/
import proofs.«430049_j55997783605449_1_alg».proof.Proof.Gen.Kernel.Launch
import proofs.«430049_j55997783605449_1_alg».proof.Proof.Gen.Kernel.Skeleton
import proofs.«430049_j55997783605449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 4: the perceptron call, at the entry contents V -/

/-! ## The windows' blocks -/

/-- Window w's block at point t, read off its array as the region finds it (V). Every window of this call is the
    whole of its array, and the grid has one point. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for ANY proof
    data whose array is V's (hA) and whose body leaves the block in place (hafter): the window is uncut and never
    idle, so what it holds is what a fetch there would put in it, and that is the block. One statement per input. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each load and the one store take the whole of their buffer -/

abbrev r4_0 : Rect S256x128 := Rect.unit (s := S256x128) ![0, 0] S256x128.size inb_S256x128_S256x128_0_0
abbrev r4_1 : Rect S128x256 := Rect.unit (s := S128x256) ![0, 0] S128x256.size inb_S128x256_S128x256_0_0
abbrev r4_2 : Rect S256 := Rect.unit (s := S256) ![0] S256.size inb_S256_S256_0
abbrev r4_3 : Rect S256x2 := Rect.unit (s := S256x2) ![0, 0] S256x2.size inb_S256x2_S256x2_0_0
abbrev r4_4 : Rect S2 := Rect.unit (s := S2) ![0] S2.size inb_S2_S2_0

/-! ## What the body leaves in the output window's buffer -/

/-- Window 5's staging buffer after the body, from the five input blocks: its one store, of the whole buffer, whose
    payload is relu(bf16(pooled) · bf16(w1) + b1) rounded to bf16, times bf16(w2), plus b2 (the skeleton's payload). -/
def out4_5 (x0 : Vec F S256x128 .f32) (x1 : Vec F S128x256 .f32) (x2 : Vec F S256 .f32) (x3 : Vec F S256x2 .f32) (x4 : Vec F S2 .f32) :
    Vec F S256x2 .f32 :=
  View.canon [⟨r4_3, k4_pay1 (View.ld x0 r4_0) (View.ld x1 r4_1) (View.ld x2 r4_2) (View.ld x3 r4_3) (View.ld x4 r4_4)⟩]

/-- The one store is of the whole buffer, so it covers it. -/
theorem cover4_5 (p0 : Vec F S256x2 .f32) (y : S256x2.Idx) :
    ∃ pc ∈ ([⟨r4_3, p0⟩] : List (View.Piece (Elt F) S256x2 .f32)), y ∈ pc.1.set :=
  View.cover_of_tiled [⟨r4_3, p0⟩] S256x2.size (by rfl) y

/-! ## The body's triple -/

set_option maxHeartbeats 1000000 in
/-- The kernel body on whole staging memrefs, the five inputs' at read contents x0 … x4 and the output's at anything,
    runs to the continuation holding the inputs' as they were and the output's at out4_5 of the inputs'. The body
    reads its output buffer once before the store (a value nothing uses): a read of unknown contents is allowed. -/
theorem sound_kernel4 (c : Dev nD) (E : Set ℕ) (i : grid4.Coords)
    (arg0 : Memref sig .tc .vmem S256x128 .f32) (harg0 : arg0.IsWhole) (arg1 : Memref sig .tc .vmem S128x256 .f32) (harg1 : arg1.IsWhole)
    (arg2 : Memref sig .tc .vmem S256 .f32) (harg2 : arg2.IsWhole) (arg3 : Memref sig .tc .vmem S256x2 .f32) (harg3 : arg3.IsWhole)
    (arg4 : Memref sig .tc .vmem S2 .f32) (harg4 : arg4.IsWhole) (arg5 : Memref sig .tc .vmem S256x2 .f32) (harg5 : arg5.IsWhole)
    (x0 : Vec F S256x128 .f32) (x1 : Vec F S128x256 .f32) (x2 : Vec F S256 .f32) (x3 : Vec F S256x2 .f32) (x4 : Vec F S2 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out4_5 x0 x1 x2 x3 x4)) -∗ K ⟨⟩))
      ⊢ wp frame (wpE (defs₀ (F := F)) Variants.none c none) E (cc4__mlp_kernel i arg0 harg0 arg1 harg1 arg2 harg2 arg3 harg3 arg4 harg4 arg5 harg5) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core c: the arrays as the region finds them (V); after the body at point t each
    input's buffer at its block and the output's at out4_5 of the five input blocks; the invariant says the scoped
    rest and the generator register are untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point t: the invariant, the core's debt, and each window's current staging buffer. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so the body's triple applies; the invariant and the
    core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Chain.lean ====
/- The buffer contents of core c at each boundary of @main: at launch the launch memory; after a host stretch the stretch's
   operations applied to the contents before it; after a kernel region the region's arrays at what its write-backs leave
   (the proof data's final arrays) and every other buffer as before. -/
import proofs.«430049_j55997783605449_1_alg».proof.Proof.K.Lin0
import proofs.«430049_j55997783605449_1_alg».proof.Proof.K.Lin1
import proofs.«430049_j55997783605449_1_alg».proof.Proof.K.Lin2
import proofs.«430049_j55997783605449_1_alg».proof.Proof.K.Pool3
import proofs.«430049_j55997783605449_1_alg».proof.Proof.K.Mlp4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host stretch hostOps0. -/
abbrev W1 : Dev nD → Valuation τ sig (Elt F) := fun c => StableHlo.after hostOps0 (W0 m ρ c)
/-- After the host stretch hostOps0_1. -/
abbrev W2 : Dev nD → Valuation τ sig (Elt F) := fun c => StableHlo.after hostOps0_1 (W1 m ρ c)
/-- After the host stretch hostOps0_2. -/
abbrev W3 : Dev nD → Valuation τ sig (Elt F) := fun c => StableHlo.after hostOps0_2 (W2 m ρ c)
/-- The contents region 0 is entered from, read at the TensorCore's references. -/
abbrev V3 : (c : Dev nD) → (b : Ref sig .tc) → Buf (Elt F) ((c : Thread nD τ).loc b) := fun c b => W3 m ρ c b
/-- At region 0's exit: its arrays at what the write-backs leave, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references (region 0's exit contents). -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host stretch hostOps1. -/
abbrev W5 : Dev nD → Valuation τ sig (Elt F) := fun c => StableHlo.after hostOps1 (W4 m ρ c)
/-- After the host stretch hostOps1_1. -/
abbrev W6 : Dev nD → Valuation τ sig (Elt F) := fun c => StableHlo.after hostOps1_1 (W5 m ρ c)
/-- After the host stretch hostOps1_2. -/
abbrev W7 : Dev nD → Valuation τ sig (Elt F) := fun c => StableHlo.after hostOps1_2 (W6 m ρ c)
/-- The contents region 1 is entered from, read at the TensorCore's references. -/
abbrev V7 : (c : Dev nD) → (b : Ref sig .tc) → Buf (Elt F) ((c : Thread nD τ).loc b) := fun c b => W7 m ρ c b
/-- At region 1's exit: its arrays at what the write-backs leave, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references (region 1's exit contents). -/
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- After the host stretch hostOps2. -/
abbrev W9 : Dev nD → Valuation τ sig (Elt F) := fun c => StableHlo.after hostOps2 (W8 m ρ c)
/-- After the host stretch hostOps2_1. -/
abbrev W10 : Dev nD → Valuation τ sig (Elt F) := fun c => StableHlo.after hostOps2_1 (W9 m ρ c)
/-- After the host stretch hostOps2_2. -/
abbrev W11 : Dev nD → Valuation τ sig (Elt F) := fun c => StableHlo.after hostOps2_2 (W10 m ρ c)
/-- The contents region 2 is entered from, read at the TensorCore's references. -/
abbrev V11 : (c : Dev nD) → (b : Ref sig .tc) → Buf (Elt F) ((c : Thread nD τ).loc b) := fun c b => W11 m ρ c b
/-- At region 2's exit: its arrays at what the write-backs leave, every other buffer as entered. -/
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
/-- The same read at the TensorCore's references (region 2's exit contents). -/
abbrev V12 : (c : Dev nD) → (b : Ref sig .tc) → Buf (Elt F) ((c : Thread nD τ).loc b) := fun c b => W12 m ρ c b
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)
/-- After the host stretch hostOps3. -/
abbrev W13 : Dev nD → Valuation τ sig (Elt F) := fun c => StableHlo.after hostOps3 (W12 m ρ c)
/-- After the host stretch hostOps3_1. -/
abbrev W14 : Dev nD → Valuation τ sig (Elt F) := fun c => StableHlo.after hostOps3_1 (W13 m ρ c)
/-- After the host stretch hostOps3_2. -/
abbrev W15 : Dev nD → Valuation τ sig (Elt F) := fun c => StableHlo.after hostOps3_2 (W14 m ρ c)
/-- After the host stretch hostOps3_3. -/
abbrev W16 : Dev nD → Valuation τ sig (Elt F) := fun c => StableHlo.after hostOps3_3 (W15 m ρ c)
/-- After the host stretch hostOps3_4. -/
abbrev W17 : Dev nD → Valuation τ sig (Elt F) := fun c => StableHlo.after hostOps3_4 (W16 m ρ c)
/-- After the host stretch hostOps3_5. -/
abbrev W18 : Dev nD → Valuation τ sig (Elt F) := fun c => StableHlo.after hostOps3_5 (W17 m ρ c)
/-- After the host stretch hostOps3_6. -/
abbrev W19 : Dev nD → Valuation τ sig (Elt F) := fun c => StableHlo.after hostOps3_6 (W18 m ρ c)
/-- The contents region 3 is entered from, read at the TensorCore's references. -/
abbrev V19 : (c : Dev nD) → (b : Ref sig .tc) → Buf (Elt F) ((c : Thread nD τ).loc b) := fun c b => W19 m ρ c b
/-- At region 3's exit: its arrays at what the write-backs leave, every other buffer as entered. -/
def W20 (c : Dev nD) : Valuation τ sig (Elt F) :=
  Pipeline.withArrays spec3 c (W19 m ρ c) fun w => (dat3 (V19 m ρ) c).arrAt w cfg3.N
theorem W20_arr (c : Dev nD) (w : Fin cfg3.W) :
    W20 m ρ c (Proc.devRef .tc (Pipeline.arrRef spec3 w)) = (dat3 (V19 m ρ) c).arrAt w cfg3.N := by
  unfold W20; exact Pipeline.withArrays_arr spec3 launch3.win.arr_inj c _ _ w
theorem W20_of_ne (c : Dev nD) (b : Ref sig .tc) (hb : ∀ w, Pipeline.arrRef spec3 w ≠ b) :
    W20 m ρ c (Proc.devRef .tc b) = W19 m ρ c (Proc.devRef .tc b) := by
  unfold W20; exact Pipeline.withArrays_of_ne spec3 c _ _ b hb
/-- The same read at the TensorCore's references (region 3's exit contents). -/
abbrev V20 : (c : Dev nD) → (b : Ref sig .tc) → Buf (Elt F) ((c : Thread nD τ).loc b) := fun c b => W20 m ρ c b
theorem hF3 (c : Dev nD) (w : Fin cfg3.W) : (dat3 (V19 m ρ) c).arrAt w cfg3.N = V20 m ρ c (Pipeline.arrRef spec3 w) :=
  (W20_arr m ρ c w).symm
theorem hrest3 (c : Dev nD) : ∀ b, b ∉ Finset.univ.image (Pipeline.arrRef spec3) → V20 m ρ c b = V19 m ρ c b :=
  fun b hb => W20_of_ne m ρ c b fun w e => hb (Finset.mem_image.mpr ⟨w, Finset.mem_univ _, e⟩)
/-- After the host stretch hostOps4. -/
abbrev W21 : Dev nD → Valuation τ sig (Elt F) := fun c => StableHlo.after hostOps4 (W20 m ρ c)
/-- The contents region 4 is entered from, read at the TensorCore's references. -/
abbrev V21 : (c : Dev nD) → (b : Ref sig .tc) → Buf (Elt F) ((c : Thread nD τ).loc b) := fun c b => W21 m ρ c b
/-- At region 4's exit: its arrays at what the write-backs leave, every other buffer as entered. -/
def W22 (c : Dev nD) : Valuation τ sig (Elt F) :=
  Pipeline.withArrays spec4 c (W21 m ρ c) fun w => (dat4 (V21 m ρ) c).arrAt w cfg4.N
theorem W22_arr (c : Dev nD) (w : Fin cfg4.W) :
    W22 m ρ c (Proc.devRef .tc (Pipeline.arrRef spec4 w)) = (dat4 (V21 m ρ) c).arrAt w cfg4.N := by
  unfold W22; exact Pipeline.withArrays_arr spec4 launch4.win.arr_inj c _ _ w
theorem W22_of_ne (c : Dev nD) (b : Ref sig .tc) (hb : ∀ w, Pipeline.arrRef spec4 w ≠ b) :
    W22 m ρ c (Proc.devRef .tc b) = W21 m ρ c (Proc.devRef .tc b) := by
  unfold W22; exact Pipeline.withArrays_of_ne spec4 c _ _ b hb
/-- The same read at the TensorCore's references (region 4's exit contents). -/
abbrev V22 : (c : Dev nD) → (b : Ref sig .tc) → Buf (Elt F) ((c : Thread nD τ).loc b) := fun c b => W22 m ρ c b
theorem hF4 (c : Dev nD) (w : Fin cfg4.W) : (dat4 (V21 m ρ) c).arrAt w cfg4.N = V22 m ρ c (Pipeline.arrRef spec4 w) :=
  (W22_arr m ρ c w).symm
theorem hrest4 (c : Dev nD) : ∀ b, b ∉ Finset.univ.image (Pipeline.arrRef spec4) → V22 m ρ c b = V21 m ρ c b :=
  fun b hb => W22_of_ne m ρ c b fun w e => hb (Finset.mem_image.mpr ⟨w, Finset.mem_univ _, e⟩)

end Cert.Kernel.Hand

end
-- ==== Proof.K.Run.lean ====
/-
  The run of the whole program, from the launch to the return: @main is cut into its 22 items — host stretches and the
  five kernel regions — and carried through them one after the other.  Between two items every unscoped buffer of the
  core is held at the contents the table of Chain.lean names for that boundary; a host stretch moves them by its
  operations, a region takes its windows' arrays out, runs its pipeline against that region's proof data (entered at the
  boundary's contents) and puts the arrays back at what the write-backs leave.  At the end every buffer is read off the
  last boundary's contents: the arguments are untouched by every item, and the result is region 4's final output array.
-/
import proofs.«430049_j55997783605449_1_alg».proof.Proof.K.Chain
import proofs.«430049_j55997783605449_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- No pipeline has a prefetched table. -/
abbrev adm : (p : Fin 5) → (pcfgs (F := F) p).Adm := fun p => (cfgs p).toPCfg_adm
/-- Every pipeline's proof data, each entered at its region's boundary contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
  | ⟨2, _⟩ => fun c => dat2 (V11 m ρ) c
  | ⟨3, _⟩ => fun c => dat3 (V19 m ρ) c
  | ⟨4, _⟩ => fun c => dat4 (V21 m ρ) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those held between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary without the `owes`. -/
abbrev Tₙ (c : Dev nD) : sProp 𝕄 := iprop(StableHlo.held (c : Thread nD τ) (Pipeline.ucRefs τ sig) (W22 m ρ c) ∗ ∃ r, prngReg c r)

/-! ## The regions as segments -/

set_option backward.isDefEq.respectTransparency.types false in
/-- Region 0 between the contents `W3` and `W4`: its arrays are taken out of the unscoped buffers at entry and put back at the
    exit contents; the generator register goes into the region's invariant and comes back; nothing is owed; the kernel has
    no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents `W7` and `W8`: its arrays are taken out of the unscoped buffers at entry and put back at the
    exit contents; the generator register goes into the region's invariant and comes back; nothing is owed; the kernel has
    no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the contents `W11` and `W12`: its arrays are taken out of the unscoped buffers at entry and put back at the
    exit contents; the generator register goes into the region's invariant and comes back; nothing is owed; the kernel has
    no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 between the contents `W19` and `W20`: its arrays are taken out of the unscoped buffers at entry and put back at the
    exit contents; the generator register goes into the region's invariant and comes back; nothing is owed; the kernel has
    no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V19 m ρ) c).loose
  hwaits := Pipeline.hwaits_of_owed_zero _ _ _ _ L lv 3 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec3 c (V19 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 3).pre c (fun _ => fullShare) (adm (F := F) 3).1
        ∗ Pipeline.scopedRest (Pipeline.pin (pcfgs (F := F)) adm 3).spec c) ⊢ (Pipeline.ΦA spec3 c : sProp 𝕄) := by
      unfold Pipeline.ΦA
      iintro ⟨Hp, -, Hr⟩
      isplitl [Hr]; · iexact Hr
      iexact Hp
    exact h.trans (hin3 (V19 m ρ) c)
  hout c := by
    have h : (Pipeline.ΦA spec3 c : sProp 𝕄) ⊢ iprop((∃ r, prngReg c r) ∗ Pipeline.ownSems0 (fun k : PEmpty => k.elim) c
        ∗ Pipeline.scopedRest (Pipeline.pin (pcfgs (F := F)) adm 3).spec c) := by
      rw [Pipeline.ownSems0_none]; unfold Pipeline.ΦA
      iintro ⟨Hr, Hp⟩
      isplitl [Hp]; · iexact Hp
      isplitr; · iempintro
      iexact Hr
    exact (hout3 (V19 m ρ) c).trans h
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V19 m ρ c) (V20 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 between the contents `W21` and `W22`: its arrays are taken out of the unscoped buffers at entry and put back at the
    exit contents; the generator register goes into the region's invariant and comes back; nothing is owed; the kernel has
    no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V21 m ρ) c).loose
  hwaits := Pipeline.hwaits_of_owed_zero _ _ _ _ L lv 4 fun _ _ => rfl
  pre c := iprop(StableHlo.held (c : Thread nD τ) (Pipeline.ucRefs τ sig) (W21 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V21 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V21 m ρ c) (V22 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's 22 items in order. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .region (reg2 m ρ),
    .host (hseg hostOps3 hostOps3_sub hostOps3_fresh (W12 m ρ)),
    .host (hseg hostOps3_1 hostOps3_1_sub hostOps3_1_fresh (W13 m ρ)),
    .host (hseg hostOps3_2 hostOps3_2_sub hostOps3_2_fresh (W14 m ρ)),
    .host (hseg hostOps3_3 hostOps3_3_sub hostOps3_3_fresh (W15 m ρ)),
    .host (hseg hostOps3_4 hostOps3_4_sub hostOps3_4_fresh (W16 m ρ)),
    .host (hseg hostOps3_5 hostOps3_5_sub hostOps3_5_fresh (W17 m ρ)),
    .host (hseg hostOps3_6 hostOps3_6_sub hostOps3_6_fresh (W18 m ρ)),
    .region (reg3 m ρ),
    .host (hseg hostOps4 hostOps4_sub hostOps4_fresh (W20 m ρ)),
    .region (reg4 m ρ) ]

theorem main_run (c : Dev nD) : main (F := F) c = Pipeline.Seg.run (segs m ρ) := by
  rw [main_chain c, Pipeline.Seg.run_eq_chain]; rfl

set_option backward.isDefEq.respectTransparency.types false in
/-- From any memory with zero counters every weakly fair execution of @main terminates, nothing faulting, and the final
    memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W22 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c => h c)

end Cert.Kernel.Hand

end
-- ==== Proof.K.Keep.lean ====
/- What each item of @main leaves unchanged: a host stretch every buffer none of its operations writes; a kernel region every buffer
   that is none of its windows' arrays, and each input window's array. -/
import proofs.«430049_j55997783605449_1_alg».proof.Proof.K.Chain
import proofs.«430049_j55997783605449_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem W0_eq (c : Dev nD) (r : Ref sig .tc) : W0 m ρ c r = m ((c : Thread nD τ).loc r) := rfl
theorem W1_keep (c : Dev nD) (r : Ref sig .tc) (h : r ∉ hostOps0_W) : W1 m ρ c r = W0 m ρ c r :=
  StableHlo.after_of_writes_sub hostOps0 _ hostOps0_writes h
theorem W2_keep (c : Dev nD) (r : Ref sig .tc) (h : r ∉ hostOps0_1_W) : W2 m ρ c r = W1 m ρ c r :=
  StableHlo.after_of_writes_sub hostOps0_1 _ hostOps0_1_writes h
theorem W3_keep (c : Dev nD) (r : Ref sig .tc) (h : r ∉ hostOps0_2_W) : W3 m ρ c r = W2 m ρ c r :=
  StableHlo.after_of_writes_sub hostOps0_2 _ hostOps0_2_writes h
theorem W4_keep (c : Dev nD) (r : Ref sig .tc) (h : ∀ w, Pipeline.arrRef spec0 w ≠ r) : W4 m ρ c r = W3 m ρ c r :=
  W4_of_ne m ρ c r h
theorem W4_in (c : Dev nD) (w : Fin cfg0.W) (hw : (cfg0.win w).isOut = false) :
    W4 m ρ c (Pipeline.arrRef spec0 w) = W3 m ρ c (Pipeline.arrRef spec0 w) :=
  (W4_arr m ρ c w).trans (((dat0 (V3 m ρ) c).arrAt_in w hw _).trans (A_eq0 (V3 m ρ) c w))
theorem W5_keep (c : Dev nD) (r : Ref sig .tc) (h : r ∉ hostOps1_W) : W5 m ρ c r = W4 m ρ c r :=
  StableHlo.after_of_writes_sub hostOps1 _ hostOps1_writes h
theorem W6_keep (c : Dev nD) (r : Ref sig .tc) (h : r ∉ hostOps1_1_W) : W6 m ρ c r = W5 m ρ c r :=
  StableHlo.after_of_writes_sub hostOps1_1 _ hostOps1_1_writes h
theorem W7_keep (c : Dev nD) (r : Ref sig .tc) (h : r ∉ hostOps1_2_W) : W7 m ρ c r = W6 m ρ c r :=
  StableHlo.after_of_writes_sub hostOps1_2 _ hostOps1_2_writes h
theorem W8_keep (c : Dev nD) (r : Ref sig .tc) (h : ∀ w, Pipeline.arrRef spec1 w ≠ r) : W8 m ρ c r = W7 m ρ c r :=
  W8_of_ne m ρ c r h
theorem W8_in (c : Dev nD) (w : Fin cfg1.W) (hw : (cfg1.win w).isOut = false) :
    W8 m ρ c (Pipeline.arrRef spec1 w) = W7 m ρ c (Pipeline.arrRef spec1 w) :=
  (W8_arr m ρ c w).trans (((dat1 (V7 m ρ) c).arrAt_in w hw _).trans (A_eq1 (V7 m ρ) c w))
theorem W9_keep (c : Dev nD) (r : Ref sig .tc) (h : r ∉ hostOps2_W) : W9 m ρ c r = W8 m ρ c r :=
  StableHlo.after_of_writes_sub hostOps2 _ hostOps2_writes h
theorem W10_keep (c : Dev nD) (r : Ref sig .tc) (h : r ∉ hostOps2_1_W) : W10 m ρ c r = W9 m ρ c r :=
  StableHlo.after_of_writes_sub hostOps2_1 _ hostOps2_1_writes h
theorem W11_keep (c : Dev nD) (r : Ref sig .tc) (h : r ∉ hostOps2_2_W) : W11 m ρ c r = W10 m ρ c r :=
  StableHlo.after_of_writes_sub hostOps2_2 _ hostOps2_2_writes h
theorem W12_keep (c : Dev nD) (r : Ref sig .tc) (h : ∀ w, Pipeline.arrRef spec2 w ≠ r) : W12 m ρ c r = W11 m ρ c r :=
  W12_of_ne m ρ c r h
theorem W12_in (c : Dev nD) (w : Fin cfg2.W) (hw : (cfg2.win w).isOut = false) :
    W12 m ρ c (Pipeline.arrRef spec2 w) = W11 m ρ c (Pipeline.arrRef spec2 w) :=
  (W12_arr m ρ c w).trans (((dat2 (V11 m ρ) c).arrAt_in w hw _).trans (A_eq2 (V11 m ρ) c w))
theorem W13_keep (c : Dev nD) (r : Ref sig .tc) (h : r ∉ hostOps3_W) : W13 m ρ c r = W12 m ρ c r :=
  StableHlo.after_of_writes_sub hostOps3 _ hostOps3_writes h
theorem W14_keep (c : Dev nD) (r : Ref sig .tc) (h : r ∉ hostOps3_1_W) : W14 m ρ c r = W13 m ρ c r :=
  StableHlo.after_of_writes_sub hostOps3_1 _ hostOps3_1_writes h
theorem W15_keep (c : Dev nD) (r : Ref sig .tc) (h : r ∉ hostOps3_2_W) : W15 m ρ c r = W14 m ρ c r :=
  StableHlo.after_of_writes_sub hostOps3_2 _ hostOps3_2_writes h
theorem W16_keep (c : Dev nD) (r : Ref sig .tc) (h : r ∉ hostOps3_3_W) : W16 m ρ c r = W15 m ρ c r :=
  StableHlo.after_of_writes_sub hostOps3_3 _ hostOps3_3_writes h
theorem W17_keep (c : Dev nD) (r : Ref sig .tc) (h : r ∉ hostOps3_4_W) : W17 m ρ c r = W16 m ρ c r :=
  StableHlo.after_of_writes_sub hostOps3_4 _ hostOps3_4_writes h
theorem W18_keep (c : Dev nD) (r : Ref sig .tc) (h : r ∉ hostOps3_5_W) : W18 m ρ c r = W17 m ρ c r :=
  StableHlo.after_of_writes_sub hostOps3_5 _ hostOps3_5_writes h
theorem W19_keep (c : Dev nD) (r : Ref sig .tc) (h : r ∉ hostOps3_6_W) : W19 m ρ c r = W18 m ρ c r :=
  StableHlo.after_of_writes_sub hostOps3_6 _ hostOps3_6_writes h
theorem W20_keep (c : Dev nD) (r : Ref sig .tc) (h : ∀ w, Pipeline.arrRef spec3 w ≠ r) : W20 m ρ c r = W19 m ρ c r :=
  W20_of_ne m ρ c r h
theorem W20_in (c : Dev nD) (w : Fin cfg3.W) (hw : (cfg3.win w).isOut = false) :
    W20 m ρ c (Pipeline.arrRef spec3 w) = W19 m ρ c (Pipeline.arrRef spec3 w) :=
  (W20_arr m ρ c w).trans (((dat3 (V19 m ρ) c).arrAt_in w hw _).trans (A_eq3 (V19 m ρ) c w))
theorem W21_keep (c : Dev nD) (r : Ref sig .tc) (h : r ∉ hostOps4_W) : W21 m ρ c r = W20 m ρ c r :=
  StableHlo.after_of_writes_sub hostOps4 _ hostOps4_writes h
theorem W22_keep (c : Dev nD) (r : Ref sig .tc) (h : ∀ w, Pipeline.arrRef spec4 w ≠ r) : W22 m ρ c r = W21 m ρ c r :=
  W22_of_ne m ρ c r h
theorem W22_in (c : Dev nD) (w : Fin cfg4.W) (hw : (cfg4.win w).isOut = false) :
    W22 m ρ c (Pipeline.arrRef spec4 w) = W21 m ρ c (Pipeline.arrRef spec4 w) :=
  (W22_arr m ρ c w).trans (((dat4 (V21 m ρ) c).arrAt_in w hw _).trans (A_eq4 (V21 m ρ) c w))

end Cert.Kernel.Hand

end
-- ==== Proof.K.Args.lean ====
/-
  The nine argument buffers at the end of @main hold what they held at launch: no host stretch writes an argument, and
  a kernel region changes only its output windows' arrays (an argument is either no window's array of the region, or an
  input window's array, which the region hands back as it found it).  The walk goes down the 22 boundaries of @main, one
  step per item, in five host legs joined by the five regions.
-/
import proofs.«430049_j55997783605449_1_alg».proof.Proof.K.Keep

set_option maxRecDepth 16384

noncomputable section

namespace Cert.Kernel.Hand

open Cert.Kernel Cert.Kernel.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-! ## The host legs: a buffer none of a leg's stretches writes is the same at both ends of the leg -/

/-- Items 0–2. -/
theorem leg0 (c : Dev nD) (r : Ref sig .tc) (h0 : r ∉ hostOps0_W) (h1 : r ∉ hostOps0_1_W) (h2 : r ∉ hostOps0_2_W) :
    W3 m ρ c r = m ((c : Thread nD τ).loc r) :=
  (W3_keep m ρ c r h2).trans <| (W2_keep m ρ c r h1).trans <| (W1_keep m ρ c r h0).trans (W0_eq m ρ c r)
/-- Items 4–6. -/
theorem leg1 (c : Dev nD) (r : Ref sig .tc) (h0 : r ∉ hostOps1_W) (h1 : r ∉ hostOps1_1_W) (h2 : r ∉ hostOps1_2_W) :
    W7 m ρ c r = W4 m ρ c r :=
  (W7_keep m ρ c r h2).trans <| (W6_keep m ρ c r h1).trans (W5_keep m ρ c r h0)
/-- Items 8–10. -/
theorem leg2 (c : Dev nD) (r : Ref sig .tc) (h0 : r ∉ hostOps2_W) (h1 : r ∉ hostOps2_1_W) (h2 : r ∉ hostOps2_2_W) :
    W11 m ρ c r = W8 m ρ c r :=
  (W11_keep m ρ c r h2).trans <| (W10_keep m ρ c r h1).trans (W9_keep m ρ c r h0)
/-- Items 12–18. -/
theorem leg3 (c : Dev nD) (r : Ref sig .tc) (h0 : r ∉ hostOps3_W) (h1 : r ∉ hostOps3_1_W) (h2 : r ∉ hostOps3_2_W)
    (h3 : r ∉ hostOps3_3_W) (h4 : r ∉ hostOps3_4_W) (h5 : r ∉ hostOps3_5_W) (h6 : r ∉ hostOps3_6_W) :
    W19 m ρ c r = W12 m ρ c r :=
  (W19_keep m ρ c r h6).trans <| (W18_keep m ρ c r h5).trans <| (W17_keep m ρ c r h4).trans <|
    (W16_keep m ρ c r h3).trans <| (W15_keep m ρ c r h2).trans <| (W14_keep m ρ c r h1).trans (W13_keep m ρ c r h0)

/-- From region 0's exit to region 4's entry, for a buffer that no stretch writes and that is no window's array of
    regions 1, 2, 3. -/
theorem mid (c : Dev nD) (r : Ref sig .tc)
    (a0 : r ∉ hostOps1_W) (a1 : r ∉ hostOps1_1_W) (a2 : r ∉ hostOps1_2_W) (k1 : ∀ w, Pipeline.arrRef spec1 w ≠ r)
    (b0 : r ∉ hostOps2_W) (b1 : r ∉ hostOps2_1_W) (b2 : r ∉ hostOps2_2_W) (k2 : ∀ w, Pipeline.arrRef spec2 w ≠ r)
    (d0 : r ∉ hostOps3_W) (d1 : r ∉ hostOps3_1_W) (d2 : r ∉ hostOps3_2_W) (d3 : r ∉ hostOps3_3_W)
    (d4 : r ∉ hostOps3_4_W) (d5 : r ∉ hostOps3_5_W) (d6 : r ∉ hostOps3_6_W) (k3 : ∀ w, Pipeline.arrRef spec3 w ≠ r)
    (e0 : r ∉ hostOps4_W) :
    W21 m ρ c r = W4 m ρ c r :=
  (W21_keep m ρ c r e0).trans <| (W20_keep m ρ c r k3).trans <| (leg3 m ρ c r d0 d1 d2 d3 d4 d5 d6).trans <|
    (W12_keep m ρ c r k2).trans <| (leg2 m ρ c r b0 b1 b2).trans <| (W8_keep m ρ c r k1).trans (leg1 m ρ c r a0 a1 a2)

/-- The same to the launch, for a buffer that is no window's array of region 0 either. -/
theorem W21_launch (c : Dev nD) (r : Ref sig .tc)
    (z0 : r ∉ hostOps0_W) (z1 : r ∉ hostOps0_1_W) (z2 : r ∉ hostOps0_2_W) (k0 : ∀ w, Pipeline.arrRef spec0 w ≠ r)
    (a0 : r ∉ hostOps1_W) (a1 : r ∉ hostOps1_1_W) (a2 : r ∉ hostOps1_2_W) (k1 : ∀ w, Pipeline.arrRef spec1 w ≠ r)
    (b0 : r ∉ hostOps2_W) (b1 : r ∉ hostOps2_1_W) (b2 : r ∉ hostOps2_2_W) (k2 : ∀ w, Pipeline.arrRef spec2 w ≠ r)
    (d0 : r ∉ hostOps3_W) (d1 : r ∉ hostOps3_1_W) (d2 : r ∉ hostOps3_2_W) (d3 : r ∉ hostOps3_3_W)
    (d4 : r ∉ hostOps3_4_W) (d5 : r ∉ hostOps3_5_W) (d6 : r ∉ hostOps3_6_W) (k3 : ∀ w, Pipeline.arrRef spec3 w ≠ r)
    (e0 : r ∉ hostOps4_W) :
    W21 m ρ c r = m ((c : Thread nD τ).loc r) :=
  (mid m ρ c r a0 a1 a2 k1 b0 b1 b2 k2 d0 d1 d2 d3 d4 d5 d6 k3 e0).trans <|
    (W4_keep m ρ c r k0).trans (leg0 m ρ c r z0 z1 z2)

/-! ## The arguments at region 4's entry -/

theorem rd_a1_21 (c : Dev nD) : W21 m ρ c main_arg1 = m ((c : Thread nD τ).loc main_arg1) :=
  W21_launch m ρ c main_arg1 (by decide) (by decide) (by decide) (by decide) (by decide) (by decide) (by decide) (by decide)
    (by decide) (by decide) (by decide) (by decide) (by decide) (by decide) (by decide) (by decide) (by decide) (by decide)
    (by decide) (by decide) (by decide)
theorem rd_a2_21 (c : Dev nD) : W21 m ρ c main_arg2 = m ((c : Thread nD τ).loc main_arg2) :=
  W21_launch m ρ c main_arg2 (by decide) (by decide) (by decide) (by decide) (by decide) (by decide) (by decide) (by decide)
    (by decide) (by decide) (by decide) (by decide) (by decide) (by decide) (by decide) (by decide) (by decide) (by decide)
    (by decide) (by decide) (by decide)
theorem rd_a3_21 (c : Dev nD) : W21 m ρ c main_arg3 = m ((c : Thread nD τ).loc main_arg3) :=
  W21_launch m ρ c main_arg3 (by decide) (by decide) (by decide) (by decide) (by decide) (by decide) (by decide) (by decide)
    (by decide) (by decide) (by decide) (by decide) (by decide) (by decide) (by decide) (by decide) (by decide) (by decide)
    (by decide) (by decide) (by decide)
theorem rd_a4_21 (c : Dev nD) : W21 m ρ c main_arg4 = m ((c : Thread nD τ).loc main_arg4) :=
  W21_launch m ρ c main_arg4 (by decide) (by decide) (by decide) (by decide) (by decide) (by decide) (by decide) (by decide)
    (by decide) (by decide) (by decide) (by decide) (by decide) (by decide) (by decide) (by decide) (by decide) (by decide)
    (by decide) (by decide) (by decide)
theorem rd_a5_21 (c : Dev nD) : W21 m ρ c main_arg5 = m ((c : Thread nD τ).loc main_arg5) :=
  W21_launch m ρ c main_arg5 (by decide) (by decide) (by decide) (by decide) (by decide) (by decide) (by decide) (by decide)
    (by decide) (by decide) (by decide) (by decide) (by decide) (by decide) (by decide) (by decide) (by decide) (by decide)
    (by decide) (by decide) (by decide)
theorem rd_a6_21 (c : Dev nD) : W21 m ρ c main_arg6 = m ((c : Thread nD τ).loc main_arg6) :=
  W21_launch m ρ c main_arg6 (by decide) (by decide) (by decide) (by decide) (by decide) (by decide) (by decide) (by decide)
    (by decide) (by decide) (by decide) (by decide) (by decide) (by decide) (by decide) (by decide) (by decide) (by decide)
    (by decide) (by decide) (by decide)
theorem rd_a7_21 (c : Dev nD) : W21 m ρ c main_arg7 = m ((c : Thread nD τ).loc main_arg7) :=
  W21_launch m ρ c main_arg7 (by decide) (by decide) (by decide) (by decide) (by decide) (by decide) (by decide) (by decide)
    (by decide) (by decide) (by decide) (by decide) (by decide) (by decide) (by decide) (by decide) (by decide) (by decide)
    (by decide) (by decide) (by decide)
theorem rd_a8_21 (c : Dev nD) : W21 m ρ c main_arg8 = m ((c : Thread nD τ).loc main_arg8) :=
  W21_launch m ρ c main_arg8 (by decide) (by decide) (by decide) (by decide) (by decide) (by decide) (by decide) (by decide)
    (by decide) (by decide) (by decide) (by decide) (by decide) (by decide) (by decide) (by decide) (by decide) (by decide)
    (by decide) (by decide) (by decide)
/-- The node features are region 0's first input window: the region hands that array back as it found it. -/
theorem rd_a0_21 (c : Dev nD) : W21 m ρ c main_arg0 = m ((c : Thread nD τ).loc main_arg0) :=
  (mid m ρ c main_arg0 (by decide) (by decide) (by decide) (by decide) (by decide) (by decide) (by decide) (by decide)
    (by decide) (by decide) (by decide) (by decide) (by decide) (by decide) (by decide) (by decide) (by decide)).trans <|
    (W4_in m ρ c 0 rfl).trans (leg0 m ρ c main_arg0 (by decide) (by decide) (by decide))

/-! ## The arguments at the end: region 4 reads main_arg3 … main_arg6 through input windows 1 … 4 and touches no other argument -/

theorem rd_a0_22 (c : Dev nD) : W22 m ρ c main_arg0 = m ((c : Thread nD τ).loc main_arg0) :=
  (W22_keep m ρ c main_arg0 (by decide)).trans (rd_a0_21 m ρ c)
theorem rd_a1_22 (c : Dev nD) : W22 m ρ c main_arg1 = m ((c : Thread nD τ).loc main_arg1) :=
  (W22_keep m ρ c main_arg1 (by decide)).trans (rd_a1_21 m ρ c)
theorem rd_a2_22 (c : Dev nD) : W22 m ρ c main_arg2 = m ((c : Thread nD τ).loc main_arg2) :=
  (W22_keep m ρ c main_arg2 (by decide)).trans (rd_a2_21 m ρ c)
theorem rd_a3_22 (c : Dev nD) : W22 m ρ c main_arg3 = m ((c : Thread nD τ).loc main_arg3) :=
  (W22_in m ρ c 1 rfl).trans (rd_a3_21 m ρ c)
theorem rd_a4_22 (c : Dev nD) : W22 m ρ c main_arg4 = m ((c : Thread nD τ).loc main_arg4) :=
  (W22_in m ρ c 2 rfl).trans (rd_a4_21 m ρ c)
theorem rd_a5_22 (c : Dev nD) : W22 m ρ c main_arg5 = m ((c : Thread nD τ).loc main_arg5) :=
  (W22_in m ρ c 3 rfl).trans (rd_a5_21 m ρ c)
theorem rd_a6_22 (c : Dev nD) : W22 m ρ c main_arg6 = m ((c : Thread nD τ).loc main_arg6) :=
  (W22_in m ρ c 4 rfl).trans (rd_a6_21 m ρ c)
theorem rd_a7_22 (c : Dev nD) : W22 m ρ c main_arg7 = m ((c : Thread nD τ).loc main_arg7) :=
  (W22_keep m ρ c main_arg7 (by decide)).trans (rd_a7_21 m ρ c)
theorem rd_a8_22 (c : Dev nD) : W22 m ρ c main_arg8 = m ((c : Thread nD τ).loc main_arg8) :=
  (W22_keep m ρ c main_arg8 (by decide)).trans (rd_a8_21 m ρ c)

end Cert.Kernel.Hand

end
-- ==== Proof.KI.Lin0.lean ====
/- The class-A half of REGION 0 of @main (custom_call 0, `cc0__linear_kernel`, pipeline 0), at a parameter `V`: the
   TensorCore's buffer contents when the region is entered. The region is one block-row product: a grid of 10
   points; at point `i` the body reads the 5000x128 block `i` of the left operand (window 0) and the whole 128x128
   right operand (window 1, the same block at every point), and stores their matrix product over the 5000x128
   block `i` of the result (window 2). Here: each window's block at a point, read off its array as found; what the
   body leaves in the result window's staging buffer as a function of the two input blocks; the body's triple on
   whole staging memrefs; the pipeline's proof data; and the body obligation at every point. -/
import proofs.«430049_j55997783605449_1_alg».proof.Proof.Gen.KernelIdeal.Launch
import proofs.«430049_j55997783605449_1_alg».proof.Proof.Gen.KernelIdeal.Skeleton
import proofs.«430049_j55997783605449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000x128 extents is never evaluated point by point; the structural look at the
-- tiling still recurses along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0__linear_kernel` (pipeline 0), at the entry contents `V` -/

/-! ## The windows' blocks -/

/-- Window `w`'s block at point `t`: the sub-array its block index selects at `t`, read off the window's array as the
    region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the left operand's row block): its current staging buffer holds its block at every point, for ANY
    proof data whose array is `V`'s (`hA`) and whose body leaves the block in place (`hafter`). The window is uncut
    and has no idle point, so where it is fetched the buffer is the fetched block, and where it is not the block
    index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the right operand, whole): the same. Its block index is constant, so it is fetched at the first
    point only; at every later point the buffer still holds that block, which is that point's block too. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 5000x128 buffer as one rectangle: what the body loads of window 0 and stores of window 2. -/
abbrev r0_0 : Rect S5000x128 := Rect.unit (s := S5000x128) ![0, 0] S5000x128.size inb_S5000x128_S5000x128_0_0
/-- The whole 128x128 buffer as one rectangle: what the body loads of window 1. -/
abbrev r0_1 : Rect S128x128 := Rect.unit (s := S128x128) ![0, 0] S128x128.size inb_S128x128_S128x128_0_0

/-! ## What the body leaves in the output window's buffer -/

/-- Window 2's staging buffer after the body, from the input windows' blocks: its one store, the whole buffer
    overwritten by the product of the two loaded operands (each rounded to bf16, accumulated in f32 from zero: the
    skeleton's payload). -/
def out0_2 (xa : Vec F S5000x128 .f32) (xb : Vec F S128x128 .f32) : Vec F S5000x128 .f32 :=
  View.canon [⟨r0_0, k0_pay1 (View.ld xa r0_0) (View.ld xb r0_1)⟩]

/-- The one store is the whole buffer: a tiling by one rectangle of full extents, so every index lies in it. -/
theorem cover0_2 (pa : Vec F S5000x128 .f32) (y : S5000x128.Idx) :
    ∃ pc ∈ ([⟨r0_0, pa⟩] : List (View.Piece (Elt F) S5000x128 .f32)), y ∈ pc.1.set :=
  View.cover_of_tiled [⟨r0_0, pa⟩] S5000x128.size (by rfl) y

/-! ## The body's triple -/

set_option maxHeartbeats 1000000 in
/-- The kernel body on whole staging memrefs — the two inputs' at read contents `xa`, `xb`, the output's at anything —
    runs to the continuation holding the inputs' as they were and the output's at `out0_2 xa xb`. The body is its
    skeleton: two loads of the inputs, one load of the output buffer whose value is not used (any contents allow
    it), one store of the payload over the whole output buffer. The grid coordinate is not read. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (xa : Vec F S5000x128 .f32) (xb : Vec F S128x128 .f32) (K : PUnit → sProp 𝕄) :
    iprop(owns (c : Thread nD τ) arg1 fullShare xa ∗ owns (c : Thread nD τ) arg2 fullShare xb
        ∗ (∃ d, owns (c : Thread nD τ) arg3 fullShare d)
        ∗ (iprop(owns (c : Thread nD τ) arg1 fullShare xa ∗ owns (c : Thread nD τ) arg2 fullShare xb
            ∗ owns (c : Thread nD τ) arg3 fullShare (out0_2 xa xb)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%fa, %hfa, Ha⟩, ⟨%fb, %hfb, Hb⟩, ⟨%dc, %fc, -, Hc⟩, Hk⟩
  subst hfa
  subst hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover0_2 _)

/-! ## The pipeline's proof data -/

/-- The proof data of pipeline 0 on core `c`: the arrays as the region finds them (`V`); after the body at point `t`
    each input's buffer still at its block and the output's at `out0_2` of the two input blocks; the invariant is the
    core's scoped rest and random-number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's case split reduced at each window number). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debt, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same, each buffer at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two inputs' memrefs hold their blocks (`before0_0`, `before0_1`) and the output's holds
    something, so `sound_kernel0` applies; the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%da, Ha⟩, ⟨%db, Hb⟩, ⟨%dc, Hc⟩⟩
  iapply (sound_kernel0 c Set.univ _ _ _ _ _ _ _ (iblk0 V c 0 t) (iblk0 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point: its conjunctions over the three windows written out. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Lin1.lean ====
/- The class-A half of REGION 1 of @main (custom_call 1, `cc1__linear_kernel`, pipeline 1), at a parameter `V`: the
   TensorCore's buffer contents when the region is entered. The region is one block-row product: a grid of 10
   points; at point `i` the body reads the 5000x128 block `i` of the left operand (window 0) and the whole 128x128
   right operand (window 1, the same block at every point), and stores their matrix product over the 5000x128
   block `i` of the result (window 2). Here: each window's block at a point, read off its array as found; what the
   body leaves in the result window's staging buffer as a function of the two input blocks; the body's triple on
   whole staging memrefs; the pipeline's proof data; and the body obligation at every point. -/
import proofs.«430049_j55997783605449_1_alg».proof.Proof.Gen.KernelIdeal.Launch
import proofs.«430049_j55997783605449_1_alg».proof.Proof.Gen.KernelIdeal.Skeleton
import proofs.«430049_j55997783605449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000x128 extents is never evaluated point by point; the structural look at the
-- tiling still recurses along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: custom_call 1, `cc1__linear_kernel` (pipeline 1), at the entry contents `V` -/

/-! ## The windows' blocks -/

/-- Window `w`'s block at point `t`: the sub-array its block index selects at `t`, read off the window's array as the
    region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the left operand's row block): its current staging buffer holds its block at every point, for ANY
    proof data whose array is `V`'s (`hA`) and whose body leaves the block in place (`hafter`). The window is uncut
    and has no idle point, so where it is fetched the buffer is the fetched block, and where it is not the block
    index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the right operand, whole): the same. Its block index is constant, so it is fetched at the first
    point only; at every later point the buffer still holds that block, which is that point's block too. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 5000x128 buffer as one rectangle: what the body loads of window 0 and stores of window 2. -/
abbrev r1_0 : Rect S5000x128 := Rect.unit (s := S5000x128) ![0, 0] S5000x128.size inb_S5000x128_S5000x128_0_0
/-- The whole 128x128 buffer as one rectangle: what the body loads of window 1. -/
abbrev r1_1 : Rect S128x128 := Rect.unit (s := S128x128) ![0, 0] S128x128.size inb_S128x128_S128x128_0_0

/-! ## What the body leaves in the output window's buffer -/

/-- Window 2's staging buffer after the body, from the input windows' blocks: its one store, the whole buffer
    overwritten by the product of the two loaded operands (each rounded to bf16, accumulated in f32 from zero: the
    skeleton's payload). -/
def out1_2 (xa : Vec F S5000x128 .f32) (xb : Vec F S128x128 .f32) : Vec F S5000x128 .f32 :=
  View.canon [⟨r1_0, k1_pay1 (View.ld xa r1_0) (View.ld xb r1_1)⟩]

/-- The one store is the whole buffer: a tiling by one rectangle of full extents, so every index lies in it. -/
theorem cover1_2 (pa : Vec F S5000x128 .f32) (y : S5000x128.Idx) :
    ∃ pc ∈ ([⟨r1_0, pa⟩] : List (View.Piece (Elt F) S5000x128 .f32)), y ∈ pc.1.set :=
  View.cover_of_tiled [⟨r1_0, pa⟩] S5000x128.size (by rfl) y

/-! ## The body's triple -/

set_option maxHeartbeats 1000000 in
/-- The kernel body on whole staging memrefs — the two inputs' at read contents `xa`, `xb`, the output's at anything —
    runs to the continuation holding the inputs' as they were and the output's at `out1_2 xa xb`. The body is its
    skeleton: two loads of the inputs, one load of the output buffer whose value is not used (any contents allow
    it), one store of the payload over the whole output buffer. The grid coordinate is not read. -/
theorem sound_kernel1 (c : Dev nD) (E : Set ℕ) (i : grid1.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (xa : Vec F S5000x128 .f32) (xb : Vec F S128x128 .f32) (K : PUnit → sProp 𝕄) :
    iprop(owns (c : Thread nD τ) arg1 fullShare xa ∗ owns (c : Thread nD τ) arg2 fullShare xb
        ∗ (∃ d, owns (c : Thread nD τ) arg3 fullShare d)
        ∗ (iprop(owns (c : Thread nD τ) arg1 fullShare xa ∗ owns (c : Thread nD τ) arg2 fullShare xb
            ∗ owns (c : Thread nD τ) arg3 fullShare (out1_2 xa xb)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%fa, %hfa, Ha⟩, ⟨%fb, %hfb, Hb⟩, ⟨%dc, %fc, -, Hc⟩, Hk⟩
  subst hfa
  subst hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover1_2 _)

/-! ## The pipeline's proof data -/

/-- The proof data of pipeline 1 on core `c`: the arrays as the region finds them (`V`); after the body at point `t`
    each input's buffer still at its block and the output's at `out1_2` of the two input blocks; the invariant is the
    core's scoped rest and random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's case split reduced at each window number). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the core's debt, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the same, each buffer at the proof data's `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two inputs' memrefs hold their blocks (`before1_0`, `before1_1`) and the output's holds
    something, so `sound_kernel1` applies; the invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%da, Ha⟩, ⟨%db, Hb⟩, ⟨%dc, Hc⟩⟩
  iapply (sound_kernel1 c Set.univ _ _ _ _ _ _ _ (iblk1 V c 0 t) (iblk1 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point: its conjunctions over the three windows written out. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Lin2.lean ====
/- The class-A half of REGION 2 of @main (custom_call 2, `cc2__linear_kernel`, pipeline 2), at a parameter `V`: the
   TensorCore's buffer contents when the region is entered. The region is one block-row product: a grid of 10
   points; at point `i` the body reads the 5000x128 block `i` of the left operand (window 0) and the whole 128x128
   right operand (window 1, the same block at every point), and stores their matrix product over the 5000x128
   block `i` of the result (window 2). Here: each window's block at a point, read off its array as found; what the
   body leaves in the result window's staging buffer as a function of the two input blocks; the body's triple on
   whole staging memrefs; the pipeline's proof data; and the body obligation at every point. -/
import proofs.«430049_j55997783605449_1_alg».proof.Proof.Gen.KernelIdeal.Launch
import proofs.«430049_j55997783605449_1_alg».proof.Proof.Gen.KernelIdeal.Skeleton
import proofs.«430049_j55997783605449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000x128 extents is never evaluated point by point; the structural look at the
-- tiling still recurses along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 2 of @main: custom_call 2, `cc2__linear_kernel` (pipeline 2), at the entry contents `V` -/

/-! ## The windows' blocks -/

/-- Window `w`'s block at point `t`: the sub-array its block index selects at `t`, read off the window's array as the
    region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the left operand's row block): its current staging buffer holds its block at every point, for ANY
    proof data whose array is `V`'s (`hA`) and whose body leaves the block in place (`hafter`). The window is uncut
    and has no idle point, so where it is fetched the buffer is the fetched block, and where it is not the block
    index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the right operand, whole): the same. Its block index is constant, so it is fetched at the first
    point only; at every later point the buffer still holds that block, which is that point's block too. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 5000x128 buffer as one rectangle: what the body loads of window 0 and stores of window 2. -/
abbrev r2_0 : Rect S5000x128 := Rect.unit (s := S5000x128) ![0, 0] S5000x128.size inb_S5000x128_S5000x128_0_0
/-- The whole 128x128 buffer as one rectangle: what the body loads of window 1. -/
abbrev r2_1 : Rect S128x128 := Rect.unit (s := S128x128) ![0, 0] S128x128.size inb_S128x128_S128x128_0_0

/-! ## What the body leaves in the output window's buffer -/

/-- Window 2's staging buffer after the body, from the input windows' blocks: its one store, the whole buffer
    overwritten by the product of the two loaded operands (each rounded to bf16, accumulated in f32 from zero: the
    skeleton's payload). -/
def out2_2 (xa : Vec F S5000x128 .f32) (xb : Vec F S128x128 .f32) : Vec F S5000x128 .f32 :=
  View.canon [⟨r2_0, k2_pay1 (View.ld xa r2_0) (View.ld xb r2_1)⟩]

/-- The one store is the whole buffer: a tiling by one rectangle of full extents, so every index lies in it. -/
theorem cover2_2 (pa : Vec F S5000x128 .f32) (y : S5000x128.Idx) :
    ∃ pc ∈ ([⟨r2_0, pa⟩] : List (View.Piece (Elt F) S5000x128 .f32)), y ∈ pc.1.set :=
  View.cover_of_tiled [⟨r2_0, pa⟩] S5000x128.size (by rfl) y

/-! ## The body's triple -/

set_option maxHeartbeats 1000000 in
/-- The kernel body on whole staging memrefs — the two inputs' at read contents `xa`, `xb`, the output's at anything —
    runs to the continuation holding the inputs' as they were and the output's at `out2_2 xa xb`. The body is its
    skeleton: two loads of the inputs, one load of the output buffer whose value is not used (any contents allow
    it), one store of the payload over the whole output buffer. The grid coordinate is not read. -/
theorem sound_kernel2 (c : Dev nD) (E : Set ℕ) (i : grid2.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (xa : Vec F S5000x128 .f32) (xb : Vec F S128x128 .f32) (K : PUnit → sProp 𝕄) :
    iprop(owns (c : Thread nD τ) arg1 fullShare xa ∗ owns (c : Thread nD τ) arg2 fullShare xb
        ∗ (∃ d, owns (c : Thread nD τ) arg3 fullShare d)
        ∗ (iprop(owns (c : Thread nD τ) arg1 fullShare xa ∗ owns (c : Thread nD τ) arg2 fullShare xb
            ∗ owns (c : Thread nD τ) arg3 fullShare (out2_2 xa xb)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%fa, %hfa, Ha⟩, ⟨%fb, %hfb, Hb⟩, ⟨%dc, %fc, -, Hc⟩, Hk⟩
  subst hfa
  subst hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover2_2 _)

/-! ## The pipeline's proof data -/

/-- The proof data of pipeline 2 on core `c`: the arrays as the region finds them (`V`); after the body at point `t`
    each input's buffer still at its block and the output's at `out2_2` of the two input blocks; the invariant is the
    core's scoped rest and random-number register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's case split reduced at each window number). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`: the invariant, the core's debt, and each window's current staging
    buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: the same, each buffer at the proof data's `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two inputs' memrefs hold their blocks (`before2_0`, `before2_1`) and the output's holds
    something, so `sound_kernel2` applies; the invariant and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%da, Ha⟩, ⟨%db, Hb⟩, ⟨%dc, Hc⟩⟩
  iapply (sound_kernel2 c Set.univ _ _ _ _ _ _ _ (iblk2 V c 0 t) (iblk2 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point: its conjunctions over the three windows written out. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Pool3.lean ====
/- The frame half of REGION 3 of @main (custom_call 3, `cc3__pool_kernel`, pipeline 3), at a parameter `V`: the
   TensorCore's buffer contents when the region is entered. The region is one matrix product accumulated over a
   contracted axis cut into 14 blocks: at point `i` the body reads the 256x3584 column block `i` of the left operand
   (window 0) and the 3584x128 row block `i` of the right operand (window 1), and adds their product into a 256x128
   accumulator the kernel keeps in a scratch buffer of its own between the points: zeroed at the first point, read,
   added to and stored back at every point, and copied into the 256x128 result (window 2, one constant block) at the
   last point only. So the result window is idle at every point but the last, and the scratch carries a value from
   point to point: the region's invariant names it, by recursion on the point. Here: each window's block at a point;
   the accumulated table after each point; the body's triple in each of its three control cases (first point, middle
   points, last point); the invariant; the pipeline's proof data; the body obligation at every point; and the
   invariant's two ends against the class invariant. -/
import proofs.«430049_j55997783605449_1_alg».proof.Proof.Gen.KernelIdeal.Launch
import proofs.«430049_j55997783605449_1_alg».proof.Proof.Gen.KernelIdeal.Skeleton
import proofs.«430049_j55997783605449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- the tables have long axes: a structural look at a rectangle of their extents recurses along them
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 3 of @main: custom_call 3, `cc3__pool_kernel` (pipeline 3), at the entry contents `V` -/

/-! ## The windows' blocks -/

/-- Window `w`'s block at point `t`: the sub-array its block index selects at `t`, read off the window's array as the
    region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the left operand's column block): its current staging buffer holds its block at every point, for
    ANY proof data whose array is `V`'s (`hA`) and whose body leaves the block in place (`hafter`). The window is
    uncut and has no idle point, so where it is fetched the buffer is the fetched block, and where it is not the block
    index has not moved since the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the right operand's row block): the same. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The carried accumulator -/

/-- The scratch operand: a whole scoped buffer of the kernel's own, passed beside the windows. -/
abbrev scM3 : Memref sig .tc .vmem S256x128 .f32 := Memref.whole cc3_scratch0

/-- What the scratch holds after point `n`: the accumulated table. After the first point, the product of the first
    two blocks added to the zero table; after each later point, that point's product added to what the point before
    left. -/
def acc3 (c : Dev nD) : (n : ℕ) → n < cfg3.N → Vec F S256x128 .f32
  | 0, h => k3_pay2 (iblk3 V c 0 ⟨0, h⟩) (iblk3 V c 1 ⟨0, h⟩) (k3_pay1 (F := F))
  | n + 1, h => k3_pay2 (iblk3 V c 0 ⟨n + 1, h⟩) (iblk3 V c 1 ⟨n + 1, h⟩) (acc3 c n (Nat.lt_of_succ_lt h))

/-- The recursion's two equations. -/
theorem acc3_zero (c : Dev nD) (h : 0 < cfg3.N) :
    acc3 V c 0 h = k3_pay2 (iblk3 V c 0 ⟨0, h⟩) (iblk3 V c 1 ⟨0, h⟩) (k3_pay1 (F := F)) := rfl
theorem acc3_succ (c : Dev nD) (n : ℕ) (h : n + 1 < cfg3.N) :
    acc3 V c (n + 1) h = k3_pay2 (iblk3 V c 0 ⟨n + 1, h⟩) (iblk3 V c 1 ⟨n + 1, h⟩) (acc3 V c n (Nat.lt_of_succ_lt h)) := rfl

/-- The accumulated table at the first point, stated at the point. -/
theorem acc3_at_zero (c : Dev nD) (t : Fin cfg3.N) (h0 : t.val = 0) :
    acc3 V c t.val t.isLt = k3_pay2 (iblk3 V c 0 t) (iblk3 V c 1 t) (k3_pay1 (F := F)) := by
  obtain ⟨n, hn⟩ := t
  cases n with
  | zero => rfl
  | succ n => exact absurd h0 (Nat.succ_ne_zero n)

/-- The accumulated table at a later point, stated at the point: its product added to what the point before left. -/
theorem acc3_at_pos (c : Dev nD) (t : Fin cfg3.N) (h0 : t.val ≠ 0) :
    acc3 V c t.val t.isLt
      = k3_pay2 (iblk3 V c 0 t) (iblk3 V c 1 t) (acc3 V c (t.val - 1) (Nat.lt_of_le_of_lt (Nat.sub_le _ _) t.isLt)) := by
  obtain ⟨n, hn⟩ := t
  cases n with
  | zero => exact absurd rfl h0
  | succ n => rfl

/-! ## The body's branch conditions -/

/-- The condition of the body's first conditional (the accumulator's zeroing), from the grid coordinate: the
    skeleton's scalar chain substituted. -/

abbrev cond3_0 (i : grid3.Coords) : Prop := (Scalar.cmpi .ne (Scalar.extui (Scalar.cmpi .eq (BitVec.ofNat 32 (i 0).val) 0#32)) 0#32) = 1#1
/-- The condition of the body's second conditional (the copy into the result). -/
abbrev cond3_1 (i : grid3.Coords) : Prop := k3_cond2 i = 1#1

/-- The first holds at point 0 only, the second at point 13 only: decided over the grid. -/
theorem hcond3_0 : ∀ t : Fin cfg3.N, cond3_0 (grid3.coords t) ↔ t.val = 0 :=
  (by decide +kernel : ∀ t : Fin grid3.N, cond3_0 (grid3.coords t) ↔ t.val = 0)
theorem hcond3_1 : ∀ t : Fin cfg3.N, cond3_1 (grid3.coords t) ↔ t.val = 13 :=
  (by decide +kernel : ∀ t : Fin grid3.N, cond3_1 (grid3.coords t) ↔ t.val = 13)

/-! ## Whole-buffer loads and stores

Every access of the body is through the rectangle of a buffer's full extents at offset zero. A load through it reads
the buffer's contents; a store through it, last, leaves its payload whatever was stored before; a load through it
after such a store reads that payload. -/

/-- The zero offsets, however spelt. -/
theorem hz3 : (![0, 0] : Fin 2 → Nat) = fun _ => 0 := funext fun a => by fin_cases a <;> rfl

/-- The whole 256x128 buffer (the scratch, the result window), the whole 256x3584 buffer (window 0) and the whole
    3584x128 buffer (window 1), each as one rectangle. -/
abbrev r3s : Rect S256x128 := Rect.unit (s := S256x128) ![0, 0] S256x128.size inb_S256x128_S256x128_0_0
abbrev r3a : Rect S256x3584 := Rect.unit (s := S256x3584) ![0, 0] S256x3584.size inb_S256x3584_S256x3584_0_0
abbrev r3b : Rect S3584x128 := Rect.unit (s := S3584x128) ![0, 0] S3584x128.size inb_S3584x128_S3584x128_0_0

/-- A load through the whole-buffer rectangle reads the contents. -/
theorem ld3a (X : Vec F S256x3584 .f32) : View.ld X r3a = X := View.ld_unit_zero (S := S256x3584) hz3 _ X
theorem ld3b (X : Vec F S3584x128 .f32) : View.ld X r3b = X := View.ld_unit_zero (S := S3584x128) hz3 _ X
theorem ld3s (X : Vec F S256x128 .f32) : View.ld X r3s = X := View.ld_unit_zero (S := S256x128) hz3 _ X

/-- A list of stores headed by a whole-buffer store covers the buffer. -/
theorem cover3s (p : Vec F S256x128 .f32) (L : List (View.Piece (Elt F) S256x128 .f32)) (y : S256x128.Idx) :
    ∃ pc ∈ ((⟨r3s, p⟩ : View.Piece (Elt F) S256x128 .f32) :: L), y ∈ pc.1.set :=
  ⟨_, List.mem_cons_self, View.mem_set_unit_zero (S := S256x128) hz3 inb_S256x128_S256x128_0_0 y⟩

/-- After stores the last of which is a whole-buffer store, the buffer reads that store's payload, whatever view it is
    read through and whatever it held before. -/
theorem read3s (v : View sig .tc .vmem S256x128 .f32) (fs : v.ty.Contents (Elt F)) (p : Vec F S256x128 .f32)
    (L : List (View.Piece (Elt F) S256x128 .f32)) :
    v.read (Elt F) (v.writes (Elt F) fs ((⟨r3s, p⟩ : View.Piece (Elt F) S256x128 .f32) :: L)) = p := by
  rw [View.read_writes_eq_canon v fs _ (cover3s p L)]
  exact View.canon_cons_unit_zero (S := S256x128) hz3 _ p L

/-- A whole-buffer load after such stores reads the last one's payload. -/
theorem readCov3s (v : View sig .tc .vmem S256x128 .f32) (p : Vec F S256x128 .f32)
    (L : List (View.Piece (Elt F) S256x128 .f32)) :
    v.readCov ((⟨r3s, p⟩ : View.Piece (Elt F) S256x128 .f32) :: L) r3s.toLoadRect = p :=
  View.readCov_cons_toLoadRect v r3s p L

/-- The accumulation step respects equality of its three arguments. -/
theorem pay3_congr {a a' : Vec F S256x3584 .f32} {b b' : Vec F S3584x128 .f32} {s s' : Vec F S256x128 .f32}
    (ha : a = a') (hb : b = b') (hs : s = s') : k3_pay2 a b s = k3_pay2 a' b' s' := by
  subst ha; subst hb; subst hs; rfl

/-! ## The body's triple, in its three control cases

The body is its skeleton: under the first condition, a load of the scratch whose value is not used and a whole-buffer
store of the zero table into it; then loads of the two input buffers and two loads of the scratch (the second unused),
and a whole-buffer store of the accumulation step's payload into the scratch; then, under the second condition, a
load of the scratch, an unused load of the result buffer and a whole-buffer store of the loaded table into it. Each
case is run on whole memrefs, the inputs' at read contents `x0`, `x1`, each conditional decided by the case's
hypothesis. The result buffer is not mentioned where the case does not touch it. -/

set_option maxHeartbeats 1000000 in
/-- THE FIRST POINT (first conditional taken, second not): from the scratch at anything, the body leaves in it the
    first product added to the zero table. -/
theorem run3_first (c : Dev nD) (E : Set ℕ) (i : grid3.Coords)
    (arg1 : Memref sig .tc .vmem S256x3584 .f32) (harg1 : arg1.IsWhole)
    (arg2 : Memref sig .tc .vmem S3584x128 .f32) (harg2 : arg2.IsWhole)
    (arg3 : Memref sig .tc .vmem S256x128 .f32) (harg3 : arg3.IsWhole)
    (arg4 : Memref sig .tc .vmem S256x128 .f32) (harg4 : arg4.IsWhole)
    (hc0 : cond3_0 i) (hc1 : ¬cond3_1 i)
    (x0 : Vec F S256x3584 .f32) (x1 : Vec F S3584x128 .f32) (K : PUnit → sProp 𝕄) :
    iprop(owns (c : Thread nD τ) arg1 fullShare x0 ∗ owns (c : Thread nD τ) arg2 fullShare x1
        ∗ (∃ d, owns (c : Thread nD τ) arg4 fullShare d)
        ∗ (iprop(owns (c : Thread nD τ) arg1 fullShare x0 ∗ owns (c : Thread nD τ) arg2 fullShare x1
            ∗ owns (c : Thread nD τ) arg4 fullShare (k3_pay2 x0 x1 (k3_pay1 (F := F)))) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%ds, %fs, -, HS⟩, Hk⟩
  subst hf0
  subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read3s, readCov3s]
  exact pay3_congr (ld3a _) (ld3b _) rfl

set_option maxHeartbeats 1000000 in
/-- A MIDDLE POINT (neither conditional taken): from the scratch at `xs`, the body leaves in it the point's product
    added to `xs`. -/
theorem run3_mid (c : Dev nD) (E : Set ℕ) (i : grid3.Coords)
    (arg1 : Memref sig .tc .vmem S256x3584 .f32) (harg1 : arg1.IsWhole)
    (arg2 : Memref sig .tc .vmem S3584x128 .f32) (harg2 : arg2.IsWhole)
    (arg3 : Memref sig .tc .vmem S256x128 .f32) (harg3 : arg3.IsWhole)
    (arg4 : Memref sig .tc .vmem S256x128 .f32) (harg4 : arg4.IsWhole)
    (hc0 : ¬cond3_0 i) (hc1 : ¬cond3_1 i)
    (x0 : Vec F S256x3584 .f32) (x1 : Vec F S3584x128 .f32) (xs : Vec F S256x128 .f32) (K : PUnit → sProp 𝕄) :
    iprop(owns (c : Thread nD τ) arg1 fullShare x0 ∗ owns (c : Thread nD τ) arg2 fullShare x1
        ∗ owns (c : Thread nD τ) arg4 fullShare xs
        ∗ (iprop(owns (c : Thread nD τ) arg1 fullShare x0 ∗ owns (c : Thread nD τ) arg2 fullShare x1
            ∗ owns (c : Thread nD τ) arg4 fullShare (k3_pay2 x0 x1 xs)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%fs, %hfs, HS⟩, Hk⟩
  subst hf0
  subst hf1
  subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read3s]
  exact pay3_congr (ld3a _) (ld3b _) (ld3s _)

set_option maxHeartbeats 1000000 in
/-- THE LAST POINT (first conditional not taken, second taken): from the scratch at `xs` and the result buffer at
    anything, the body leaves in both the point's product added to `xs`. -/
theorem run3_last (c : Dev nD) (E : Set ℕ) (i : grid3.Coords)
    (arg1 : Memref sig .tc .vmem S256x3584 .f32) (harg1 : arg1.IsWhole)
    (arg2 : Memref sig .tc .vmem S3584x128 .f32) (harg2 : arg2.IsWhole)
    (arg3 : Memref sig .tc .vmem S256x128 .f32) (harg3 : arg3.IsWhole)
    (arg4 : Memref sig .tc .vmem S256x128 .f32) (harg4 : arg4.IsWhole)
    (hc0 : ¬cond3_0 i) (hc1 : cond3_1 i)
    (x0 : Vec F S256x3584 .f32) (x1 : Vec F S3584x128 .f32) (xs : Vec F S256x128 .f32) (K : PUnit → sProp 𝕄) :
    iprop(owns (c : Thread nD τ) arg1 fullShare x0 ∗ owns (c : Thread nD τ) arg2 fullShare x1
        ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k3_pay2 x0 x1 xs)
            ∗ owns (c : Thread nD τ) arg4 fullShare (k3_pay2 x0 x1 xs)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d2, %f2, -, H2⟩, ⟨%fs, %hfs, HS⟩, Hk⟩
  subst hf0
  subst hf1
  subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read3s, readCov3s]
    exact pay3_congr (ld3a _) (ld3b _) (ld3s _)
  iexists _; isplitr
  swap; · iexact HS
  ipureintro
  sl_unfold_run_names
  rw [read3s]
  exact pay3_congr (ld3a _) (ld3b _) (ld3s _)

/-! ## The region invariant -/

/-- Separating conjunction associates, as an equation of propositions. -/
theorem sep_assoc_eq3 (P Q R : sProp 𝕄) : (iprop((P ∗ Q) ∗ R) : sProp 𝕄) = iprop(P ∗ Q ∗ R) := by
  have h₁ : (iprop((P ∗ Q) ∗ R) : sProp 𝕄) ⊢ iprop(P ∗ Q ∗ R) := by
    iintro ⟨⟨HP, HQ⟩, HR⟩
    isplitl [HP]; · iexact HP
    isplitl [HQ]; · iexact HQ
    iexact HR
  have h₂ : (iprop(P ∗ Q ∗ R) : sProp 𝕄) ⊢ iprop((P ∗ Q) ∗ R) := by
    iintro ⟨HP, HQ, HR⟩
    isplitr [HR]
    · isplitl [HP]; · iexact HP
      iexact HQ
    iexact HR
  exact BI.equiv_iff.mp ⟨h₁, h₂⟩

/-- What the class invariant holds beside the scratch: the core's other scoped buffers that are no staging buffer of
    this call, each at some contents, and the generator register at some state. -/
def Rest3 (c : Dev nD) : sProp 𝕄 :=
  iprop(Pipeline.scopedRestBut (Ix := Unit) (Name := ℕ) (U := UR sig nD τ) (Lvl := ℕ) (Val := Elt F) spec3 c [cc3_scratch0]
    ∗ ∃ r, prngReg c r)

/-- The class invariant with the scratch split off as a memref owned at some contents: what the body obligation hands
    the run at the first point and what the region gives back. -/
theorem PhiA3_eq (c : Dev nD) :
    (Pipeline.ΦA spec3 c : sProp 𝕄) = iprop((∃ d, owns (c : Thread nD τ) scM3 fullShare d) ∗ Rest3 c) := by
  unfold Pipeline.ΦA Rest3
  rw [Pipeline.scopedRest_split_of_list spec3 c [cc3_scratch0] (by decide) (by decide)]
  simp only [scM3, owns_whole]
  exact sep_assoc_eq3 _ _ _

/-- The region invariant before position `n`: before the first point the class's (the scratch at anything);
    afterwards the scratch at the table accumulated through the point before, the rest as the class has it. -/
def PhiS3 (c : Dev nD) : (n : ℕ) → n ≤ cfg3.N → sProp 𝕄
  | 0, _ => Pipeline.ΦA spec3 c
  | n + 1, hn => iprop(owns (c : Thread nD τ) scM3 fullShare (acc3 V c n hn) ∗ Rest3 c)

theorem PhiS3_zero (c : Dev nD) (n : ℕ) (h : n ≤ cfg3.N) (hz : n = 0) : PhiS3 V c n h = Pipeline.ΦA spec3 c := by
  subst hz; rfl

/-- After point `n` (before point `n + 1`): the scratch at that point's accumulated table. -/
theorem PhiS3_succ (c : Dev nD) (n : ℕ) (hn : n < cfg3.N) :
    PhiS3 V c (n + 1) hn = iprop(owns (c : Thread nD τ) scM3 fullShare (acc3 V c n hn) ∗ Rest3 c) := rfl

/-- Before a point that is not the first: the scratch at what the point before left. -/
theorem PhiS3_pos (c : Dev nD) (n : ℕ) (h : n ≤ cfg3.N) (hz : n ≠ 0) :
    PhiS3 V c n h = iprop(owns (c : Thread nD τ) scM3 fullShare (acc3 V c (n - 1) (by omega)) ∗ Rest3 c) := by
  cases n with
  | zero => exact absurd rfl hz
  | succ n => rfl

/-! ## The pipeline's proof data -/

/-- The proof data of pipeline 3 on core `c`: the arrays as the region finds them (`V`); after the body at point `t`
    each input's buffer still at its block and the result's at the table accumulated through `t` (what the last point
    stores there; at the other points the window is idle and this is not consulted); the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the definition's case split reduced at each window number). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

/-- The invariant at a point's start, restated at the point's number. -/
theorem PhiS3_castSucc (c : Dev nD) (t : Fin cfg3.N) :
    (dat3 V c).Φ t.castSucc = PhiS3 V c t.val (Nat.le_of_lt t.isLt) := by
  dsimp only [dat3]; simp only [Fin.coe_castSucc]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## Where the windows are idle -/

/-- The input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
/-- Where the second conditional is not taken the result window is idle, and the pipeline does not write it back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
/-- Where it is taken the result window is live. -/
theorem liveAt3_2 : ∀ t : Fin cfg3.N, cond3_1 (grid3.coords t) → cfg3.idle 2 (grid3.coords t) = false := by decide +kernel

/-! ## The body obligation, at a generic point -/

/-- What the body is called with at point `t`: the invariant, the core's debt, and each window's current staging
    buffer at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns: the invariant at the next position, the same debt, each buffer at what the body leaves (an
    idle window's at what it held). -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' memrefs hold their blocks; the point's number says which of the three cases it
    is in. At the first point the invariant is the class's and hands the run the scratch at anything; at a later point
    it hands the scratch at what the point before left. The run gives the scratch back at this point's accumulated
    table, which is the invariant at the next position. The result window's buffer is handed back untouched at the
    points where it is idle, and at the last point holds the accumulated table. The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 14 := lt_of_lt_of_eq t.isLt (show cfg3.N = 14 from N_3)
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  by_cases h0 : t.val = 0
  · have h1 : ¬t.val = 13 := by omega
    rw [Dat.leavesExact_idle (dat3 V c) 2 t (idleAt3_2 t (fun h => h1 ((hcond3_1 t).mp h))) (noFlush3_2 t (fun h => h1 ((hcond3_1 t).mp h)))]
    rw [acc3_at_zero V c t h0]
    rw [PhiS3_castSucc V c t, PhiS3_zero V c _ _ h0, PhiA3_eq]
    iintro ⟨⟨HS, HR⟩, Ho, ⟨%d0, H0⟩, ⟨%d1, H1⟩, ⟨%d2, H2⟩⟩
    iapply (run3_first c Set.univ (grid3.coords t) _ _ _ _ _ _ _ _ ((hcond3_0 t).mpr h0) (fun h => h1 ((hcond3_1 t).mp h)) (iblk3 V c 0 t) (iblk3 V c 1 t) _)
    isplitl [H0]; · iexact H0
    isplitl [H1]; · iexact H1
    isplitl [HS]; · iexact HS
    iintro ⟨H0, H1, HS⟩
    isplitl [HS HR]
    · isplitl [HS]; · iexact HS
      iexact HR
    isplitl [Ho]; · iexact Ho
    isplitl [H0]; · iexact H0
    isplitl [H1]; · iexact H1
    iexists _; iexact H2
  · by_cases h1 : t.val = 13
    · rw [show (dat3 V c).leavesExact 2 t = owns (c : Thread nD τ) (st3_2 t) fullShare ((dat3 V c).after 2 t) from by
        unfold Dat.leavesExact; rw [liveAt3_2 t ((hcond3_1 t).mpr h1)], after3_2]
      rw [acc3_at_pos V c t h0]
      rw [PhiS3_castSucc V c t, PhiS3_pos V c _ _ h0]
      iintro ⟨⟨HS, HR⟩, Ho, ⟨%d0, H0⟩, ⟨%d1, H1⟩, ⟨%d2, H2⟩⟩
      iapply (run3_last c Set.univ (grid3.coords t) _ _ _ _ _ _ _ _ (fun h => h0 ((hcond3_0 t).mp h)) ((hcond3_1 t).mpr h1) (iblk3 V c 0 t) (iblk3 V c 1 t) _ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat3 V c) 2 t (idleAt3_2 t (fun h => h1 ((hcond3_1 t).mp h))) (noFlush3_2 t (fun h => h1 ((hcond3_1 t).mp h)))]
      rw [acc3_at_pos V c t h0]
      rw [PhiS3_castSucc V c t, PhiS3_pos V c _ _ h0]
      iintro ⟨⟨HS, HR⟩, Ho, ⟨%d0, H0⟩, ⟨%d1, H1⟩, ⟨%d2, H2⟩⟩
      iapply (run3_mid c Set.univ (grid3.coords t) _ _ _ _ _ _ _ _ (fun h => h0 ((hcond3_0 t).mp h)) (fun h => h1 ((hcond3_1 t).mp h)) (iblk3 V c 0 t) (iblk3 V c 1 t) _ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexists _; iexact H2

/-- The library's body obligation, at every point: its conjunctions over the three windows written out. -/
theorem body_obligation3 (c : Dev nD) : BodyObligation (dat3 (F := F) V c) (defs₀ (F := F)) Variants.none () Set.univ := fun t => by
  rw [bigSep_W3, bigSep_W3]
  exact sound_body3 V c t

/-! ## The invariant's two ends -/

/-- What the launch hands the region (the class invariant) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class invariant back: the scratch's named contents are
    forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨HS, HR⟩
  isplitl [HS]
  · iexists _; iexact HS
  iexact HR

/-- The same after the last point. -/
theorem hout3 (c : Dev nD) : (dat3 V c).Φ (Fin.last cfg3.N) ⊢ Pipeline.ΦA spec3 c :=
  Phi_out3 V c _ (by rw [Fin.val_last]; have : cfg3.N = 14 := N_3; omega)

end Cert.KernelIdeal.Hand

end
-- ==== Proof.KI.Mlp4.lean ====
/- The class-A half of REGION 4 of the kernel's @main: the last pallas_call, the two-layer perceptron on the pooled
   features, one grid point, five input windows (the pooled features, the two weight matrices and the two bias rows)
   and one output window (the logits). Everything is stated at a PARAMETER V, the TensorCore's buffer contents when
   the region is entered: each window's block read off V, what the body leaves in the output window's staging buffer
   as a function of the five input blocks, the body's triple, the pipeline's proof data and the body obligation. -/
import proofs.«430049_j55997783605449_1_alg».proof.Proof.Gen.KernelIdeal.Launch
import proofs.«430049_j55997783605449_1_alg».proof.Proof.Gen.KernelIdeal.Skeleton
import proofs.«430049_j55997783605449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 4: the perceptron call, at the entry contents V -/

/-! ## The windows' blocks -/

/-- Window w's block at point t, read off its array as the region finds it (V). Every window of this call is the
    whole of its array, and the grid has one point. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for ANY proof
    data whose array is V's (hA) and whose body leaves the block in place (hafter): the window is uncut and never
    idle, so what it holds is what a fetch there would put in it, and that is the block. One statement per input. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each load and the one store take the whole of their buffer -/

abbrev r4_0 : Rect S256x128 := Rect.unit (s := S256x128) ![0, 0] S256x128.size inb_S256x128_S256x128_0_0
abbrev r4_1 : Rect S128x256 := Rect.unit (s := S128x256) ![0, 0] S128x256.size inb_S128x256_S128x256_0_0
abbrev r4_2 : Rect S256 := Rect.unit (s := S256) ![0] S256.size inb_S256_S256_0
abbrev r4_3 : Rect S256x2 := Rect.unit (s := S256x2) ![0, 0] S256x2.size inb_S256x2_S256x2_0_0
abbrev r4_4 : Rect S2 := Rect.unit (s := S2) ![0] S2.size inb_S2_S2_0

/-! ## What the body leaves in the output window's buffer -/

/-- Window 5's staging buffer after the body, from the five input blocks: its one store, of the whole buffer, whose
    payload is relu(bf16(pooled) · bf16(w1) + b1) rounded to bf16, times bf16(w2), plus b2 (the skeleton's payload). -/
def out4_5 (x0 : Vec F S256x128 .f32) (x1 : Vec F S128x256 .f32) (x2 : Vec F S256 .f32) (x3 : Vec F S256x2 .f32) (x4 : Vec F S2 .f32) :
    Vec F S256x2 .f32 :=
  View.canon [⟨r4_3, k4_pay1 (View.ld x0 r4_0) (View.ld x1 r4_1) (View.ld x2 r4_2) (View.ld x3 r4_3) (View.ld x4 r4_4)⟩]

/-- The one store is of the whole buffer, so it covers it. -/
theorem cover4_5 (p0 : Vec F S256x2 .f32) (y : S256x2.Idx) :
    ∃ pc ∈ ([⟨r4_3, p0⟩] : List (View.Piece (Elt F) S256x2 .f32)), y ∈ pc.1.set :=
  View.cover_of_tiled [⟨r4_3, p0⟩] S256x2.size (by rfl) y

/-! ## The body's triple -/

set_option maxHeartbeats 1000000 in
/-- The kernel body on whole staging memrefs, the five inputs' at read contents x0 … x4 and the output's at anything,
    runs to the continuation holding the inputs' as they were and the output's at out4_5 of the inputs'. The body
    reads its output buffer once before the store (a value nothing uses): a read of unknown contents is allowed. -/
theorem sound_kernel4 (c : Dev nD) (E : Set ℕ) (i : grid4.Coords)
    (arg0 : Memref sig .tc .vmem S256x128 .f32) (harg0 : arg0.IsWhole) (arg1 : Memref sig .tc .vmem S128x256 .f32) (harg1 : arg1.IsWhole)
    (arg2 : Memref sig .tc .vmem S256 .f32) (harg2 : arg2.IsWhole) (arg3 : Memref sig .tc .vmem S256x2 .f32) (harg3 : arg3.IsWhole)
    (arg4 : Memref sig .tc .vmem S2 .f32) (harg4 : arg4.IsWhole) (arg5 : Memref sig .tc .vmem S256x2 .f32) (harg5 : arg5.IsWhole)
    (x0 : Vec F S256x128 .f32) (x1 : Vec F S128x256 .f32) (x2 : Vec F S256 .f32) (x3 : Vec F S256x2 .f32) (x4 : Vec F S2 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out4_5 x0 x1 x2 x3 x4)) -∗ K ⟨⟩))
      ⊢ wp frame (wpE (defs₀ (F := F)) Variants.none c none) E (cc4__mlp_kernel i arg0 harg0 arg1 harg1 arg2 harg2 arg3 harg3 arg4 harg4 arg5 harg5) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core c: the arrays as the region finds them (V); after the body at point t each
    input's buffer at its block and the output's at out4_5 of the five input blocks; the invariant says the scoped
    rest and the generator register are untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point t: the invariant, the core's debt, and each window's current staging buffer. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so the body's triple applies; the invariant and the
    core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Chain.lean ====
/- The buffer contents of core c at each boundary of @main: at launch the launch memory; after a host stretch the stretch's
   operations applied to the contents before it; after a kernel region the region's arrays at what its write-backs leave
   (the proof data's final arrays) and every other buffer as before. -/
import proofs.«430049_j55997783605449_1_alg».proof.Proof.KI.Lin0
import proofs.«430049_j55997783605449_1_alg».proof.Proof.KI.Lin1
import proofs.«430049_j55997783605449_1_alg».proof.Proof.KI.Lin2
import proofs.«430049_j55997783605449_1_alg».proof.Proof.KI.Pool3
import proofs.«430049_j55997783605449_1_alg».proof.Proof.KI.Mlp4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host stretch hostOps0. -/
abbrev W1 : Dev nD → Valuation τ sig (Elt F) := fun c => StableHlo.after hostOps0 (W0 m ρ c)
/-- After the host stretch hostOps0_1. -/
abbrev W2 : Dev nD → Valuation τ sig (Elt F) := fun c => StableHlo.after hostOps0_1 (W1 m ρ c)
/-- After the host stretch hostOps0_2. -/
abbrev W3 : Dev nD → Valuation τ sig (Elt F) := fun c => StableHlo.after hostOps0_2 (W2 m ρ c)
/-- The contents region 0 is entered from, read at the TensorCore's references. -/
abbrev V3 : (c : Dev nD) → (b : Ref sig .tc) → Buf (Elt F) ((c : Thread nD τ).loc b) := fun c b => W3 m ρ c b
/-- At region 0's exit: its arrays at what the write-backs leave, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references (region 0's exit contents). -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host stretch hostOps1. -/
abbrev W5 : Dev nD → Valuation τ sig (Elt F) := fun c => StableHlo.after hostOps1 (W4 m ρ c)
/-- After the host stretch hostOps1_1. -/
abbrev W6 : Dev nD → Valuation τ sig (Elt F) := fun c => StableHlo.after hostOps1_1 (W5 m ρ c)
/-- After the host stretch hostOps1_2. -/
abbrev W7 : Dev nD → Valuation τ sig (Elt F) := fun c => StableHlo.after hostOps1_2 (W6 m ρ c)
/-- The contents region 1 is entered from, read at the TensorCore's references. -/
abbrev V7 : (c : Dev nD) → (b : Ref sig .tc) → Buf (Elt F) ((c : Thread nD τ).loc b) := fun c b => W7 m ρ c b
/-- At region 1's exit: its arrays at what the write-backs leave, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references (region 1's exit contents). -/
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- After the host stretch hostOps2. -/
abbrev W9 : Dev nD → Valuation τ sig (Elt F) := fun c => StableHlo.after hostOps2 (W8 m ρ c)
/-- After the host stretch hostOps2_1. -/
abbrev W10 : Dev nD → Valuation τ sig (Elt F) := fun c => StableHlo.after hostOps2_1 (W9 m ρ c)
/-- After the host stretch hostOps2_2. -/
abbrev W11 : Dev nD → Valuation τ sig (Elt F) := fun c => StableHlo.after hostOps2_2 (W10 m ρ c)
/-- The contents region 2 is entered from, read at the TensorCore's references. -/
abbrev V11 : (c : Dev nD) → (b : Ref sig .tc) → Buf (Elt F) ((c : Thread nD τ).loc b) := fun c b => W11 m ρ c b
/-- At region 2's exit: its arrays at what the write-backs leave, every other buffer as entered. -/
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
/-- The same read at the TensorCore's references (region 2's exit contents). -/
abbrev V12 : (c : Dev nD) → (b : Ref sig .tc) → Buf (Elt F) ((c : Thread nD τ).loc b) := fun c b => W12 m ρ c b
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)
/-- After the host stretch hostOps3. -/
abbrev W13 : Dev nD → Valuation τ sig (Elt F) := fun c => StableHlo.after hostOps3 (W12 m ρ c)
/-- After the host stretch hostOps3_1. -/
abbrev W14 : Dev nD → Valuation τ sig (Elt F) := fun c => StableHlo.after hostOps3_1 (W13 m ρ c)
/-- After the host stretch hostOps3_2. -/
abbrev W15 : Dev nD → Valuation τ sig (Elt F) := fun c => StableHlo.after hostOps3_2 (W14 m ρ c)
/-- After the host stretch hostOps3_3. -/
abbrev W16 : Dev nD → Valuation τ sig (Elt F) := fun c => StableHlo.after hostOps3_3 (W15 m ρ c)
/-- After the host stretch hostOps3_4. -/
abbrev W17 : Dev nD → Valuation τ sig (Elt F) := fun c => StableHlo.after hostOps3_4 (W16 m ρ c)
/-- After the host stretch hostOps3_5. -/
abbrev W18 : Dev nD → Valuation τ sig (Elt F) := fun c => StableHlo.after hostOps3_5 (W17 m ρ c)
/-- After the host stretch hostOps3_6. -/
abbrev W19 : Dev nD → Valuation τ sig (Elt F) := fun c => StableHlo.after hostOps3_6 (W18 m ρ c)
/-- The contents region 3 is entered from, read at the TensorCore's references. -/
abbrev V19 : (c : Dev nD) → (b : Ref sig .tc) → Buf (Elt F) ((c : Thread nD τ).loc b) := fun c b => W19 m ρ c b
/-- At region 3's exit: its arrays at what the write-backs leave, every other buffer as entered. -/
def W20 (c : Dev nD) : Valuation τ sig (Elt F) :=
  Pipeline.withArrays spec3 c (W19 m ρ c) fun w => (dat3 (V19 m ρ) c).arrAt w cfg3.N
theorem W20_arr (c : Dev nD) (w : Fin cfg3.W) :
    W20 m ρ c (Proc.devRef .tc (Pipeline.arrRef spec3 w)) = (dat3 (V19 m ρ) c).arrAt w cfg3.N := by
  unfold W20; exact Pipeline.withArrays_arr spec3 launch3.win.arr_inj c _ _ w
theorem W20_of_ne (c : Dev nD) (b : Ref sig .tc) (hb : ∀ w, Pipeline.arrRef spec3 w ≠ b) :
    W20 m ρ c (Proc.devRef .tc b) = W19 m ρ c (Proc.devRef .tc b) := by
  unfold W20; exact Pipeline.withArrays_of_ne spec3 c _ _ b hb
/-- The same read at the TensorCore's references (region 3's exit contents). -/
abbrev V20 : (c : Dev nD) → (b : Ref sig .tc) → Buf (Elt F) ((c : Thread nD τ).loc b) := fun c b => W20 m ρ c b
theorem hF3 (c : Dev nD) (w : Fin cfg3.W) : (dat3 (V19 m ρ) c).arrAt w cfg3.N = V20 m ρ c (Pipeline.arrRef spec3 w) :=
  (W20_arr m ρ c w).symm
theorem hrest3 (c : Dev nD) : ∀ b, b ∉ Finset.univ.image (Pipeline.arrRef spec3) → V20 m ρ c b = V19 m ρ c b :=
  fun b hb => W20_of_ne m ρ c b fun w e => hb (Finset.mem_image.mpr ⟨w, Finset.mem_univ _, e⟩)
/-- After the host stretch hostOps4. -/
abbrev W21 : Dev nD → Valuation τ sig (Elt F) := fun c => StableHlo.after hostOps4 (W20 m ρ c)
/-- The contents region 4 is entered from, read at the TensorCore's references. -/
abbrev V21 : (c : Dev nD) → (b : Ref sig .tc) → Buf (Elt F) ((c : Thread nD τ).loc b) := fun c b => W21 m ρ c b
/-- At region 4's exit: its arrays at what the write-backs leave, every other buffer as entered. -/
def W22 (c : Dev nD) : Valuation τ sig (Elt F) :=
  Pipeline.withArrays spec4 c (W21 m ρ c) fun w => (dat4 (V21 m ρ) c).arrAt w cfg4.N
theorem W22_arr (c : Dev nD) (w : Fin cfg4.W) :
    W22 m ρ c (Proc.devRef .tc (Pipeline.arrRef spec4 w)) = (dat4 (V21 m ρ) c).arrAt w cfg4.N := by
  unfold W22; exact Pipeline.withArrays_arr spec4 launch4.win.arr_inj c _ _ w
theorem W22_of_ne (c : Dev nD) (b : Ref sig .tc) (hb : ∀ w, Pipeline.arrRef spec4 w ≠ b) :
    W22 m ρ c (Proc.devRef .tc b) = W21 m ρ c (Proc.devRef .tc b) := by
  unfold W22; exact Pipeline.withArrays_of_ne spec4 c _ _ b hb
/-- The same read at the TensorCore's references (region 4's exit contents). -/
abbrev V22 : (c : Dev nD) → (b : Ref sig .tc) → Buf (Elt F) ((c : Thread nD τ).loc b) := fun c b => W22 m ρ c b
theorem hF4 (c : Dev nD) (w : Fin cfg4.W) : (dat4 (V21 m ρ) c).arrAt w cfg4.N = V22 m ρ c (Pipeline.arrRef spec4 w) :=
  (W22_arr m ρ c w).symm
theorem hrest4 (c : Dev nD) : ∀ b, b ∉ Finset.univ.image (Pipeline.arrRef spec4) → V22 m ρ c b = V21 m ρ c b :=
  fun b hb => W22_of_ne m ρ c b fun w e => hb (Finset.mem_image.mpr ⟨w, Finset.mem_univ _, e⟩)

end Cert.KernelIdeal.Hand

end
-- ==== Proof.KI.Run.lean ====
/-
  The run of the whole program, from the launch to the return: @main is cut into its 22 items — host stretches and the
  five kernel regions — and carried through them one after the other.  Between two items every unscoped buffer of the
  core is held at the contents the table of Chain.lean names for that boundary; a host stretch moves them by its
  operations, a region takes its windows' arrays out, runs its pipeline against that region's proof data (entered at the
  boundary's contents) and puts the arrays back at what the write-backs leave.  At the end every buffer is read off the
  last boundary's contents: the arguments are untouched by every item, and the result is region 4's final output array.
-/
import proofs.«430049_j55997783605449_1_alg».proof.Proof.KI.Chain
import proofs.«430049_j55997783605449_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- No pipeline has a prefetched table. -/
abbrev adm : (p : Fin 5) → (pcfgs (F := F) p).Adm := fun p => (cfgs p).toPCfg_adm
/-- Every pipeline's proof data, each entered at its region's boundary contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
  | ⟨2, _⟩ => fun c => dat2 (V11 m ρ) c
  | ⟨3, _⟩ => fun c => dat3 (V19 m ρ) c
  | ⟨4, _⟩ => fun c => dat4 (V21 m ρ) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those held between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary without the `owes`. -/
abbrev Tₙ (c : Dev nD) : sProp 𝕄 := iprop(StableHlo.held (c : Thread nD τ) (Pipeline.ucRefs τ sig) (W22 m ρ c) ∗ ∃ r, prngReg c r)

/-! ## The regions as segments -/

set_option backward.isDefEq.respectTransparency.types false in
/-- Region 0 between the contents `W3` and `W4`: its arrays are taken out of the unscoped buffers at entry and put back at the
    exit contents; the generator register goes into the region's invariant and comes back; nothing is owed; the kernel has
    no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents `W7` and `W8`: its arrays are taken out of the unscoped buffers at entry and put back at the
    exit contents; the generator register goes into the region's invariant and comes back; nothing is owed; the kernel has
    no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the contents `W11` and `W12`: its arrays are taken out of the unscoped buffers at entry and put back at the
    exit contents; the generator register goes into the region's invariant and comes back; nothing is owed; the kernel has
    no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 between the contents `W19` and `W20`: its arrays are taken out of the unscoped buffers at entry and put back at the
    exit contents; the generator register goes into the region's invariant and comes back; nothing is owed; the kernel has
    no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V19 m ρ) c).loose
  hwaits := Pipeline.hwaits_of_owed_zero _ _ _ _ L lv 3 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec3 c (V19 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 3).pre c (fun _ => fullShare) (adm (F := F) 3).1
        ∗ Pipeline.scopedRest (Pipeline.pin (pcfgs (F := F)) adm 3).spec c) ⊢ (Pipeline.ΦA spec3 c : sProp 𝕄) := by
      unfold Pipeline.ΦA
      iintro ⟨Hp, -, Hr⟩
      isplitl [Hr]; · iexact Hr
      iexact Hp
    exact h.trans (hin3 (V19 m ρ) c)
  hout c := by
    have h : (Pipeline.ΦA spec3 c : sProp 𝕄) ⊢ iprop((∃ r, prngReg c r) ∗ Pipeline.ownSems0 (fun k : PEmpty => k.elim) c
        ∗ Pipeline.scopedRest (Pipeline.pin (pcfgs (F := F)) adm 3).spec c) := by
      rw [Pipeline.ownSems0_none]; unfold Pipeline.ΦA
      iintro ⟨Hr, Hp⟩
      isplitl [Hp]; · iexact Hp
      isplitr; · iempintro
      iexact Hr
    exact (hout3 (V19 m ρ) c).trans h
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V19 m ρ c) (V20 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 between the contents `W21` and `W22`: its arrays are taken out of the unscoped buffers at entry and put back at the
    exit contents; the generator register goes into the region's invariant and comes back; nothing is owed; the kernel has
    no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V21 m ρ) c).loose
  hwaits := Pipeline.hwaits_of_owed_zero _ _ _ _ L lv 4 fun _ _ => rfl
  pre c := iprop(StableHlo.held (c : Thread nD τ) (Pipeline.ucRefs τ sig) (W21 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V21 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V21 m ρ c) (V22 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's 22 items in order. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .region (reg2 m ρ),
    .host (hseg hostOps3 hostOps3_sub hostOps3_fresh (W12 m ρ)),
    .host (hseg hostOps3_1 hostOps3_1_sub hostOps3_1_fresh (W13 m ρ)),
    .host (hseg hostOps3_2 hostOps3_2_sub hostOps3_2_fresh (W14 m ρ)),
    .host (hseg hostOps3_3 hostOps3_3_sub hostOps3_3_fresh (W15 m ρ)),
    .host (hseg hostOps3_4 hostOps3_4_sub hostOps3_4_fresh (W16 m ρ)),
    .host (hseg hostOps3_5 hostOps3_5_sub hostOps3_5_fresh (W17 m ρ)),
    .host (hseg hostOps3_6 hostOps3_6_sub hostOps3_6_fresh (W18 m ρ)),
    .region (reg3 m ρ),
    .host (hseg hostOps4 hostOps4_sub hostOps4_fresh (W20 m ρ)),
    .region (reg4 m ρ) ]

theorem main_run (c : Dev nD) : main (F := F) c = Pipeline.Seg.run (segs m ρ) := by
  rw [main_chain c, Pipeline.Seg.run_eq_chain]; rfl

set_option backward.isDefEq.respectTransparency.types false in
/-- From any memory with zero counters every weakly fair execution of @main terminates, nothing faulting, and the final
    memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W22 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c => h c)

end Cert.KernelIdeal.Hand

end
-- ==== Proof.KI.Keep.lean ====
/- What each item of @main leaves unchanged: a host stretch every buffer none of its operations writes; a kernel region every buffer
   that is none of its windows' arrays, and each input window's array. -/
import proofs.«430049_j55997783605449_1_alg».proof.Proof.KI.Chain
import proofs.«430049_j55997783605449_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem W0_eq (c : Dev nD) (r : Ref sig .tc) : W0 m ρ c r = m ((c : Thread nD τ).loc r) := rfl
theorem W1_keep (c : Dev nD) (r : Ref sig .tc) (h : r ∉ hostOps0_W) : W1 m ρ c r = W0 m ρ c r :=
  StableHlo.after_of_writes_sub hostOps0 _ hostOps0_writes h
theorem W2_keep (c : Dev nD) (r : Ref sig .tc) (h : r ∉ hostOps0_1_W) : W2 m ρ c r = W1 m ρ c r :=
  StableHlo.after_of_writes_sub hostOps0_1 _ hostOps0_1_writes h
theorem W3_keep (c : Dev nD) (r : Ref sig .tc) (h : r ∉ hostOps0_2_W) : W3 m ρ c r = W2 m ρ c r :=
  StableHlo.after_of_writes_sub hostOps0_2 _ hostOps0_2_writes h
theorem W4_keep (c : Dev nD) (r : Ref sig .tc) (h : ∀ w, Pipeline.arrRef spec0 w ≠ r) : W4 m ρ c r = W3 m ρ c r :=
  W4_of_ne m ρ c r h
theorem W4_in (c : Dev nD) (w : Fin cfg0.W) (hw : (cfg0.win w).isOut = false) :
    W4 m ρ c (Pipeline.arrRef spec0 w) = W3 m ρ c (Pipeline.arrRef spec0 w) :=
  (W4_arr m ρ c w).trans (((dat0 (V3 m ρ) c).arrAt_in w hw _).trans (A_eq0 (V3 m ρ) c w))
theorem W5_keep (c : Dev nD) (r : Ref sig .tc) (h : r ∉ hostOps1_W) : W5 m ρ c r = W4 m ρ c r :=
  StableHlo.after_of_writes_sub hostOps1 _ hostOps1_writes h
theorem W6_keep (c : Dev nD) (r : Ref sig .tc) (h : r ∉ hostOps1_1_W) : W6 m ρ c r = W5 m ρ c r :=
  StableHlo.after_of_writes_sub hostOps1_1 _ hostOps1_1_writes h
theorem W7_keep (c : Dev nD) (r : Ref sig .tc) (h : r ∉ hostOps1_2_W) : W7 m ρ c r = W6 m ρ c r :=
  StableHlo.after_of_writes_sub hostOps1_2 _ hostOps1_2_writes h
theorem W8_keep (c : Dev nD) (r : Ref sig .tc) (h : ∀ w, Pipeline.arrRef spec1 w ≠ r) : W8 m ρ c r = W7 m ρ c r :=
  W8_of_ne m ρ c r h
theorem W8_in (c : Dev nD) (w : Fin cfg1.W) (hw : (cfg1.win w).isOut = false) :
    W8 m ρ c (Pipeline.arrRef spec1 w) = W7 m ρ c (Pipeline.arrRef spec1 w) :=
  (W8_arr m ρ c w).trans (((dat1 (V7 m ρ) c).arrAt_in w hw _).trans (A_eq1 (V7 m ρ) c w))
theorem W9_keep (c : Dev nD) (r : Ref sig .tc) (h : r ∉ hostOps2_W) : W9 m ρ c r = W8 m ρ c r :=
  StableHlo.after_of_writes_sub hostOps2 _ hostOps2_writes h
theorem W10_keep (c : Dev nD) (r : Ref sig .tc) (h : r ∉ hostOps2_1_W) : W10 m ρ c r = W9 m ρ c r :=
  StableHlo.after_of_writes_sub hostOps2_1 _ hostOps2_1_writes h
theorem W11_keep (c : Dev nD) (r : Ref sig .tc) (h : r ∉ hostOps2_2_W) : W11 m ρ c r = W10 m ρ c r :=
  StableHlo.after_of_writes_sub hostOps2_2 _ hostOps2_2_writes h
theorem W12_keep (c : Dev nD) (r : Ref sig .tc) (h : ∀ w, Pipeline.arrRef spec2 w ≠ r) : W12 m ρ c r = W11 m ρ c r :=
  W12_of_ne m ρ c r h
theorem W12_in (c : Dev nD) (w : Fin cfg2.W) (hw : (cfg2.win w).isOut = false) :
    W12 m ρ c (Pipeline.arrRef spec2 w) = W11 m ρ c (Pipeline.arrRef spec2 w) :=
  (W12_arr m ρ c w).trans (((dat2 (V11 m ρ) c).arrAt_in w hw _).trans (A_eq2 (V11 m ρ) c w))
theorem W13_keep (c : Dev nD) (r : Ref sig .tc) (h : r ∉ hostOps3_W) : W13 m ρ c r = W12 m ρ c r :=
  StableHlo.after_of_writes_sub hostOps3 _ hostOps3_writes h
theorem W14_keep (c : Dev nD) (r : Ref sig .tc) (h : r ∉ hostOps3_1_W) : W14 m ρ c r = W13 m ρ c r :=
  StableHlo.after_of_writes_sub hostOps3_1 _ hostOps3_1_writes h
theorem W15_keep (c : Dev nD) (r : Ref sig .tc) (h : r ∉ hostOps3_2_W) : W15 m ρ c r = W14 m ρ c r :=
  StableHlo.after_of_writes_sub hostOps3_2 _ hostOps3_2_writes h
theorem W16_keep (c : Dev nD) (r : Ref sig .tc) (h : r ∉ hostOps3_3_W) : W16 m ρ c r = W15 m ρ c r :=
  StableHlo.after_of_writes_sub hostOps3_3 _ hostOps3_3_writes h
theorem W17_keep (c : Dev nD) (r : Ref sig .tc) (h : r ∉ hostOps3_4_W) : W17 m ρ c r = W16 m ρ c r :=
  StableHlo.after_of_writes_sub hostOps3_4 _ hostOps3_4_writes h
theorem W18_keep (c : Dev nD) (r : Ref sig .tc) (h : r ∉ hostOps3_5_W) : W18 m ρ c r = W17 m ρ c r :=
  StableHlo.after_of_writes_sub hostOps3_5 _ hostOps3_5_writes h
theorem W19_keep (c : Dev nD) (r : Ref sig .tc) (h : r ∉ hostOps3_6_W) : W19 m ρ c r = W18 m ρ c r :=
  StableHlo.after_of_writes_sub hostOps3_6 _ hostOps3_6_writes h
theorem W20_keep (c : Dev nD) (r : Ref sig .tc) (h : ∀ w, Pipeline.arrRef spec3 w ≠ r) : W20 m ρ c r = W19 m ρ c r :=
  W20_of_ne m ρ c r h
theorem W20_in (c : Dev nD) (w : Fin cfg3.W) (hw : (cfg3.win w).isOut = false) :
    W20 m ρ c (Pipeline.arrRef spec3 w) = W19 m ρ c (Pipeline.arrRef spec3 w) :=
  (W20_arr m ρ c w).trans (((dat3 (V19 m ρ) c).arrAt_in w hw _).trans (A_eq3 (V19 m ρ) c w))
theorem W21_keep (c : Dev nD) (r : Ref sig .tc) (h : r ∉ hostOps4_W) : W21 m ρ c r = W20 m ρ c r :=
  StableHlo.after_of_writes_sub hostOps4 _ hostOps4_writes h
theorem W22_keep (c : Dev nD) (r : Ref sig .tc) (h : ∀ w, Pipeline.arrRef spec4 w ≠ r) : W22 m ρ c r = W21 m ρ c r :=
  W22_of_ne m ρ c r h
theorem W22_in (c : Dev nD) (w : Fin cfg4.W) (hw : (cfg4.win w).isOut = false) :
    W22 m ρ c (Pipeline.arrRef spec4 w) = W21 m ρ c (Pipeline.arrRef spec4 w) :=
  (W22_arr m ρ c w).trans (((dat4 (V21 m ρ) c).arrAt_in w hw _).trans (A_eq4 (V21 m ρ) c w))

end Cert.KernelIdeal.Hand

end
-- ==== Proof.KI.Args.lean ====
/-
  The nine argument buffers at the end of @main hold what they held at launch: no host stretch writes an argument, and
  a kernel region changes only its output windows' arrays (an argument is either no window's array of the region, or an
  input window's array, which the region hands back as it found it).  The walk goes down the 22 boundaries of @main, one
  step per item, in five host legs joined by the five regions.
-/
import proofs.«430049_j55997783605449_1_alg».proof.Proof.KI.Keep

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-! ## The host legs: a buffer none of a leg's stretches writes is the same at both ends of the leg -/

/-- Items 0–2. -/
theorem leg0 (c : Dev nD) (r : Ref sig .tc) (h0 : r ∉ hostOps0_W) (h1 : r ∉ hostOps0_1_W) (h2 : r ∉ hostOps0_2_W) :
    W3 m ρ c r = m ((c : Thread nD τ).loc r) :=
  (W3_keep m ρ c r h2).trans <| (W2_keep m ρ c r h1).trans <| (W1_keep m ρ c r h0).trans (W0_eq m ρ c r)
/-- Items 4–6. -/
theorem leg1 (c : Dev nD) (r : Ref sig .tc) (h0 : r ∉ hostOps1_W) (h1 : r ∉ hostOps1_1_W) (h2 : r ∉ hostOps1_2_W) :
    W7 m ρ c r = W4 m ρ c r :=
  (W7_keep m ρ c r h2).trans <| (W6_keep m ρ c r h1).trans (W5_keep m ρ c r h0)
/-- Items 8–10. -/
theorem leg2 (c : Dev nD) (r : Ref sig .tc) (h0 : r ∉ hostOps2_W) (h1 : r ∉ hostOps2_1_W) (h2 : r ∉ hostOps2_2_W) :
    W11 m ρ c r = W8 m ρ c r :=
  (W11_keep m ρ c r h2).trans <| (W10_keep m ρ c r h1).trans (W9_keep m ρ c r h0)
/-- Items 12–18. -/
theorem leg3 (c : Dev nD) (r : Ref sig .tc) (h0 : r ∉ hostOps3_W) (h1 : r ∉ hostOps3_1_W) (h2 : r ∉ hostOps3_2_W)
    (h3 : r ∉ hostOps3_3_W) (h4 : r ∉ hostOps3_4_W) (h5 : r ∉ hostOps3_5_W) (h6 : r ∉ hostOps3_6_W) :
    W19 m ρ c r = W12 m ρ c r :=
  (W19_keep m ρ c r h6).trans <| (W18_keep m ρ c r h5).trans <| (W17_keep m ρ c r h4).trans <|
    (W16_keep m ρ c r h3).trans <| (W15_keep m ρ c r h2).trans <| (W14_keep m ρ c r h1).trans (W13_keep m ρ c r h0)

/-- From region 0's exit to region 4's entry, for a buffer that no stretch writes and that is no window's array of
    regions 1, 2, 3. -/
theorem mid (c : Dev nD) (r : Ref sig .tc)
    (a0 : r ∉ hostOps1_W) (a1 : r ∉ hostOps1_1_W) (a2 : r ∉ hostOps1_2_W) (k1 : ∀ w, Pipeline.arrRef spec1 w ≠ r)
    (b0 : r ∉ hostOps2_W) (b1 : r ∉ hostOps2_1_W) (b2 : r ∉ hostOps2_2_W) (k2 : ∀ w, Pipeline.arrRef spec2 w ≠ r)
    (d0 : r ∉ hostOps3_W) (d1 : r ∉ hostOps3_1_W) (d2 : r ∉ hostOps3_2_W) (d3 : r ∉ hostOps3_3_W)
    (d4 : r ∉ hostOps3_4_W) (d5 : r ∉ hostOps3_5_W) (d6 : r ∉ hostOps3_6_W) (k3 : ∀ w, Pipeline.arrRef spec3 w ≠ r)
    (e0 : r ∉ hostOps4_W) :
    W21 m ρ c r = W4 m ρ c r :=
  (W21_keep m ρ c r e0).trans <| (W20_keep m ρ c r k3).trans <| (leg3 m ρ c r d0 d1 d2 d3 d4 d5 d6).trans <|
    (W12_keep m ρ c r k2).trans <| (leg2 m ρ c r b0 b1 b2).trans <| (W8_keep m ρ c r k1).trans (leg1 m ρ c r a0 a1 a2)

/-- The same to the launch, for a buffer that is no window's array of region 0 either. -/
theorem W21_launch (c : Dev nD) (r : Ref sig .tc)
    (z0 : r ∉ hostOps0_W) (z1 : r ∉ hostOps0_1_W) (z2 : r ∉ hostOps0_2_W) (k0 : ∀ w, Pipeline.arrRef spec0 w ≠ r)
    (a0 : r ∉ hostOps1_W) (a1 : r ∉ hostOps1_1_W) (a2 : r ∉ hostOps1_2_W) (k1 : ∀ w, Pipeline.arrRef spec1 w ≠ r)
    (b0 : r ∉ hostOps2_W) (b1 : r ∉ hostOps2_1_W) (b2 : r ∉ hostOps2_2_W) (k2 : ∀ w, Pipeline.arrRef spec2 w ≠ r)
    (d0 : r ∉ hostOps3_W) (d1 : r ∉ hostOps3_1_W) (d2 : r ∉ hostOps3_2_W) (d3 : r ∉ hostOps3_3_W)
    (d4 : r ∉ hostOps3_4_W) (d5 : r ∉ hostOps3_5_W) (d6 : r ∉ hostOps3_6_W) (k3 : ∀ w, Pipeline.arrRef spec3 w ≠ r)
    (e0 : r ∉ hostOps4_W) :
    W21 m ρ c r = m ((c : Thread nD τ).loc r) :=
  (mid m ρ c r a0 a1 a2 k1 b0 b1 b2 k2 d0 d1 d2 d3 d4 d5 d6 k3 e0).trans <|
    (W4_keep m ρ c r k0).trans (leg0 m ρ c r z0 z1 z2)

/-! ## The arguments at region 4's entry -/

theorem rd_a1_21 (c : Dev nD) : W21 m ρ c main_arg1 = m ((c : Thread nD τ).loc main_arg1) :=
  W21_launch m ρ c main_arg1 (by decide) (by decide) (by decide) (by decide) (by decide) (by decide) (by decide) (by decide)
    (by decide) (by decide) (by decide) (by decide) (by decide) (by decide) (by decide) (by decide) (by decide) (by decide)
    (by decide) (by decide) (by decide)
theorem rd_a2_21 (c : Dev nD) : W21 m ρ c main_arg2 = m ((c : Thread nD τ).loc main_arg2) :=
  W21_launch m ρ c main_arg2 (by decide) (by decide) (by decide) (by decide) (by decide) (by decide) (by decide) (by decide)
    (by decide) (by decide) (by decide) (by decide) (by decide) (by decide) (by decide) (by decide) (by decide) (by decide)
    (by decide) (by decide) (by decide)
theorem rd_a3_21 (c : Dev nD) : W21 m ρ c main_arg3 = m ((c : Thread nD τ).loc main_arg3) :=
  W21_launch m ρ c main_arg3 (by decide) (by decide) (by decide) (by decide) (by decide) (by decide) (by decide) (by decide)
    (by decide) (by decide) (by decide) (by decide) (by decide) (by decide) (by decide) (by decide) (by decide) (by decide)
    (by decide) (by decide) (by decide)
theorem rd_a4_21 (c : Dev nD) : W21 m ρ c main_arg4 = m ((c : Thread nD τ).loc main_arg4) :=
  W21_launch m ρ c main_arg4 (by decide) (by decide) (by decide) (by decide) (by decide) (by decide) (by decide) (by decide)
    (by decide) (by decide) (by decide) (by decide) (by decide) (by decide) (by decide) (by decide) (by decide) (by decide)
    (by decide) (by decide) (by decide)
theorem rd_a5_21 (c : Dev nD) : W21 m ρ c main_arg5 = m ((c : Thread nD τ).loc main_arg5) :=
  W21_launch m ρ c main_arg5 (by decide) (by decide) (by decide) (by decide) (by decide) (by decide) (by decide) (by decide)
    (by decide) (by decide) (by decide) (by decide) (by decide) (by decide) (by decide) (by decide) (by decide) (by decide)
    (by decide) (by decide) (by decide)
theorem rd_a6_21 (c : Dev nD) : W21 m ρ c main_arg6 = m ((c : Thread nD τ).loc main_arg6) :=
  W21_launch m ρ c main_arg6 (by decide) (by decide) (by decide) (by decide) (by decide) (by decide) (by decide) (by decide)
    (by decide) (by decide) (by decide) (by decide) (by decide) (by decide) (by decide) (by decide) (by decide) (by decide)
    (by decide) (by decide) (by decide)
theorem rd_a7_21 (c : Dev nD) : W21 m ρ c main_arg7 = m ((c : Thread nD τ).loc main_arg7) :=
  W21_launch m ρ c main_arg7 (by decide) (by decide) (by decide) (by decide) (by decide) (by decide) (by decide) (by decide)
    (by decide) (by decide) (by decide) (by decide) (by decide) (by decide) (by decide) (by decide) (by decide) (by decide)
    (by decide) (by decide) (by decide)
theorem rd_a8_21 (c : Dev nD) : W21 m ρ c main_arg8 = m ((c : Thread nD τ).loc main_arg8) :=
  W21_launch m ρ c main_arg8 (by decide) (by decide) (by decide) (by decide) (by decide) (by decide) (by decide) (by decide)
    (by decide) (by decide) (by decide) (by decide) (by decide) (by decide) (by decide) (by decide) (by decide) (by decide)
    (by decide) (by decide) (by decide)
/-- The node features are region 0's first input window: the region hands that array back as it found it. -/
theorem rd_a0_21 (c : Dev nD) : W21 m ρ c main_arg0 = m ((c : Thread nD τ).loc main_arg0) :=
  (mid m ρ c main_arg0 (by decide) (by decide) (by decide) (by decide) (by decide) (by decide) (by decide) (by decide)
    (by decide) (by decide) (by decide) (by decide) (by decide) (by decide) (by decide) (by decide) (by decide)).trans <|
    (W4_in m ρ c 0 rfl).trans (leg0 m ρ c main_arg0 (by decide) (by decide) (by decide))

/-! ## The arguments at the end: region 4 reads main_arg3 … main_arg6 through input windows 1 … 4 and touches no other argument -/

theorem rd_a0_22 (c : Dev nD) : W22 m ρ c main_arg0 = m ((c : Thread nD τ).loc main_arg0) :=
  (W22_keep m ρ c main_arg0 (by decide)).trans (rd_a0_21 m ρ c)
theorem rd_a1_22 (c : Dev nD) : W22 m ρ c main_arg1 = m ((c : Thread nD τ).loc main_arg1) :=
  (W22_keep m ρ c main_arg1 (by decide)).trans (rd_a1_21 m ρ c)
theorem rd_a2_22 (c : Dev nD) : W22 m ρ c main_arg2 = m ((c : Thread nD τ).loc main_arg2) :=
  (W22_keep m ρ c main_arg2 (by decide)).trans (rd_a2_21 m ρ c)
theorem rd_a3_22 (c : Dev nD) : W22 m ρ c main_arg3 = m ((c : Thread nD τ).loc main_arg3) :=
  (W22_in m ρ c 1 rfl).trans (rd_a3_21 m ρ c)
theorem rd_a4_22 (c : Dev nD) : W22 m ρ c main_arg4 = m ((c : Thread nD τ).loc main_arg4) :=
  (W22_in m ρ c 2 rfl).trans (rd_a4_21 m ρ c)
theorem rd_a5_22 (c : Dev nD) : W22 m ρ c main_arg5 = m ((c : Thread nD τ).loc main_arg5) :=
  (W22_in m ρ c 3 rfl).trans (rd_a5_21 m ρ c)
theorem rd_a6_22 (c : Dev nD) : W22 m ρ c main_arg6 = m ((c : Thread nD τ).loc main_arg6) :=
  (W22_in m ρ c 4 rfl).trans (rd_a6_21 m ρ c)
theorem rd_a7_22 (c : Dev nD) : W22 m ρ c main_arg7 = m ((c : Thread nD τ).loc main_arg7) :=
  (W22_keep m ρ c main_arg7 (by decide)).trans (rd_a7_21 m ρ c)
theorem rd_a8_22 (c : Dev nD) : W22 m ρ c main_arg8 = m ((c : Thread nD τ).loc main_arg8) :=
  (W22_keep m ρ c main_arg8 (by decide)).trans (rd_a8_21 m ρ c)

end Cert.KernelIdeal.Hand

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.KV.Lin0.lean ====
/- The value of region 0: the first block-row product. A grid of ten points; point t writes rows 5000 t … 5000 t + 4999
   of the result array, each entry (r, q) of the block being the sum over the 128 contracted coordinates k of
   x (r, k) · W (k, q): the row block t of the left operand times the whole right operand. The ten row blocks tile the
   50000 rows, so the array after the region is the full product of the two input arrays as the region finds them —
   the same function the host's dot_general of those two arrays is, entry by entry. -/
import proofs.«430049_j55997783605449_1_alg».proof.Proof.KI.Lin0
import proofs.«430049_j55997783605449_1_alg».proof.ReferenceIdeal
import proofs.«430049_j55997783605449_1_alg».proof.Proof.LibPlainDot
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

-- the reference's dimension-numbers record cites the reference program's stated facts
variable [Cert.ReferenceIdeal.Facts₀]
-- the TensorCore's buffer contents when the region is entered, at the ideal values
variable (V : (c : Dev nD) → (b : Ref sig .tc) → Buf (Elt Ideal) ((c : Thread nD τ).loc b))

/-! ## One point's payload, entry by entry -/

/-- The payload at entry (a, q). At the ideal values narrowing a float is the identity, the cast between equal
    shapes is the identity, and the product into the zero accumulator is the sum over the 128 contracted
    coordinates of the operands' products. -/
theorem pay_apply0 (x0 : Vec Ideal S5000x128 .f32) (x1 : Vec Ideal S128x128 .f32) (a : Fin 5000) (q : Fin 128) :
    k0_pay1 x0 x1 (ix2 a q) = ∑ k : Fin 128, x0 (ix2 a k) * x1 (ix2 k q) := by
  unfold k0_pay1
  repeat rw [shapeCast_self]
  exact Cert.LibPlainDot.matmul_zero_apply dot_S5000x128_S128x128_S5000x128_1_0_0_1_n_n rfl rfl rfl rfl rfl rfl none _ _ a q

/-- The whole-buffer rectangle's offset vector is the zero vector. -/
theorem zero_off_lin0 : (![0, 0] : Fin 2 → Nat) = fun _ => 0 := funext fun a => by fin_cases a <;> rfl

/-! ## The whole-array function: the full product -/

/-- The 50000 × 128 by 128 × 128 product of two arrays, as the host computes it. -/
abbrev prod0 (X : FVec Ideal S50000x128 .f32) (W : FVec Ideal S128x128 .f32) : FVec Ideal S50000x128 .f32 :=
  Host.dotGeneral (F := Ideal) Cert.ReferenceIdeal.dot_S50000x128_S128x128_S50000x128_1_0_0_1_n_n none X W

/-- The full product at entry (r, q): the sum over the 128 contracted coordinates. -/
theorem prod_apply0 (X : FVec Ideal S50000x128 .f32) (W : FVec Ideal S128x128 .f32) (r : Fin 50000) (q : Fin 128) :
    prod0 X W (ix2 r q) = ∑ k : Fin 128, X (ix2 r k) * W (ix2 k q) :=
  Cert.LibPlainDot.dotGeneral_apply Cert.ReferenceIdeal.dot_S50000x128_S128x128_S50000x128_1_0_0_1_n_n rfl rfl rfl rfl rfl rfl none .single X W r q

/-- A block product meets the full product: if row (j 0) of the left block is row (i 0) of the left array and column
    (j 1) of the right block is column (i 1) of the right array, the block product at j is the full product at i —
    both are the same sum of 128 products. -/
theorem point_eq0 (X : FVec Ideal S50000x128 .f32) (W : FVec Ideal S128x128 .f32)
    (x0 : Vec Ideal S5000x128 .f32) (x1 : Vec Ideal S128x128 .f32) (j : S5000x128.Idx) (i : S50000x128.Idx)
    (h0 : ∀ k : Fin 128, x0 (ix2 (j 0) k) = X (ix2 (i 0) k))
    (h1 : ∀ k : Fin 128, x1 (ix2 k (j 1)) = W (ix2 k (i 1))) :
    k0_pay1 x0 x1 j = prod0 X W i := by
  calc k0_pay1 x0 x1 j = k0_pay1 x0 x1 (ix2 (j 0) (j 1)) := congrArg _ (eq_ix2 j)
    _ = ∑ k : Fin 128, x0 (ix2 (j 0) k) * x1 (ix2 k (j 1)) := pay_apply0 x0 x1 (j 0) (j 1)
    _ = ∑ k : Fin 128, X (ix2 (i 0) k) * W (ix2 k (i 1)) := Finset.sum_congr rfl fun k _ => by rw [h0 k, h1 k]
    _ = prod0 X W (ix2 (i 0) (i 1)) := (prod_apply0 X W (i 0) (i 1)).symm
    _ = prod0 X W i := congrArg _ (eq_ix2 i).symm

/-! ## What a point writes back is its block of the full product -/

/-- The printed index maps, decided over the ten points: the left operand's block row is the result's block row,
    which is the point's number; every other block index is zero (the right operand is one block, the same at
    every point; no window is split along the 128 columns). -/
theorem idx_facts0 : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) = t.val :=
  (by decide +kernel : ∀ t : Fin grid0.N, _)

/-- What point t writes back is block t of the full product of the two arrays as the region finds them. A block's
    coordinate in its array is block index × block extent + 1 × the coordinate inside the block: the left block's
    row a is the array's row 5000 t + a, the same row the result's block places it at, and the right block is the
    whole right array. -/
theorem flushed_eq0 (c : Dev nD) (t : Fin cfg0.N) :
    (dat0 (F := Ideal) V c).flushed 2 t = ((cfg0.win 2).blk t).view.read (Elt Ideal) (prod0 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zero_off_lin0]
  simp only [View.ld_unit_zero (S := S5000x128) zero_off_lin0, View.ld_unit_zero (S := S128x128) zero_off_lin0]
  obtain ⟨e0, e1, e2, e3, e4, e5⟩ := idx_facts0 t
  funext j
  refine point_eq0 _ _ (iblk0 V c 0 t) (iblk0 V c 1 t) j (((cfg0.win 2).blk t).view.emb j) (fun k => ?_) (fun k => ?_)
  · show V c (Pipeline.arrRef spec0 0) (((cfg0.win 0).blk t).view.emb (ix2 (j 0) k)) = V c (Pipeline.arrRef spec0 0) (ix2 (((cfg0.win 2).blk t).view.emb j 0) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c (Pipeline.arrRef spec0 1) (((cfg0.win 1).blk t).view.emb (ix2 k (j 1))) = V c (Pipeline.arrRef spec0 1) (ix2 k (((cfg0.win 2).blk t).view.emb j 1))
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-! ## The ten row blocks tile the array -/

/-- An index of the result array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole (Pipeline.arrRef spec0 2)).slice (win0_2.rect t)).set ↔ _
  rw [View.set_slice_whole, Rect.mem_set_unit]
  exact Iff.rfl

/-- Every block row is some point's. -/
theorem idx_onto0 : ∀ b : Fin 10, ∃ t : Fin cfg0.N, win0_2.index t = ![b.val, 0] :=
  (by decide +kernel : ∀ b : Fin 10, ∃ t : Fin grid0.N, win0_2.index t = ![b.val, 0])

/-- Every index is covered: row r lies in the block of the point whose block row is r / 5000, since
    5000 (r / 5000) ≤ r < 5000 (r / 5000) + 5000, and the one block column holds all 128 columns. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-! ## The array after the region -/

/-- The result array after the region is the host's product of the two input arrays as the region finds them:
    every point writes back its block of that product, and the blocks cover every index. -/
theorem final_lin0 (c : Dev nD) :
    (dat0 (F := Ideal) V c).arrAt 2 cfg0.N = Host.dotGeneral (F := Ideal) (φ₁ := .f32) (φ₂ := .f32) Cert.ReferenceIdeal.dot_S50000x128_S128x128_S50000x128_1_0_0_1_n_n none (V c (Pipeline.arrRef spec0 0)) (V c (Pipeline.arrRef spec0 1)) :=
  (dat0 (F := Ideal) V c).arrAt_eq_of_cover 2 (prod0 (V c (Pipeline.arrRef spec0 0)) (V c (Pipeline.arrRef spec0 1))) (fun t _ => flushed_eq0 V c t) cover0

end Cert.KernelIdeal.Val

end
-- ==== Proof.KV.Lin1.lean ====
/- The value of region 1: the first block-row product. A grid of ten points; point t writes rows 5000 t … 5000 t + 4999
   of the result array, each entry (r, q) of the block being the sum over the 128 contracted coordinates k of
   x (r, k) · W (k, q): the row block t of the left operand times the whole right operand. The ten row blocks tile the
   50000 rows, so the array after the region is the full product of the two input arrays as the region finds them —
   the same function the host's dot_general of those two arrays is, entry by entry. -/
import proofs.«430049_j55997783605449_1_alg».proof.Proof.KI.Lin1
import proofs.«430049_j55997783605449_1_alg».proof.ReferenceIdeal
import proofs.«430049_j55997783605449_1_alg».proof.Proof.LibPlainDot
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

-- the reference's dimension-numbers record cites the reference program's stated facts
variable [Cert.ReferenceIdeal.Facts₀]
-- the TensorCore's buffer contents when the region is entered, at the ideal values
variable (V : (c : Dev nD) → (b : Ref sig .tc) → Buf (Elt Ideal) ((c : Thread nD τ).loc b))

/-! ## One point's payload, entry by entry -/

/-- The payload at entry (a, q). At the ideal values narrowing a float is the identity, the cast between equal
    shapes is the identity, and the product into the zero accumulator is the sum over the 128 contracted
    coordinates of the operands' products. -/
theorem pay_apply1 (x0 : Vec Ideal S5000x128 .f32) (x1 : Vec Ideal S128x128 .f32) (a : Fin 5000) (q : Fin 128) :
    k1_pay1 x0 x1 (ix2 a q) = ∑ k : Fin 128, x0 (ix2 a k) * x1 (ix2 k q) := by
  unfold k1_pay1
  repeat rw [shapeCast_self]
  exact Cert.LibPlainDot.matmul_zero_apply dot_S5000x128_S128x128_S5000x128_1_0_0_1_n_n rfl rfl rfl rfl rfl rfl none _ _ a q

/-- The whole-buffer rectangle's offset vector is the zero vector. -/
theorem zero_off_lin1 : (![0, 0] : Fin 2 → Nat) = fun _ => 0 := funext fun a => by fin_cases a <;> rfl

/-! ## The whole-array function: the full product -/

/-- The 50000 × 128 by 128 × 128 product of two arrays, as the host computes it. -/
abbrev prod1 (X : FVec Ideal S50000x128 .f32) (W : FVec Ideal S128x128 .f32) : FVec Ideal S50000x128 .f32 :=
  Host.dotGeneral (F := Ideal) Cert.ReferenceIdeal.dot_S50000x128_S128x128_S50000x128_1_0_0_1_n_n none X W

/-- The full product at entry (r, q): the sum over the 128 contracted coordinates. -/
theorem prod_apply1 (X : FVec Ideal S50000x128 .f32) (W : FVec Ideal S128x128 .f32) (r : Fin 50000) (q : Fin 128) :
    prod1 X W (ix2 r q) = ∑ k : Fin 128, X (ix2 r k) * W (ix2 k q) :=
  Cert.LibPlainDot.dotGeneral_apply Cert.ReferenceIdeal.dot_S50000x128_S128x128_S50000x128_1_0_0_1_n_n rfl rfl rfl rfl rfl rfl none .single X W r q

/-- A block product meets the full product: if row (j 0) of the left block is row (i 0) of the left array and column
    (j 1) of the right block is column (i 1) of the right array, the block product at j is the full product at i —
    both are the same sum of 128 products. -/
theorem point_eq1 (X : FVec Ideal S50000x128 .f32) (W : FVec Ideal S128x128 .f32)
    (x0 : Vec Ideal S5000x128 .f32) (x1 : Vec Ideal S128x128 .f32) (j : S5000x128.Idx) (i : S50000x128.Idx)
    (h0 : ∀ k : Fin 128, x0 (ix2 (j 0) k) = X (ix2 (i 0) k))
    (h1 : ∀ k : Fin 128, x1 (ix2 k (j 1)) = W (ix2 k (i 1))) :
    k1_pay1 x0 x1 j = prod1 X W i := by
  calc k1_pay1 x0 x1 j = k1_pay1 x0 x1 (ix2 (j 0) (j 1)) := congrArg _ (eq_ix2 j)
    _ = ∑ k : Fin 128, x0 (ix2 (j 0) k) * x1 (ix2 k (j 1)) := pay_apply1 x0 x1 (j 0) (j 1)
    _ = ∑ k : Fin 128, X (ix2 (i 0) k) * W (ix2 k (i 1)) := Finset.sum_congr rfl fun k _ => by rw [h0 k, h1 k]
    _ = prod1 X W (ix2 (i 0) (i 1)) := (prod_apply1 X W (i 0) (i 1)).symm
    _ = prod1 X W i := congrArg _ (eq_ix2 i).symm

/-! ## What a point writes back is its block of the full product -/

/-- The printed index maps, decided over the ten points: the left operand's block row is the result's block row,
    which is the point's number; every other block index is zero (the right operand is one block, the same at
    every point; no window is split along the 128 columns). -/
theorem idx_facts1 : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) = t.val :=
  (by decide +kernel : ∀ t : Fin grid1.N, _)

/-- What point t writes back is block t of the full product of the two arrays as the region finds them. A block's
    coordinate in its array is block index × block extent + 1 × the coordinate inside the block: the left block's
    row a is the array's row 5000 t + a, the same row the result's block places it at, and the right block is the
    whole right array. -/
theorem flushed_eq1 (c : Dev nD) (t : Fin cfg1.N) :
    (dat1 (F := Ideal) V c).flushed 2 t = ((cfg1.win 2).blk t).view.read (Elt Ideal) (prod1 (V c (Pipeline.arrRef spec1 0)) (V c (Pipeline.arrRef spec1 1))) := by
  show (cfg1.win 2).cut (grid1.coords t) ((dat1 (F := Ideal) V c).after 2 t) = _
  rw [after1_2]
  unfold out1_2
  rw [View.canon_unit_zero zero_off_lin1]
  simp only [View.ld_unit_zero (S := S5000x128) zero_off_lin1, View.ld_unit_zero (S := S128x128) zero_off_lin1]
  obtain ⟨e0, e1, e2, e3, e4, e5⟩ := idx_facts1 t
  funext j
  refine point_eq1 _ _ (iblk1 V c 0 t) (iblk1 V c 1 t) j (((cfg1.win 2).blk t).view.emb j) (fun k => ?_) (fun k => ?_)
  · show V c (Pipeline.arrRef spec1 0) (((cfg1.win 0).blk t).view.emb (ix2 (j 0) k)) = V c (Pipeline.arrRef spec1 0) (ix2 (((cfg1.win 2).blk t).view.emb j 0) k)
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c (Pipeline.arrRef spec1 1) (((cfg1.win 1).blk t).view.emb (ix2 k (j 1))) = V c (Pipeline.arrRef spec1 1) (ix2 k (((cfg1.win 2).blk t).view.emb j 1))
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-! ## The ten row blocks tile the array -/

/-- An index of the result array is in point t's block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole (Pipeline.arrRef spec1 2)).slice (win1_2.rect t)).set ↔ _
  rw [View.set_slice_whole, Rect.mem_set_unit]
  exact Iff.rfl

/-- Every block row is some point's. -/
theorem idx_onto1 : ∀ b : Fin 10, ∃ t : Fin cfg1.N, win1_2.index t = ![b.val, 0] :=
  (by decide +kernel : ∀ b : Fin 10, ∃ t : Fin grid1.N, win1_2.index t = ![b.val, 0])

/-- Every index is covered: row r lies in the block of the point whose block row is r / 5000, since
    5000 (r / 5000) ≤ r < 5000 (r / 5000) + 5000, and the one block column holds all 128 columns. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-! ## The array after the region -/

/-- The result array after the region is the host's product of the two input arrays as the region finds them:
    every point writes back its block of that product, and the blocks cover every index. -/
theorem final_lin1 (c : Dev nD) :
    (dat1 (F := Ideal) V c).arrAt 2 cfg1.N = Host.dotGeneral (F := Ideal) (φ₁ := .f32) (φ₂ := .f32) Cert.ReferenceIdeal.dot_S50000x128_S128x128_S50000x128_1_0_0_1_n_n none (V c (Pipeline.arrRef spec1 0)) (V c (Pipeline.arrRef spec1 1)) :=
  (dat1 (F := Ideal) V c).arrAt_eq_of_cover 2 (prod1 (V c (Pipeline.arrRef spec1 0)) (V c (Pipeline.arrRef spec1 1))) (fun t _ => flushed_eq1 V c t) cover1

end Cert.KernelIdeal.Val

end
-- ==== Proof.KV.Lin2.lean ====
/- The value of region 2: the first block-row product. A grid of ten points; point t writes rows 5000 t … 5000 t + 4999
   of the result array, each entry (r, q) of the block being the sum over the 128 contracted coordinates k of
   x (r, k) · W (k, q): the row block t of the left operand times the whole right operand. The ten row blocks tile the
   50000 rows, so the array after the region is the full product of the two input arrays as the region finds them —
   the same function the host's dot_general of those two arrays is, entry by entry. -/
import proofs.«430049_j55997783605449_1_alg».proof.Proof.KI.Lin2
import proofs.«430049_j55997783605449_1_alg».proof.ReferenceIdeal
import proofs.«430049_j55997783605449_1_alg».proof.Proof.LibPlainDot
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

-- the reference's dimension-numbers record cites the reference program's stated facts
variable [Cert.ReferenceIdeal.Facts₀]
-- the TensorCore's buffer contents when the region is entered, at the ideal values
variable (V : (c : Dev nD) → (b : Ref sig .tc) → Buf (Elt Ideal) ((c : Thread nD τ).loc b))

/-! ## One point's payload, entry by entry -/

/-- The payload at entry (a, q). At the ideal values narrowing a float is the identity, the cast between equal
    shapes is the identity, and the product into the zero accumulator is the sum over the 128 contracted
    coordinates of the operands' products. -/
theorem pay_apply2 (x0 : Vec Ideal S5000x128 .f32) (x1 : Vec Ideal S128x128 .f32) (a : Fin 5000) (q : Fin 128) :
    k2_pay1 x0 x1 (ix2 a q) = ∑ k : Fin 128, x0 (ix2 a k) * x1 (ix2 k q) := by
  unfold k2_pay1
  repeat rw [shapeCast_self]
  exact Cert.LibPlainDot.matmul_zero_apply dot_S5000x128_S128x128_S5000x128_1_0_0_1_n_n rfl rfl rfl rfl rfl rfl none _ _ a q

/-- The whole-buffer rectangle's offset vector is the zero vector. -/
theorem zero_off_lin2 : (![0, 0] : Fin 2 → Nat) = fun _ => 0 := funext fun a => by fin_cases a <;> rfl

/-! ## The whole-array function: the full product -/

/-- The 50000 × 128 by 128 × 128 product of two arrays, as the host computes it. -/
abbrev prod2 (X : FVec Ideal S50000x128 .f32) (W : FVec Ideal S128x128 .f32) : FVec Ideal S50000x128 .f32 :=
  Host.dotGeneral (F := Ideal) Cert.ReferenceIdeal.dot_S50000x128_S128x128_S50000x128_1_0_0_1_n_n none X W

/-- The full product at entry (r, q): the sum over the 128 contracted coordinates. -/
theorem prod_apply2 (X : FVec Ideal S50000x128 .f32) (W : FVec Ideal S128x128 .f32) (r : Fin 50000) (q : Fin 128) :
    prod2 X W (ix2 r q) = ∑ k : Fin 128, X (ix2 r k) * W (ix2 k q) :=
  Cert.LibPlainDot.dotGeneral_apply Cert.ReferenceIdeal.dot_S50000x128_S128x128_S50000x128_1_0_0_1_n_n rfl rfl rfl rfl rfl rfl none .single X W r q

/-- A block product meets the full product: if row (j 0) of the left block is row (i 0) of the left array and column
    (j 1) of the right block is column (i 1) of the right array, the block product at j is the full product at i —
    both are the same sum of 128 products. -/
theorem point_eq2 (X : FVec Ideal S50000x128 .f32) (W : FVec Ideal S128x128 .f32)
    (x0 : Vec Ideal S5000x128 .f32) (x1 : Vec Ideal S128x128 .f32) (j : S5000x128.Idx) (i : S50000x128.Idx)
    (h0 : ∀ k : Fin 128, x0 (ix2 (j 0) k) = X (ix2 (i 0) k))
    (h1 : ∀ k : Fin 128, x1 (ix2 k (j 1)) = W (ix2 k (i 1))) :
    k2_pay1 x0 x1 j = prod2 X W i := by
  calc k2_pay1 x0 x1 j = k2_pay1 x0 x1 (ix2 (j 0) (j 1)) := congrArg _ (eq_ix2 j)
    _ = ∑ k : Fin 128, x0 (ix2 (j 0) k) * x1 (ix2 k (j 1)) := pay_apply2 x0 x1 (j 0) (j 1)
    _ = ∑ k : Fin 128, X (ix2 (i 0) k) * W (ix2 k (i 1)) := Finset.sum_congr rfl fun k _ => by rw [h0 k, h1 k]
    _ = prod2 X W (ix2 (i 0) (i 1)) := (prod_apply2 X W (i 0) (i 1)).symm
    _ = prod2 X W i := congrArg _ (eq_ix2 i).symm

/-! ## What a point writes back is its block of the full product -/

/-- The printed index maps, decided over the ten points: the left operand's block row is the result's block row,
    which is the point's number; every other block index is zero (the right operand is one block, the same at
    every point; no window is split along the 128 columns). -/
theorem idx_facts2 : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) = t.val :=
  (by decide +kernel : ∀ t : Fin grid2.N, _)

/-- What point t writes back is block t of the full product of the two arrays as the region finds them. A block's
    coordinate in its array is block index × block extent + 1 × the coordinate inside the block: the left block's
    row a is the array's row 5000 t + a, the same row the result's block places it at, and the right block is the
    whole right array. -/
theorem flushed_eq2 (c : Dev nD) (t : Fin cfg2.N) :
    (dat2 (F := Ideal) V c).flushed 2 t = ((cfg2.win 2).blk t).view.read (Elt Ideal) (prod2 (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero zero_off_lin2]
  simp only [View.ld_unit_zero (S := S5000x128) zero_off_lin2, View.ld_unit_zero (S := S128x128) zero_off_lin2]
  obtain ⟨e0, e1, e2, e3, e4, e5⟩ := idx_facts2 t
  funext j
  refine point_eq2 _ _ (iblk2 V c 0 t) (iblk2 V c 1 t) j (((cfg2.win 2).blk t).view.emb j) (fun k => ?_) (fun k => ?_)
  · show V c (Pipeline.arrRef spec2 0) (((cfg2.win 0).blk t).view.emb (ix2 (j 0) k)) = V c (Pipeline.arrRef spec2 0) (ix2 (((cfg2.win 2).blk t).view.emb j 0) k)
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c (Pipeline.arrRef spec2 1) (((cfg2.win 1).blk t).view.emb (ix2 k (j 1))) = V c (Pipeline.arrRef spec2 1) (ix2 k (((cfg2.win 2).blk t).view.emb j 1))
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-! ## The ten row blocks tile the array -/

/-- An index of the result array is in point t's block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole (Pipeline.arrRef spec2 2)).slice (win2_2.rect t)).set ↔ _
  rw [View.set_slice_whole, Rect.mem_set_unit]
  exact Iff.rfl

/-- Every block row is some point's. -/
theorem idx_onto2 : ∀ b : Fin 10, ∃ t : Fin cfg2.N, win2_2.index t = ![b.val, 0] :=
  (by decide +kernel : ∀ b : Fin 10, ∃ t : Fin grid2.N, win2_2.index t = ![b.val, 0])

/-- Every index is covered: row r lies in the block of the point whose block row is r / 5000, since
    5000 (r / 5000) ≤ r < 5000 (r / 5000) + 5000, and the one block column holds all 128 columns. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-! ## The array after the region -/

/-- The result array after the region is the host's product of the two input arrays as the region finds them:
    every point writes back its block of that product, and the blocks cover every index. -/
theorem final_lin2 (c : Dev nD) :
    (dat2 (F := Ideal) V c).arrAt 2 cfg2.N = Host.dotGeneral (F := Ideal) (φ₁ := .f32) (φ₂ := .f32) Cert.ReferenceIdeal.dot_S50000x128_S128x128_S50000x128_1_0_0_1_n_n none (V c (Pipeline.arrRef spec2 0)) (V c (Pipeline.arrRef spec2 1)) :=
  (dat2 (F := Ideal) V c).arrAt_eq_of_cover 2 (prod2 (V c (Pipeline.arrRef spec2 0)) (V c (Pipeline.arrRef spec2 1))) (fun t _ => flushed_eq2 V c t) cover2

end Cert.KernelIdeal.Val

end
-- ==== Proof.Bridge.PoolSpec.lean ====
/-
  The pooled sums as one function of a 256 × 50176 table and a 50176 × 128 table: entry (p, q) is the sum over all
  50176 rows n of table(p, n) · rows(n, q).  The kernel reaches it block by block (fourteen blocks of 3584 rows, added
  one after the other into an accumulator that starts at zero); the reference reaches it as a scatter of the rows into
  256 bins.  Both are read against this one function.
-/
import Idealize.ShloMosaic.PureOps.Ideal
import Idealize.ShloMosaic.Lib.ValueIdx

noncomputable section

namespace Cert.Bridge

open Idealize.ShloMosaic Idealize.ShloMosaic.ValueIdx

/-- Entry (p, q): the sum over the 50176 rows n of oh(p, n) · xp(n, q). -/
def poolSum (oh : (⟨2, ![256, 50176]⟩ : Shape).Idx → EReal) (xp : (⟨2, ![50176, 128]⟩ : Shape).Idx → EReal) :
    (⟨2, ![256, 128]⟩ : Shape).Idx → EReal :=
  fun j => ∑ n : Fin 50176, oh (ix2 (j 0) n) * xp (ix2 n (j 1))

theorem poolSum_apply (oh : (⟨2, ![256, 50176]⟩ : Shape).Idx → EReal) (xp : (⟨2, ![50176, 128]⟩ : Shape).Idx → EReal)
    (p : Fin 256) (q : Fin 128) : poolSum oh xp (ix2 p q) = ∑ n : Fin 50176, oh (ix2 p n) * xp (ix2 n q) := rfl

end Cert.Bridge

end
-- ==== Proof.KV.Pool3.lean ====
/-
  The value of the pooling region. Fourteen grid points; at point j the accumulator (a 256 × 128 table held across the
  points, set to zero at the first) gains the product of block j of the 256 × 50176 table (its columns 3584 j …
  3584 j + 3583) with block j of the 50176 × 128 rows (its rows 3584 j … 3584 j + 3583); the output array is written
  once, at the last point, with the accumulator.

  So after point n the accumulator's entry (p, q) is the sum, over blocks j ≤ n, of the sum over k < 3584 of
  table(p, 3584 j + k) · rows(3584 j + k, q) — by induction on n; over the extended reals 0 + y = y, and no finiteness
  is asked. After the last point the fourteen blocks of 3584 rows are all 50176 rows (the pair (j, k) ↦ 3584 j + k is
  a bijection of Fin 14 × Fin 3584 with Fin 50176), so the accumulator is the pooled sum; the output's one block, at
  block index zero, is the whole array, and the only point that writes it back is the last.
-/
import proofs.«430049_j55997783605449_1_alg».proof.Proof.KI.Pool3
import proofs.«430049_j55997783605449_1_alg».proof.Proof.Bridge.PoolSpec
import proofs.«430049_j55997783605449_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-- The block the first point stores into the accumulator is zero at every entry. -/
theorem reset_apply (i : S256x128.Idx) : k3_pay1 (F := Ideal) i = 0 := by
  unfold k3_pay1
  simp only [shapeCast_self]
  exact Ideal.ofBits_zero_f32

/-- One point's step: the accumulator plus the product of the two blocks, at entry (p, q). -/
theorem step_apply (l : Vec Ideal S256x3584 .f32) (r : Vec Ideal S3584x128 .f32) (a : Vec Ideal S256x128 .f32)
    (p : Fin 256) (q : Fin 128) :
    k3_pay2 (F := Ideal) l r a (ix2 p q) = a (ix2 p q) + ∑ k : Fin 3584, l (ix2 p k) * r (ix2 k q) := by
  unfold k3_pay2
  simp only [shapeCast_self]
  rw [addf_apply]
  exact congrArg (a (ix2 p q) + ·) (Cert.LibPlainDot.matmul_zero_apply dot_S256x3584_S3584x128_S256x128_1_0_0_1_n_n rfl rfl rfl rfl rfl rfl none _ _ p q)

variable (V : (c : Dev nD) → (b : Ref sig .tc) → Buf (Elt Ideal) ((c : Thread nD τ).loc b))

/-- The printed index maps, decided over the fourteen points: the table's block moves along the columns with the
    point, the rows' block along the rows, and the output's one block never moves. -/
theorem idx_facts : ∀ t : Fin cfg3.N, win3_0.index t (0 : Fin 2) = 0 ∧ win3_0.index t (1 : Fin 2) = t.val
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

theorem point_lt (t : Fin cfg3.N) : t.val < 14 := lt_of_lt_of_eq t.isLt N_3

/-- Row or column 3584 j + k of the long axis, for block j < 14 and k < 3584 inside the block. -/
def longIx (j : ℕ) (hj : j < 14) (k : Fin 3584) : Fin 50176 := ⟨3584 * j + k.val, by omega⟩

/-- Block t of the table: entry (p, k) of the block is entry (p, 3584 t + k) of the table. -/
theorem table_blk (c : Dev nD) (t : Fin cfg3.N) (p : Fin 256) (k : Fin 3584) :
    (iblk3 V c 0 t : Vec Ideal S256x3584 .f32) (ix2 p k)
      = (V c (Pipeline.arrRef spec3 0) : Vec Ideal S256x50176 .f32) (ix2 p (longIx t.val (point_lt t) k)) := by
  obtain ⟨e0, e1, -, -, -, -⟩ := idx_facts t
  show V c (Pipeline.arrRef spec3 0) (((cfg3.win 0).blk t).view.emb (ix2 p k)) = V c (Pipeline.arrRef spec3 0) (ix2 p (longIx t.val (point_lt t) k))
  refine congrArg _ ?_
  funext a; apply Fin.ext
  match a with
  | ⟨0, _⟩ => show win3_0.index t (0 : Fin 2) * 256 + 1 * p.val = p.val; omega
  | ⟨1, _⟩ => show win3_0.index t (1 : Fin 2) * 3584 + 1 * k.val = 3584 * t.val + k.val; omega

/-- Block t of the rows: entry (k, q) of the block is entry (3584 t + k, q) of the rows. -/
theorem rows_blk (c : Dev nD) (t : Fin cfg3.N) (k : Fin 3584) (q : Fin 128) :
    (iblk3 V c 1 t : Vec Ideal S3584x128 .f32) (ix2 k q)
      = (V c (Pipeline.arrRef spec3 1) : Vec Ideal S50176x128 .f32) (ix2 (longIx t.val (point_lt t) k) q) := by
  obtain ⟨-, -, e0, e1, -, -⟩ := idx_facts t
  show V c (Pipeline.arrRef spec3 1) (((cfg3.win 1).blk t).view.emb (ix2 k q)) = V c (Pipeline.arrRef spec3 1) (ix2 (longIx t.val (point_lt t) k) q)
  refine congrArg _ ?_
  funext a; apply Fin.ext
  match a with
  | ⟨0, _⟩ => show win3_1.index t (0 : Fin 2) * 3584 + 1 * k.val = 3584 * t.val + k.val; omega
  | ⟨1, _⟩ => show win3_1.index t (1 : Fin 2) * 128 + 1 * q.val = q.val; omega

/-- The contribution of block j to entry (p, q): the sum over the block's 3584 rows; nothing past the last block. -/
def blockTerm (oh : Vec Ideal S256x50176 .f32) (xp : Vec Ideal S50176x128 .f32) (p : Fin 256) (q : Fin 128) (j : ℕ) : EReal :=
  if hj : j < 14 then ∑ k : Fin 3584, oh (ix2 p (longIx j hj k)) * xp (ix2 (longIx j hj k) q) else 0

/-- After point n the accumulator holds, at (p, q), the contributions of blocks 0 … n: it starts from zero, and each
    point adds its block's product. -/
theorem acc_apply (c : Dev nD) : ∀ (n : ℕ) (h : n < cfg3.N) (p : Fin 256) (q : Fin 128),
    acc3 (F := Ideal) V c n h (ix2 p q)
      = ∑ j ∈ Finset.range (n + 1), blockTerm (V c (Pipeline.arrRef spec3 0)) (V c (Pipeline.arrRef spec3 1)) p q j
  | 0, h, p, q => by
    rw [Finset.sum_range_one]
    show k3_pay2 (F := Ideal) (iblk3 V c 0 ⟨0, h⟩) (iblk3 V c 1 ⟨0, h⟩) (k3_pay1 (F := Ideal)) (ix2 p q) = _
    rw [step_apply, reset_apply, zero_add]
    unfold blockTerm
    rw [dif_pos (by decide : 0 < 14)]
    refine Finset.sum_congr rfl fun k _ => ?_
    rw [table_blk, rows_blk]
  | n + 1, h, p, q => by
    have hn : n + 1 < 14 := point_lt ⟨n + 1, h⟩
    rw [Finset.sum_range_succ]
    show k3_pay2 (F := Ideal) (iblk3 V c 0 ⟨n + 1, h⟩) (iblk3 V c 1 ⟨n + 1, h⟩) (acc3 V c n (Nat.lt_of_succ_lt h)) (ix2 p q) = _
    rw [step_apply, acc_apply c n]
    congr 1
    unfold blockTerm
    rw [dif_pos hn]
    refine Finset.sum_congr rfl fun k _ => ?_
    rw [table_blk, rows_blk]

/-- The fourteen blocks of 3584 rows are all 50176 rows. -/
theorem blocks_sum (f : Fin 50176 → EReal) :
    ∑ j : Fin 14, ∑ k : Fin 3584, f (longIx j.val j.isLt k) = ∑ n : Fin 50176, f n := by
  rw [← Fintype.sum_prod_type' (f := fun (j : Fin 14) (k : Fin 3584) => f (longIx j.val j.isLt k))]
  rw [← Equiv.sum_comp (finProdFinEquiv : Fin 14 × Fin 3584 ≃ Fin 50176) f]
  refine Finset.sum_congr rfl fun x _ => congrArg f (Fin.ext ?_)
  show 3584 * x.1.val + x.2.val = x.2.val + 3584 * x.1.val
  omega

/-- All fourteen blocks' contributions to entry (p, q) are the sum over all 50176 rows. -/
theorem blocks_total (oh : Vec Ideal S256x50176 .f32) (xp : Vec Ideal S50176x128 .f32) (p : Fin 256) (q : Fin 128) :
    ∑ j ∈ Finset.range 14, blockTerm oh xp p q j = Cert.Bridge.poolSum oh xp (ix2 p q) := by
  rw [Cert.Bridge.poolSum_apply, Finset.sum_range, ← blocks_sum fun n => oh (ix2 p n) * xp (ix2 n q)]
  refine Finset.sum_congr rfl fun j _ => ?_
  unfold blockTerm
  rw [dif_pos j.isLt]

/-- After the last point the accumulator is the pooled sum. -/
theorem acc_last (c : Dev nD) (n : ℕ) (h : n < cfg3.N) (hn : n = 13) :
    acc3 (F := Ideal) V c n h = Cert.Bridge.poolSum (V c (Pipeline.arrRef spec3 0)) (V c (Pipeline.arrRef spec3 1)) := by
  subst hn
  funext i
  obtain ⟨p, q, rfl⟩ : ∃ (p : Fin 256) (q : Fin 128), i = ix2 p q := ⟨i 0, i 1, eq_ix2 i⟩
  rw [acc_apply]
  exact blocks_total _ _ p q

/-- What the one writing point writes back is the output's block of the pooled sum: the point is the last one, and
    the output's one block, at block index zero, is the whole array. -/
theorem flushed_eq (c : Dev nD) (t : Fin cfg3.N) (hf : (cfg3.win 2).flush t = true) :
    (dat3 (F := Ideal) V c).flushed 2 t = ((cfg3.win 2).blk t).view.read (Elt Ideal)
      (Cert.Bridge.poolSum (V c (Pipeline.arrRef spec3 0)) (V c (Pipeline.arrRef spec3 1))) := by
  have h13 : t.val = 13 := by have h1 := (flush3_2 t).mp hf; have h2 := point_lt t; omega
  obtain ⟨-, -, -, -, e0, e1⟩ := idx_facts t
  have hz' : (fun a => win3_2.index t a * main_v102.ty.shape.size a) = fun _ => 0 := funext fun a => by
    match a with
    | ⟨0, _⟩ => show win3_2.index t (0 : Fin 2) * 256 = 0; omega
    | ⟨1, _⟩ => show win3_2.index t (1 : Fin 2) * 128 = 0; omega
  show (cfg3.win 2).cut (grid3.coords t) (acc3 (F := Ideal) V c t.val t.isLt) = _
  rw [acc_last V c t.val t.isLt h13]
  exact (Memref.read_access_unit_zero (Elt Ideal) main_v102 hz' (fun a => by rw [congrFun hz' a]; simp) _).symm

/-- The output's one block holds every index of the output array, at whatever point. -/
theorem mem_out_blk (t : Fin cfg3.N) (i : S256x128.Idx) : i ∈ ((cfg3.win 2).blk t).view.set := by
  obtain ⟨-, -, -, -, e0, e1⟩ := idx_facts t
  show i ∈ ((View.whole main_v102).slice (win3_2.rect t)).set
  rw [View.set_slice_whole, Rect.mem_set_unit]
  intro a
  have h0 : (i 0).val < 256 := (i 0).isLt
  have h1 : (i 1).val < 128 := (i 1).isLt
  match a with
  | ⟨0, _⟩ => show win3_2.index t (0 : Fin 2) * 256 ≤ (i 0).val ∧ (i 0).val < win3_2.index t (0 : Fin 2) * 256 + 256; omega
  | ⟨1, _⟩ => show win3_2.index t (1 : Fin 2) * 128 ≤ (i 1).val ∧ (i 1).val < win3_2.index t (1 : Fin 2) * 128 + 128; omega

/-- THE OUTPUT ARRAY after the region is the pooled sum of the two input arrays: the last point writes it whole. -/
theorem final_pool (c : Dev nD) :
    (dat3 (F := Ideal) V c).arrAt 2 cfg3.N
      = Cert.Bridge.poolSum (V c (Pipeline.arrRef spec3 0)) (V c (Pipeline.arrRef spec3 1)) :=
  (dat3 (F := Ideal) V c).arrAt_eq_of_cover 2 _ (flushed_eq V c) fun i =>
    ⟨⟨13, lt_of_lt_of_eq (by decide : 13 < 14) N_3.symm⟩, (flush3_2 _).mpr rfl, mem_out_blk _ i⟩

end Cert.KernelIdeal.Val

end
-- ==== Proof.Bridge.RefForm.lean ====
/-
  The reference program's result, cut at its natural joints.  The ids of the edges' endpoints with the self loops
  appended (srcR, dstR), their wrap-around of negative ids (fixR), the degrees, their inverse square roots and the
  edge weights (degR, dinvR, normR); one graph-convolution layer as the product with that layer's weight matrix
  (wR, linR) followed by gather, edge scaling, scatter-add, bias and the positive part (aggR); the per-graph sums,
  the counts and the mean (segSumR, cntR, pooledR); the two-layer head (mlpR).  The composed term the reference's
  run states is exactly the nesting of these.
-/
import proofs.«430049_j55997783605449_1_alg».proof.ReferenceIdeal
import proofs.«430049_j55997783605449_1_alg».proof.Proof.Gen.ReferenceIdeal

noncomputable section

namespace Cert.Bridge

open Cert.ReferenceIdeal Cert.ReferenceIdeal.Gen Idealize.ShloMosaic

variable {F : FTy → Type} [FloatOps F]

def srcR (a7 : (⟨S2x600000, .i32⟩ : BufTy).Contents (Elt F)) : (⟨S650000, .i32⟩ : BufTy).Contents (Elt F) :=
  (concatenate S650000 0 [⟨S600000, (shapeCast _ (extractStridedSlice S1x600000 ![0, 0] a7 slices_S2x600000_S1x600000_0_0) shapeCasts_S1x600000_S600000)⟩, ⟨S50000, (iotaInDim S50000 32 0)⟩] concatenates_S600000_S50000_S650000_d0)
def dstR (a7 : (⟨S2x600000, .i32⟩ : BufTy).Contents (Elt F)) : (⟨S650000, .i32⟩ : BufTy).Contents (Elt F) :=
  (concatenate S650000 0 [⟨S600000, (shapeCast _ (extractStridedSlice S1x600000 ![1, 0] a7 slices_S2x600000_S1x600000_1_0) shapeCasts_S1x600000_S600000)⟩, ⟨S50000, (iotaInDim S50000 32 0)⟩] concatenates_S600000_S50000_S650000_d0)
def fixR (v : (⟨S650000, .i32⟩ : BufTy).Contents (Elt F)) : (⟨S650000, .i32⟩ : BufTy).Contents (Elt F) :=
  (select (cmpi .slt v (broadcastInDim S650000 ![] bcast_S_S650000 (constantI S_ 32 0#32))) (addi v (broadcastInDim S650000 ![] bcast_S_S650000 (constantI S_ 32 50000#32))) v)
def degR (a7 : (⟨S2x600000, .i32⟩ : BufTy).Contents (Elt F)) : (⟨S50000, .f32⟩ : BufTy).Contents (Elt F) :=
  (Host.scatterAdd scatter_S50000_S650000x1_S650000_n_0_0_1 (broadcastInDim S50000 ![] bcast_S_S50000 (constant S_ .f32 0x00000000#32)) (broadcastInDim S650000x1 ![0] bcast_S650000_S650000x1_0 (dstR a7)) (broadcastInDim S650000 ![] bcast_S_S650000 (constant S_ .f32 0x3F800000#32)))
def dinvR (a7 : (⟨S2x600000, .i32⟩ : BufTy).Contents (Elt F)) : (⟨S50000, .f32⟩ : BufTy).Contents (Elt F) :=
  (select (cmpf (F := F) .ogt (degR a7) (broadcastInDim S50000 ![] bcast_S_S50000 (constant S_ .f32 0x00000000#32))) (Host.rsqrt (maximumf (degR a7) (broadcastInDim S50000 ![] bcast_S_S50000 (constant S_ .f32 0x3F800000#32)))) (broadcastInDim S50000 ![] bcast_S_S50000 (id (constant S_ .f32 0x00000000#32))))
def normR (a7 : (⟨S2x600000, .i32⟩ : BufTy).Contents (Elt F)) : (⟨S650000, .f32⟩ : BufTy).Contents (Elt F) :=
  (mulf (Host.gather gather_S50000_S650000x1_S650000_n_0_n_n_0_1_1 (dinvR a7) (broadcastInDim S650000x1 ![0] bcast_S650000_S650000x1_0 (fixR (srcR a7)))) (Host.gather gather_S50000_S650000x1_S650000_n_0_n_n_0_1_1 (dinvR a7) (broadcastInDim S650000x1 ![0] bcast_S650000_S650000x1_0 (fixR (dstR a7)))))
def linR0 (x : (⟨S50000x128, .f32⟩ : BufTy).Contents (Elt F)) (a1 : (⟨S3x128x128, .f32⟩ : BufTy).Contents (Elt F)) : (⟨S50000x128, .f32⟩ : BufTy).Contents (Elt F) :=
  (Host.dotGeneral dot_S50000x128_S128x128_S50000x128_1_0_0_1_n_n none x (shapeCast _ (extractStridedSlice S1x128x128 ![0, 0, 0] a1 slices_S3x128x128_S1x128x128_0_0_0) shapeCasts_S1x128x128_S128x128))
def aggR0 (h : (⟨S50000x128, .f32⟩ : BufTy).Contents (Elt F)) (a7 : (⟨S2x600000, .i32⟩ : BufTy).Contents (Elt F)) (a2 : (⟨S3x128, .f32⟩ : BufTy).Contents (Elt F)) : (⟨S50000x128, .f32⟩ : BufTy).Contents (Elt F) :=
  (maximumf (addf (Host.scatterAdd scatter_S50000x128_S650000x1_S650000x128_1_0_0_1 (broadcastInDim S50000x128 ![] bcast_S_S50000x128 (constant S_ .f32 0x00000000#32)) (broadcastInDim S650000x1 ![0] bcast_S650000_S650000x1_0 (dstR a7)) (mulf (Host.gather gather_S50000x128_S650000x1_S650000x128_1_0_n_n_0_1_1128 h (broadcastInDim S650000x1 ![0] bcast_S650000_S650000x1_0 (fixR (srcR a7)))) (broadcastInDim S650000x128 ![0, 1] bcast_S650000x1_S650000x128_0_1 (broadcastInDim S650000x1 ![0] bcast_S650000_S650000x1_0 (normR a7))))) (broadcastInDim S50000x128 ![0, 1] bcast_S1x128_S50000x128_0_1 (broadcastInDim S1x128 ![1] bcast_S128_S1x128_1 (shapeCast _ (extractStridedSlice S1x128 ![0, 0] a2 slices_S3x128_S1x128_0_0) shapeCasts_S1x128_S128)))) (broadcastInDim S50000x128 ![] bcast_S_S50000x128 (constant S_ .f32 0x00000000#32)))
def linR1 (x : (⟨S50000x128, .f32⟩ : BufTy).Contents (Elt F)) (a1 : (⟨S3x128x128, .f32⟩ : BufTy).Contents (Elt F)) : (⟨S50000x128, .f32⟩ : BufTy).Contents (Elt F) :=
  (Host.dotGeneral dot_S50000x128_S128x128_S50000x128_1_0_0_1_n_n none x (shapeCast _ (extractStridedSlice S1x128x128 ![1, 0, 0] a1 slices_S3x128x128_S1x128x128_1_0_0) shapeCasts_S1x128x128_S128x128))
def aggR1 (h : (⟨S50000x128, .f32⟩ : BufTy).Contents (Elt F)) (a7 : (⟨S2x600000, .i32⟩ : BufTy).Contents (Elt F)) (a2 : (⟨S3x128, .f32⟩ : BufTy).Contents (Elt F)) : (⟨S50000x128, .f32⟩ : BufTy).Contents (Elt F) :=
  (maximumf (addf (Host.scatterAdd scatter_S50000x128_S650000x1_S650000x128_1_0_0_1 (broadcastInDim S50000x128 ![] bcast_S_S50000x128 (constant S_ .f32 0x00000000#32)) (broadcastInDim S650000x1 ![0] bcast_S650000_S650000x1_0 (dstR a7)) (mulf (Host.gather gather_S50000x128_S650000x1_S650000x128_1_0_n_n_0_1_1128 h (broadcastInDim S650000x1 ![0] bcast_S650000_S650000x1_0 (fixR (srcR a7)))) (broadcastInDim S650000x128 ![0, 1] bcast_S650000x1_S650000x128_0_1 (broadcastInDim S650000x1 ![0] bcast_S650000_S650000x1_0 (normR a7))))) (broadcastInDim S50000x128 ![0, 1] bcast_S1x128_S50000x128_0_1 (broadcastInDim S1x128 ![1] bcast_S128_S1x128_1 (shapeCast _ (extractStridedSlice S1x128 ![1, 0] a2 slices_S3x128_S1x128_1_0) shapeCasts_S1x128_S128)))) (broadcastInDim S50000x128 ![] bcast_S_S50000x128 (constant S_ .f32 0x00000000#32)))
def linR2 (x : (⟨S50000x128, .f32⟩ : BufTy).Contents (Elt F)) (a1 : (⟨S3x128x128, .f32⟩ : BufTy).Contents (Elt F)) : (⟨S50000x128, .f32⟩ : BufTy).Contents (Elt F) :=
  (Host.dotGeneral dot_S50000x128_S128x128_S50000x128_1_0_0_1_n_n none x (shapeCast _ (extractStridedSlice S1x128x128 ![2, 0, 0] a1 slices_S3x128x128_S1x128x128_2_0_0) shapeCasts_S1x128x128_S128x128))
def aggR2 (h : (⟨S50000x128, .f32⟩ : BufTy).Contents (Elt F)) (a7 : (⟨S2x600000, .i32⟩ : BufTy).Contents (Elt F)) (a2 : (⟨S3x128, .f32⟩ : BufTy).Contents (Elt F)) : (⟨S50000x128, .f32⟩ : BufTy).Contents (Elt F) :=
  (maximumf (addf (Host.scatterAdd scatter_S50000x128_S650000x1_S650000x128_1_0_0_1 (broadcastInDim S50000x128 ![] bcast_S_S50000x128 (constant S_ .f32 0x00000000#32)) (broadcastInDim S650000x1 ![0] bcast_S650000_S650000x1_0 (dstR a7)) (mulf (Host.gather gather_S50000x128_S650000x1_S650000x128_1_0_n_n_0_1_1128 h (broadcastInDim S650000x1 ![0] bcast_S650000_S650000x1_0 (fixR (srcR a7)))) (broadcastInDim S650000x128 ![0, 1] bcast_S650000x1_S650000x128_0_1 (broadcastInDim S650000x1 ![0] bcast_S650000_S650000x1_0 (normR a7))))) (broadcastInDim S50000x128 ![0, 1] bcast_S1x128_S50000x128_0_1 (broadcastInDim S1x128 ![1] bcast_S128_S1x128_1 (shapeCast _ (extractStridedSlice S1x128 ![2, 0] a2 slices_S3x128_S1x128_2_0) shapeCasts_S1x128_S128)))) (broadcastInDim S50000x128 ![] bcast_S_S50000x128 (constant S_ .f32 0x00000000#32)))
def segSumR (x : (⟨S50000x128, .f32⟩ : BufTy).Contents (Elt F)) (a8 : (⟨S50000, .i32⟩ : BufTy).Contents (Elt F)) : (⟨S256x128, .f32⟩ : BufTy).Contents (Elt F) :=
  (Host.scatterAdd scatter_S256x128_S50000x1_S50000x128_1_0_0_1 (broadcastInDim S256x128 ![] bcast_S_S256x128 (constant S_ .f32 0x00000000#32)) (broadcastInDim S50000x1 ![0] bcast_S50000_S50000x1_0 a8) x)
def cntR (a8 : (⟨S50000, .i32⟩ : BufTy).Contents (Elt F)) : (⟨S256x128, .f32⟩ : BufTy).Contents (Elt F) :=
  (broadcastInDim S256x128 ![0, 1] bcast_S256x1_S256x128_0_1 (maximumf (Host.scatterAdd scatter_S256x1_S50000x1_S50000x1_1_0_0_1 (broadcastInDim S256x1 ![] bcast_S_S256x1 (constant S_ .f32 0x00000000#32)) (broadcastInDim S50000x1 ![0] bcast_S50000_S50000x1_0 a8) (broadcastInDim S50000x1 ![] bcast_S_S50000x1 (constant S_ .f32 0x3F800000#32))) (broadcastInDim S256x1 ![] bcast_S_S256x1 (constant S_ .f32 0x3F800000#32))))
def pooledR (s : (⟨S256x128, .f32⟩ : BufTy).Contents (Elt F)) (a8 : (⟨S50000, .i32⟩ : BufTy).Contents (Elt F)) : (⟨S256x128, .f32⟩ : BufTy).Contents (Elt F) :=
  (Host.divf s (cntR a8))
def mlpR (p : (⟨S256x128, .f32⟩ : BufTy).Contents (Elt F)) (a3 : (⟨S128x256, .f32⟩ : BufTy).Contents (Elt F)) (a4 : (⟨S256, .f32⟩ : BufTy).Contents (Elt F)) (a5 : (⟨S256x2, .f32⟩ : BufTy).Contents (Elt F)) (a6 : (⟨S2, .f32⟩ : BufTy).Contents (Elt F)) : (⟨S256x2, .f32⟩ : BufTy).Contents (Elt F) :=
  addf (Host.dotGeneral dot_S256x256_S256x2_S256x2_1_0_0_1_n_n none (maximumf (addf (Host.dotGeneral dot_S256x128_S128x256_S256x256_1_0_0_1_n_n none p a3) (broadcastInDim S256x256 ![0, 1] bcast_S1x256_S256x256_0_1 (broadcastInDim S1x256 ![1] bcast_S256_S1x256_1 a4))) (broadcastInDim S256x256 ![] bcast_S_S256x256 (constant S_ .f32 0x00000000#32))) a5) (broadcastInDim S256x2 ![0, 1] bcast_S1x2_S256x2_0_1 (broadcastInDim S1x2 ![1] bcast_S2_S1x2_1 a6))

/-- The whole reference result as the nesting of the pieces. -/
def resultR (a0 : (⟨S50000x128, .f32⟩ : BufTy).Contents (Elt F)) (a1 : (⟨S3x128x128, .f32⟩ : BufTy).Contents (Elt F)) (a2 : (⟨S3x128, .f32⟩ : BufTy).Contents (Elt F))
    (a3 : (⟨S128x256, .f32⟩ : BufTy).Contents (Elt F)) (a4 : (⟨S256, .f32⟩ : BufTy).Contents (Elt F)) (a5 : (⟨S256x2, .f32⟩ : BufTy).Contents (Elt F)) (a6 : (⟨S2, .f32⟩ : BufTy).Contents (Elt F))
    (a7 : (⟨S2x600000, .i32⟩ : BufTy).Contents (Elt F)) (a8 : (⟨S50000, .i32⟩ : BufTy).Contents (Elt F)) : (⟨S256x2, .f32⟩ : BufTy).Contents (Elt F) :=
  mlpR (pooledR (segSumR (aggR2 (linR2 (aggR1 (linR1 (aggR0 (linR0 a0 a1) a7 a2) a1) a7 a2) a1) a7 a2) a8) a8) a3 a4 a5 a6

end Cert.Bridge

end
-- ==== Proof.LibReshapeAsBroadcast.lean ====
/-
  A vector laid out as a one-row table, or as a one-column table, by a reshape is the same table as the one a broadcast
  along the other axis makes: both hold x k at (0, k), respectively at (k, 0).

  Both sides are read index by index. A reshape keeps the row-major position: entry (0, k) of a table of one row of
  length n sits at position 0 * n + k = k, and entry (k, 0) of a table of n rows of length one at position k * 1 + 0 = k,
  so either reads entry k of the vector. A broadcast along axis b reads the vector at the b-th coordinate of the index
  (at 0 if the vector has a single entry, which is then that same coordinate): k again.
-/
import Idealize.ShloMosaic.Lib.Pipeline.Value
import Idealize.ShloMosaic.Lib.ValueIdx

noncomputable section

namespace Idealize.ShloMosaic.ReshapeAsBroadcast

open Idealize.ShloMosaic Idealize.ShloMosaic.ValueIdx

variable {α : Type}

/-- [n] to [1, n]. -/
theorem shapeCast_row (n : Nat) (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ ![1] hb x := by
  funext j
  -- the only row is row 0; the column is below n
  have hj0 : (j 0).val = 0 := by
    have h0 : (j 0).val < 1 := (j 0).isLt
    omega
  have hj1 : (j 1).val < n := (j 1).isLt
  -- the entry of the vector both sides read
  let k : (⟨1, ![n]⟩ : Shape).Idx := fun a => ⟨(j 1).val, by
    have ha : a = 0 := Subsingleton.elim _ _
    subst ha
    exact hj1⟩
  have hL : shapeCast ⟨2, ![1, n]⟩ x h j = x k := by
    refine shapeCast_apply x h j k ?_
    rw [Shape.rowMajor_val_one, Shape.rowMajor_val_two]
    show (j 1).val = (j 0).val * n + (j 1).val
    rw [hj0]
    omega
  have hR : broadcastInDim ⟨2, ![1, n]⟩ ![1] hb x j = x k := by
    refine broadcastInDim_apply ![1] hb x j k ?_
    intro a
    have ha : a = 0 := Subsingleton.elim _ _
    subst ha
    show (j 1).val = if n = 1 then 0 else (j 1).val
    by_cases hn : n = 1
    · rw [if_pos hn]; omega
    · rw [if_neg hn]
  rw [hL, hR]

/-- [n] to [n, 1]. -/
theorem shapeCast_col (n : Nat) (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ ![0] hb x := by
  funext j
  -- the only column is column 0; the row is below n
  have hj1 : (j 1).val = 0 := by
    have h1 : (j 1).val < 1 := (j 1).isLt
    omega
  have hj0 : (j 0).val < n := (j 0).isLt
  let k : (⟨1, ![n]⟩ : Shape).Idx := fun a => ⟨(j 0).val, by
    have ha : a = 0 := Subsingleton.elim _ _
    subst ha
    exact hj0⟩
  have hL : shapeCast ⟨2, ![n, 1]⟩ x h j = x k := by
    refine shapeCast_apply x h j k ?_
    rw [Shape.rowMajor_val_one, Shape.rowMajor_val_two]
    show (j 0).val = (j 0).val * 1 + (j 1).val
    rw [hj1]
    omega
  have hR : broadcastInDim ⟨2, ![n, 1]⟩ ![0] hb x j = x k := by
    refine broadcastInDim_apply ![0] hb x j k ?_
    intro a
    have ha : a = 0 := Subsingleton.elim _ _
    subst ha
    show (j 0).val = if n = 1 then 0 else (j 0).val
    by_cases hn : n = 1
    · rw [if_pos hn]; omega
    · rw [if_neg hn]
  rw [hL, hR]

end Idealize.ShloMosaic.ReshapeAsBroadcast

end
-- ==== Proof.KV.Mlp4.lean ====
/- The VALUE of region 4, the two-layer head, at the ideal values (a float is an extended real, every operation exact,
   a change of format the identity). The region's grid has one point and every window's block is the whole of its
   array, so the output array after the region is what that point writes back: the body's one store, whose payload is
     logits (a, q) = ∑ k, max (∑ i, p (a, i) · w1 (i, k) + b1 k, 0) · w2 (k, q) + b2 q
   of the five input arrays as the region finds them. The reference's head, two host products with their bias rows
   and the positive part between them, is the same function entry by entry; the theorem states the output array as
   that reference term. -/
import proofs.«430049_j55997783605449_1_alg».proof.Proof.KI.Mlp4
import proofs.«430049_j55997783605449_1_alg».proof.Proof.Bridge.RefForm
import proofs.«430049_j55997783605449_1_alg».proof.Proof.LibPlainDot
import proofs.«430049_j55997783605449_1_alg».proof.Proof.LibReshapeAsBroadcast
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! ## A bias row spread over the rows of a table, read at an entry -/

/-- A vector of length n reshaped to one row and broadcast down m rows holds x b at entry (a, b): the broadcast reads
    the one row at column b, and the reshape keeps the row-major position 0 * n + b = b. -/
theorem rowBias_reshape {α : Type} (m n : Nat) (x : (⟨1, ![n]⟩ : Shape).Idx → α)
    (h : (⟨1, ![n]⟩ : Shape).ShapeCasts ⟨2, ![1, n]⟩) (hb : (⟨2, ![1, n]⟩ : Shape).Broadcasts ⟨2, ![m, n]⟩)
    (a : Fin m) (b : Fin n) :
    broadcastTo ⟨2, ![m, n]⟩ (shapeCast ⟨2, ![1, n]⟩ x h) hb (ix2 a b) = x (ix1 b) := by
  have hL := broadcastTo_apply (shapeCast ⟨2, ![1, n]⟩ x h) hb (ix2 a b) (ix2 (0 : Fin 1) b) (by
    intro a'
    match a' with
    | ⟨0, _⟩ => show (0 : Nat) = if (1 : Nat) = 1 then 0 else _; rw [if_pos rfl]
    | ⟨1, _⟩ =>
      show b.val = if n = 1 then 0 else b.val
      by_cases hn : n = 1
      · rw [if_pos hn]; have := b.isLt; omega
      · rw [if_neg hn])
  rw [hL]
  refine shapeCast_apply x h (ix2 (0 : Fin 1) b) (ix1 b) ?_
  rw [Shape.rowMajor_val_one, Shape.rowMajor_val_two]
  show b.val = 0 * n + b.val
  omega

/-- The same table made by two broadcasts (the vector along axis 1 of a one-row table, that table along both axes)
    holds x b at entry (a, b) as well. -/
theorem rowBias_bcast {α : Type} (m n : Nat) (x : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2))
    (a : Fin m) (b : Fin n) :
    broadcastInDim ⟨2, ![m, n]⟩ ![0, 1] h2 (broadcastInDim ⟨2, ![1, n]⟩ ![1] h1 x) (ix2 a b) = x (ix1 b) := by
  have hL := broadcastInDim_apply ![0, 1] h2 (broadcastInDim ⟨2, ![1, n]⟩ ![1] h1 x) (ix2 a b) (ix2 (0 : Fin 1) b) (by
    intro a'
    match a' with
    | ⟨0, _⟩ => show (0 : Nat) = if (1 : Nat) = 1 then 0 else _; rw [if_pos rfl]
    | ⟨1, _⟩ =>
      show b.val = if n = 1 then 0 else b.val
      by_cases hn : n = 1
      · rw [if_pos hn]; have := b.isLt; omega
      · rw [if_neg hn])
  rw [hL]
  refine broadcastInDim_apply ![1] h1 x (ix2 (0 : Fin 1) b) (ix1 b) ?_
  intro a'
  match a' with
  | ⟨0, _⟩ =>
    show b.val = if n = 1 then 0 else b.val
    by_cases hn : n = 1
    · rw [if_pos hn]; have := b.isLt; omega
    · rw [if_neg hn]

/-! ## The head as a function of its five arrays, entry by entry -/

/-- The hidden layer at entry (a, k): the positive part of the a-th pooled row times the k-th column of the first
    weight matrix, plus the k-th first bias. -/
def hidden (p : FVec Ideal S256x128 .f32) (w1 : FVec Ideal S128x256 .f32) (b1 : FVec Ideal S256 .f32) : FVec Ideal S256x256 .f32 :=
  fun j => max ((∑ i : Fin 128, p (ix2 (j 0) i) * w1 (ix2 i (j 1))) + b1 (ix1 (j 1))) 0

/-- The logits at entry (a, q): the a-th hidden row times the q-th column of the second weight matrix, plus the q-th
    second bias. -/
def logits (p : FVec Ideal S256x128 .f32) (w1 : FVec Ideal S128x256 .f32) (b1 : FVec Ideal S256 .f32)
    (w2 : FVec Ideal S256x2 .f32) (b2 : FVec Ideal S2 .f32) : FVec Ideal S256x2 .f32 :=
  fun j => (∑ k : Fin 256, hidden p w1 b1 (ix2 (j 0) k) * w2 (ix2 k (j 1))) + b2 (ix1 (j 1))

/-- The kernel's hidden layer: format changes are the identity on extended reals, the product into the zero
    accumulator is the sum over the contracted axis, the bias is the reshaped row spread down the rows, and the
    positive part is the maximum with the splat zero. -/
theorem kernel_hidden (x0 : FVec Ideal S256x128 .f32) (x1 : FVec Ideal S128x256 .f32) (x2 : FVec Ideal S256 .f32) :
    maximumf (addf (matmul dot_S256x128_S128x256_S256x256_1_0_0_1_n_n none
          (truncf .bf16 (shapeCast S256x128 x0 shapeCasts_S256x128_S256x128) bitsLt_bf16_f32) (truncf .bf16 x1 bitsLt_bf16_f32)
          (constant S256x256 .f32 0x00000000#32))
        (broadcastTo S256x256 (shapeCast S1x256 x2 shapeCasts_S256_S1x256) broadcasts_S1x256_S256x256))
      (broadcast S256x256 (Scalar.ofBits .f32 0x00000000#32))
    = hidden x0 x1 x2 := by
  funext j
  obtain ⟨a, b, rfl⟩ : ∃ a b, j = ix2 a b := ⟨j 0, j 1, eq_ix2 j⟩
  have hm : matmul dot_S256x128_S128x256_S256x256_1_0_0_1_n_n none
      (truncf .bf16 (shapeCast S256x128 x0 shapeCasts_S256x128_S256x128) bitsLt_bf16_f32) (truncf .bf16 x1 bitsLt_bf16_f32)
      (constant S256x256 .f32 0x00000000#32) (ix2 a b) = ∑ i : Fin 128, x0 (ix2 a i) * x1 (ix2 i b) := by
    rw [shapeCast_self]
    exact Cert.LibPlainDot.matmul_zero_apply dot_S256x128_S128x256_S256x256_1_0_0_1_n_n rfl rfl rfl rfl rfl rfl none _ _ a b
  rw [maximumf_apply, addf_apply, broadcast_apply, hm,
    rowBias_reshape 256 256 x2 shapeCasts_S256_S1x256 broadcasts_S1x256_S256x256 a b]
  show max ((∑ i : Fin 128, x0 (ix2 a i) * x1 (ix2 i b)) + x2 (ix1 b)) (Ideal.ofBits .f32 0x00000000#32) = _
  rw [Ideal.ofBits_zero_f32]
  rfl

/-- The reference's hidden layer: the host's product is the same sum, its bias the same row by two broadcasts, its
    zero the scalar zero broadcast to the table. -/
theorem reference_hidden (x0 : FVec Ideal S256x128 .f32) (x1 : FVec Ideal S128x256 .f32) (x2 : FVec Ideal S256 .f32) :
    maximumf (addf (Host.dotGeneral Cert.ReferenceIdeal.dot_S256x128_S128x256_S256x256_1_0_0_1_n_n none x0 x1)
        (broadcastInDim Cert.ReferenceIdeal.S256x256 ![0, 1] Cert.ReferenceIdeal.Gen.bcast_S1x256_S256x256_0_1
          (broadcastInDim Cert.ReferenceIdeal.S1x256 ![1] Cert.ReferenceIdeal.Gen.bcast_S256_S1x256_1 x2)))
      (broadcastInDim Cert.ReferenceIdeal.S256x256 ![] Cert.ReferenceIdeal.Gen.bcast_S_S256x256
        (constant Cert.ReferenceIdeal.S_ .f32 0x00000000#32))
    = hidden x0 x1 x2 := by
  funext j
  obtain ⟨a, b, rfl⟩ : ∃ a b, j = ix2 a b := ⟨j 0, j 1, eq_ix2 j⟩
  have hm : Host.dotGeneral Cert.ReferenceIdeal.dot_S256x128_S128x256_S256x256_1_0_0_1_n_n none x0 x1 (ix2 a b)
      = ∑ i : Fin 128, x0 (ix2 a i) * x1 (ix2 i b) :=
    Cert.LibPlainDot.dotGeneral_apply Cert.ReferenceIdeal.dot_S256x128_S128x256_S256x256_1_0_0_1_n_n rfl rfl rfl rfl rfl rfl none .single x0 x1 a b
  have hb : broadcastInDim Cert.ReferenceIdeal.S256x256 ![0, 1] Cert.ReferenceIdeal.Gen.bcast_S1x256_S256x256_0_1
      (broadcastInDim Cert.ReferenceIdeal.S1x256 ![1] Cert.ReferenceIdeal.Gen.bcast_S256_S1x256_1 x2) (ix2 a b) = x2 (ix1 b) :=
    rowBias_bcast 256 256 x2 Cert.ReferenceIdeal.Gen.bcast_S256_S1x256_1 Cert.ReferenceIdeal.Gen.bcast_S1x256_S256x256_0_1 a b
  have hz : broadcastInDim Cert.ReferenceIdeal.S256x256 ![] Cert.ReferenceIdeal.Gen.bcast_S_S256x256
      (constant (F := Ideal) Cert.ReferenceIdeal.S_ .f32 0x00000000#32) (ix2 a b) = 0 := by
    show Ideal.ofBits .f32 0x00000000#32 = 0
    exact Ideal.ofBits_zero_f32
  rw [maximumf_apply, addf_apply, hm, hb, hz]
  rfl

/-- The kernel's payload is the logits: the hidden layer as above, then the second product into the zero accumulator
    and the second bias row. -/
theorem kernel_logits (x0 : FVec Ideal S256x128 .f32) (x1 : FVec Ideal S128x256 .f32) (x2 : FVec Ideal S256 .f32)
    (x3 : FVec Ideal S256x2 .f32) (x4 : FVec Ideal S2 .f32) :
    k4_pay1 (F := Ideal) x0 x1 x2 x3 x4 = logits x0 x1 x2 x3 x4 := by
  unfold k4_pay1
  dsimp only
  rw [kernel_hidden]
  funext j
  obtain ⟨a, q, rfl⟩ : ∃ a q, j = ix2 a q := ⟨j 0, j 1, eq_ix2 j⟩
  have hm : matmul dot_S256x256_S256x2_S256x2_1_0_0_1_n_n none
      (truncf .bf16 (hidden x0 x1 x2) bitsLt_bf16_f32) (truncf .bf16 x3 bitsLt_bf16_f32)
      (constant S256x2 .f32 0x00000000#32) (ix2 a q) = ∑ k : Fin 256, hidden x0 x1 x2 (ix2 a k) * x3 (ix2 k q) :=
    Cert.LibPlainDot.matmul_zero_apply dot_S256x256_S256x2_S256x2_1_0_0_1_n_n rfl rfl rfl rfl rfl rfl none _ _ a q
  rw [addf_apply, hm, rowBias_reshape 256 2 x4 shapeCasts_S2_S1x2 broadcasts_S1x2_S256x2 a q]
  rfl

/-- The reference's head is the same logits. -/
theorem reference_logits (x0 : FVec Ideal S256x128 .f32) (x1 : FVec Ideal S128x256 .f32) (x2 : FVec Ideal S256 .f32)
    (x3 : FVec Ideal S256x2 .f32) (x4 : FVec Ideal S2 .f32) :
    Cert.Bridge.mlpR (F := Ideal) x0 x1 x2 x3 x4 = logits x0 x1 x2 x3 x4 := by
  unfold Cert.Bridge.mlpR
  rw [reference_hidden]
  funext j
  obtain ⟨a, q, rfl⟩ : ∃ a q, j = ix2 a q := ⟨j 0, j 1, eq_ix2 j⟩
  have hm : Host.dotGeneral Cert.ReferenceIdeal.dot_S256x256_S256x2_S256x2_1_0_0_1_n_n none (hidden x0 x1 x2) x3 (ix2 a q)
      = ∑ k : Fin 256, hidden x0 x1 x2 (ix2 a k) * x3 (ix2 k q) :=
    Cert.LibPlainDot.dotGeneral_apply Cert.ReferenceIdeal.dot_S256x256_S256x2_S256x2_1_0_0_1_n_n rfl rfl rfl rfl rfl rfl none .single _ x3 a q
  have hb : broadcastInDim Cert.ReferenceIdeal.S256x2 ![0, 1] Cert.ReferenceIdeal.Gen.bcast_S1x2_S256x2_0_1
      (broadcastInDim Cert.ReferenceIdeal.S1x2 ![1] Cert.ReferenceIdeal.Gen.bcast_S2_S1x2_1 x4) (ix2 a q) = x4 (ix1 q) :=
    rowBias_bcast 256 2 x4 Cert.ReferenceIdeal.Gen.bcast_S2_S1x2_1 Cert.ReferenceIdeal.Gen.bcast_S1x2_S256x2_0_1 a q
  rw [addf_apply, hm, hb]
  rfl

/-- So the kernel's payload is the reference's head of the same five arrays. -/
theorem kernel_eq_reference (x0 : FVec Ideal S256x128 .f32) (x1 : FVec Ideal S128x256 .f32) (x2 : FVec Ideal S256 .f32)
    (x3 : FVec Ideal S256x2 .f32) (x4 : FVec Ideal S2 .f32) :
    k4_pay1 (F := Ideal) x0 x1 x2 x3 x4 = Cert.Bridge.mlpR (F := Ideal) x0 x1 x2 x3 x4 :=
  (kernel_logits x0 x1 x2 x3 x4).trans (reference_logits x0 x1 x2 x3 x4).symm

/-! ## From the one grid point's block to the array -/

theorem zero_off2 : (![0, 0] : Fin 2 → Nat) = fun _ => 0 := funext fun a => by fin_cases a <;> rfl
theorem zero_off1 : (![0] : Fin 1 → Nat) = fun _ => 0 := funext fun a => by fin_cases a <;> rfl

/-- Every window's block index is zero on every axis at the grid's one point: each block is the whole of its array. -/
theorem index_zero : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0 :=
  (by decide +kernel : ∀ t : Fin grid4.N, _)

variable (V : (c : Dev nD) → (b : Ref sig .tc) → Buf (Elt Ideal) ((c : Thread nD τ).loc b))

/-- Each input window's block is its whole array: the block's coordinate is 0 * extent + 1 * the coordinate inside. -/
theorem block0 (c : Dev nD) (t : Fin cfg4.N) : iblk4 V c 0 t = (V c (Pipeline.arrRef spec4 0) : FVec Ideal S256x128 .f32) := by
  obtain ⟨e0, e1, -⟩ := index_zero t
  funext y
  show V c (Pipeline.arrRef spec4 0) (((cfg4.win 0).blk t).view.emb y) = V c (Pipeline.arrRef spec4 0) y
  congr 1
  funext a; apply Fin.ext
  match a with
  | ⟨0, _⟩ => show win4_0.index t (0 : Fin 2) * 256 + 1 * (y 0).val = (y 0).val; omega
  | ⟨1, _⟩ => show win4_0.index t (1 : Fin 2) * 128 + 1 * (y 1).val = (y 1).val; omega
theorem block1 (c : Dev nD) (t : Fin cfg4.N) : iblk4 V c 1 t = (V c (Pipeline.arrRef spec4 1) : FVec Ideal S128x256 .f32) := by
  obtain ⟨-, -, e0, e1, -⟩ := index_zero t
  funext y
  show V c (Pipeline.arrRef spec4 1) (((cfg4.win 1).blk t).view.emb y) = V c (Pipeline.arrRef spec4 1) y
  congr 1
  funext a; apply Fin.ext
  match a with
  | ⟨0, _⟩ => show win4_1.index t (0 : Fin 2) * 128 + 1 * (y 0).val = (y 0).val; omega
  | ⟨1, _⟩ => show win4_1.index t (1 : Fin 2) * 256 + 1 * (y 1).val = (y 1).val; omega
theorem block2 (c : Dev nD) (t : Fin cfg4.N) : iblk4 V c 2 t = (V c (Pipeline.arrRef spec4 2) : FVec Ideal S256 .f32) := by
  obtain ⟨-, -, -, -, e0, -⟩ := index_zero t
  funext y
  show V c (Pipeline.arrRef spec4 2) (((cfg4.win 2).blk t).view.emb y) = V c (Pipeline.arrRef spec4 2) y
  congr 1
  funext a; apply Fin.ext
  match a with
  | ⟨0, _⟩ => show win4_2.index t (0 : Fin 1) * 256 + 1 * (y 0).val = (y 0).val; omega
theorem block3 (c : Dev nD) (t : Fin cfg4.N) : iblk4 V c 3 t = (V c (Pipeline.arrRef spec4 3) : FVec Ideal S256x2 .f32) := by
  obtain ⟨-, -, -, -, -, e0, e1, -⟩ := index_zero t
  funext y
  show V c (Pipeline.arrRef spec4 3) (((cfg4.win 3).blk t).view.emb y) = V c (Pipeline.arrRef spec4 3) y
  congr 1
  funext a; apply Fin.ext
  match a with
  | ⟨0, _⟩ => show win4_3.index t (0 : Fin 2) * 256 + 1 * (y 0).val = (y 0).val; omega
  | ⟨1, _⟩ => show win4_3.index t (1 : Fin 2) * 2 + 1 * (y 1).val = (y 1).val; omega
theorem block4 (c : Dev nD) (t : Fin cfg4.N) : iblk4 V c 4 t = (V c (Pipeline.arrRef spec4 4) : FVec Ideal S2 .f32) := by
  obtain ⟨-, -, -, -, -, -, -, e0, -⟩ := index_zero t
  funext y
  show V c (Pipeline.arrRef spec4 4) (((cfg4.win 4).blk t).view.emb y) = V c (Pipeline.arrRef spec4 4) y
  congr 1
  funext a; apply Fin.ext
  match a with
  | ⟨0, _⟩ => show win4_4.index t (0 : Fin 1) * 2 + 1 * (y 0).val = (y 0).val; omega

/-- What the grid's point writes back is the block of the reference's head of the five arrays as the region finds
    them: the one store of the whole buffer leaves its payload, the loads of the whole buffers read the blocks, the
    blocks are the arrays, and the payload is the head. -/
theorem flushed_mlp (c : Dev nD) (t : Fin cfg4.N) :
    (dat4 (F := Ideal) V c).flushed 5 t = ((cfg4.win 5).blk t).view.read (Elt Ideal)
      (Cert.Bridge.mlpR (F := Ideal) (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  unfold out4_5
  rw [View.canon_unit_zero zero_off2]
  simp only [View.ld_unit_zero (S := S256x128) zero_off2, View.ld_unit_zero (S := S128x256) zero_off2,
    View.ld_unit_zero (S := S256) zero_off1, View.ld_unit_zero (S := S256x2) zero_off2, View.ld_unit_zero (S := S2) zero_off1]
  rw [block0, block1, block2, block3, block4, kernel_eq_reference]
  obtain ⟨-, -, -, -, -, -, -, -, e0, e1⟩ := index_zero t
  funext j
  show Cert.Bridge.mlpR (F := Ideal) (V c (Pipeline.arrRef spec4 0)) (V c (Pipeline.arrRef spec4 1)) (V c (Pipeline.arrRef spec4 2))
      (V c (Pipeline.arrRef spec4 3)) (V c (Pipeline.arrRef spec4 4)) j
    = Cert.Bridge.mlpR (F := Ideal) (V c (Pipeline.arrRef spec4 0)) (V c (Pipeline.arrRef spec4 1)) (V c (Pipeline.arrRef spec4 2))
      (V c (Pipeline.arrRef spec4 3)) (V c (Pipeline.arrRef spec4 4)) (((cfg4.win 5).blk t).view.emb j)
  congr 1
  funext a; apply Fin.ext
  match a with
  | ⟨0, _⟩ => show (j 0).val = win4_5.index t (0 : Fin 2) * 256 + 1 * (j 0).val; omega
  | ⟨1, _⟩ => show (j 1).val = win4_5.index t (1 : Fin 2) * 2 + 1 * (j 1).val; omega

/-- An index of the output array is in the point's block iff each coordinate is in the block's range on its axis. -/
theorem mem_block5 (t : Fin cfg4.N) (i : S256x2.Idx) :
    i ∈ ((cfg4.win 5).blk t).view.set ↔ ∀ a : Fin 2, win4_5.index t a * S256x2.size a ≤ (i a).val ∧ (i a).val < win4_5.index t a * S256x2.size a + S256x2.size a := by
  show i ∈ ((View.whole main_v111).slice (win4_5.rect t)).set ↔ _
  rw [View.set_slice_whole, Rect.mem_set_unit]
  exact Iff.rfl

/-- The one point's block is the whole output array, so every index is covered. -/
theorem cover_mlp (i : S256x2.Idx) : ∃ t : Fin cfg4.N, (cfg4.win 5).flush t = true ∧ i ∈ ((cfg4.win 5).blk t).view.set := by
  have hi0 : (i 0).val < 256 := (i 0).isLt
  have hi1 : (i 1).val < 2 := (i 1).isLt
  refine ⟨⟨0, by decide⟩, flush4_5 _, ?_⟩
  obtain ⟨-, -, -, -, -, -, -, -, e0, e1⟩ := index_zero ⟨0, by decide⟩
  rw [mem_block5]
  intro a
  match a with
  | ⟨0, _⟩ => show win4_5.index ⟨0, _⟩ (0 : Fin 2) * 256 ≤ (i 0).val ∧ (i 0).val < win4_5.index ⟨0, _⟩ (0 : Fin 2) * 256 + 256; omega
  | ⟨1, _⟩ => show win4_5.index ⟨0, _⟩ (1 : Fin 2) * 2 ≤ (i 1).val ∧ (i 1).val < win4_5.index ⟨0, _⟩ (1 : Fin 2) * 2 + 2; omega

/-- THE OUTPUT ARRAY after the region: the reference's head of the five input arrays as the region finds them. -/
theorem final_mlp (c : Dev nD) :
    (dat4 (F := Ideal) V c).arrAt 5 cfg4.N = Cert.Bridge.mlpR (F := Ideal) (V c (Pipeline.arrRef spec4 0)) (V c (Pipeline.arrRef spec4 1))
      (V c (Pipeline.arrRef spec4 2)) (V c (Pipeline.arrRef spec4 3)) (V c (Pipeline.arrRef spec4 4)) :=
  (dat4 (F := Ideal) V c).arrAt_eq_of_cover 5 _ (fun t _ => flushed_mlp V c t) cover_mlp

end Cert.KernelIdeal.Val

end
-- ==== Proof.Bridge.PoolOps.lean ====
/-
  The kernel program's two padded operands of the pooling product, as it computes them on the host: the one-hot table
  of the graph ids (row p, column n is 1 when node n belongs to graph p, else 0), transposed to 256 × 50000 and padded
  with 176 zero columns; and the node rows padded with 176 zero rows.
-/
import proofs.«430049_j55997783605449_1_alg».proof.KernelIdeal
import proofs.«430049_j55997783605449_1_alg».proof.Proof.Gen.KernelIdeal

noncomputable section

namespace Cert.Bridge

open Cert.KernelIdeal Cert.KernelIdeal.Gen Idealize.ShloMosaic

variable {F : FTy → Type} [FloatOps F]

def ohPad (batch : (⟨S50000, .i32⟩ : BufTy).Contents (Elt F)) : (⟨S256x50176, .f32⟩ : BufTy).Contents (Elt F) :=
  pad S256x50176 ![0, 0] ![0, 176] ![0, 0] (transpose S256x50000 [1, 0] (uitofp (F := F) .f32 (cmpi .eq (broadcastInDim S50000x256 ![0, 1] bcast_S50000x1_S50000x256_0_1 (broadcastInDim S50000x1 ![0] bcast_S50000_S50000x1_0 batch)) (broadcastInDim S50000x256 ![0, 1] bcast_S1x256_S50000x256_0_1 (iotaInDim S1x256 32 1)))) transposes_S50000x256_S256x50000_1_0) (sitofp (F := F) .f32 (constantI S_ 32 0#32)) pads_S256x50000_S256x50176_000_01760 h_S_

def xPad (x : (⟨S50000x128, .f32⟩ : BufTy).Contents (Elt F)) : (⟨S50176x128, .f32⟩ : BufTy).Contents (Elt F) :=
  pad S50176x128 ![0, 0] ![176, 0] ![0, 0] x (sitofp (F := F) .f32 (constantI S_ 32 0#32)) pads_S50000x128_S50176x128_01760_000 h_S_

end Cert.Bridge

end
-- ==== Proof.Bridge.PoolScatter.lean ====
/-
  The pooled sums two ways. The kernel program multiplies a 256 × 50176 table by the 50176 × 128 padded rows: entry
  (p, q) is the sum over n < 50176 of table(p, n) · rows(n, q). For n ≥ 50000 both factors are the padding value, the
  integer 0 converted, which is the real 0. For n < 50000 the table entry is the one-bit comparison "graph id of row n
  equals the 32-bit word of p" read unsigned, so 1 or 0; on the extended reals 1 · y = y and 0 · y = 0 for every y, so no
  finiteness is needed. Hence entry (p, q) is the sum of x(n, q) over the rows n < 50000 whose graph id is the word of p.
  The reference scatters row n of x onto row (graph id of n, read signed) of a zero 256 × 128 array, dropping a row whose
  id is outside 0 … 255: entry (p, q) is 0 plus the sum of x(n, q) over the rows n whose id, read signed, is p. A 32-bit
  word is the word of p < 256 exactly when its signed reading is p, so the two sums run over the same rows.
-/
import proofs.«430049_j55997783605449_1_alg».proof.KernelIdeal
import proofs.«430049_j55997783605449_1_alg».proof.ReferenceIdeal
import proofs.«430049_j55997783605449_1_alg».proof.Proof.Gen.KernelIdeal
import proofs.«430049_j55997783605449_1_alg».proof.Proof.Gen.ReferenceIdeal
import proofs.«430049_j55997783605449_1_alg».proof.Proof.Bridge.PoolSpec
import proofs.«430049_j55997783605449_1_alg».proof.Proof.Bridge.PoolOps
import Idealize.ShloMosaic.PureOps.Ideal.Laws
import Idealize.ShloMosaic.Lib.ValueIdx
import Idealize.ShloMosaic.Lib.Pipeline.Value
import Idealize.ShloMosaic.Lib.ValueLayout
import Idealize.ShloMosaic.Lib.KernelVsHost
import Idealize.ShloMosaic.Lib.IdealHost
import Idealize.ShloMosaic.Lib.StableHlo.Predicate

set_option maxRecDepth 16384

noncomputable section

namespace Cert.Bridge

open Idealize.ShloMosaic Idealize.ShloMosaic.ValueIdx

/-! ## The two padded operands, read at an entry -/

/-- The padding value: the integer 0 converted is the real 0. -/
theorem padValue_eq_zero (i : Cert.KernelIdeal.S_.Idx) :
    (sitofp (F := Ideal) .f32 (constantI Cert.KernelIdeal.S_ 32 0#32) : FVec Ideal Cert.KernelIdeal.S_ .f32) i = (0 : EReal) := by
  show ((((0#32 : BitVec 32).toInt : ℤ) : ℝ) : EReal) = 0
  simp

/-- The padded rows at a row below 50000: the row itself. -/
theorem xPad_inside (x : (⟨Cert.KernelIdeal.S50000x128, .f32⟩ : BufTy).Contents (Elt Ideal)) (n : Fin 50176) (hn : n.val < 50000) (q : Fin 128) :
    xPad (F := Ideal) x (ix2 n q) = x (ix2 (⟨n.val, hn⟩ : Fin 50000) q) := by
  unfold xPad
  refine pad_apply_of_inside _ _ _ _ _ _ _ _ (ix2 (⟨n.val, hn⟩ : Fin 50000) q) ?_
  intro a
  match a with
  | ⟨0, _⟩ => show n.val = 0 + n.val * (0 + 1); omega
  | ⟨1, _⟩ => show q.val = 0 + q.val * (0 + 1); omega

/-- The padded rows at a row from 50000 on: zero. -/
theorem xPad_outside (x : (⟨Cert.KernelIdeal.S50000x128, .f32⟩ : BufTy).Contents (Elt Ideal)) (n : Fin 50176) (hn : 50000 ≤ n.val) (q : Fin 128) :
    xPad (F := Ideal) x (ix2 n q) = (0 : EReal) := by
  unfold xPad
  rw [pad_apply_of_not_inside _ _ _ _ _ _ _ _ (0 : Fin 2) ?_]
  · exact padValue_eq_zero _
  · show ¬(0 ≤ n.val ∧ (n.val - 0) % (0 + 1) = 0 ∧ (n.val - 0) / (0 + 1) < 50000)
    omega

open Cert.KernelIdeal in
/-- A vector of 50000 words as a 50000 × 1 column reads, at (n, 0), the vector at n. -/
theorem idsCol_apply (h₁ : S50000.BroadcastsInDim S50000x1 ![0]) (batch : IVec S50000 32) (n : Fin 50000) :
    broadcastInDim S50000x1 ![0] h₁ batch (ix2 n (0 : Fin 1)) = batch (ix1 n) :=
  broadcastInDim_apply _ _ _ (ix2 n (0 : Fin 1)) (ix1 n) (fun a => match a with
    | ⟨0, _⟩ => by show n.val = if (50000 : Nat) = 1 then 0 else n.val; simp)

open Cert.KernelIdeal in
/-- The graph ids laid along the rows of the 50000 × 256 rectangle read, at (n, p), the id of row n. -/
theorem idsRect_apply (h₁ : S50000.BroadcastsInDim S50000x1 ![0]) (h₂ : S50000x1.BroadcastsInDim S50000x256 ![0, 1])
    (batch : IVec S50000 32) (n : Fin 50000) (p : Fin 256) :
    broadcastInDim S50000x256 ![0, 1] h₂ (broadcastInDim S50000x1 ![0] h₁ batch) (ix2 n p) = batch (ix1 n) := by
  rw [broadcastInDim_apply _ _ _ (ix2 n p) (ix2 n (0 : Fin 1)) (fun a => match a with
    | ⟨0, _⟩ => by show n.val = if (50000 : Nat) = 1 then 0 else n.val; simp
    | ⟨1, _⟩ => by show (0 : Nat) = if (1 : Nat) = 1 then 0 else p.val; simp)]
  exact idsCol_apply h₁ batch n

open Cert.KernelIdeal in
/-- The bin numbers 0 … 255 laid along the columns read, at (n, p), the 32-bit word of p. -/
theorem binsRect_apply (h₃ : S1x256.BroadcastsInDim S50000x256 ![0, 1]) (n : Fin 50000) (p : Fin 256) :
    broadcastInDim S50000x256 ![0, 1] h₃ (iotaInDim S1x256 32 1 : IVec S1x256 32) (ix2 n p) = BitVec.ofNat 32 p.val := by
  rw [broadcastInDim_apply _ _ _ (ix2 n p) (ix2 (0 : Fin 1) p) (fun a => match a with
    | ⟨0, _⟩ => by show (0 : Nat) = if (1 : Nat) = 1 then 0 else n.val; simp
    | ⟨1, _⟩ => by show p.val = if (256 : Nat) = 1 then 0 else p.val; simp)]
  rfl

/-- A one-bit word read unsigned and converted: the real 1 for the set bit, the real 0 for the clear one. -/
theorem uitofp_bit (b : BitVec 1) : (FloatOps.uitofp (F := Ideal) .f32 b : EReal) = if b = 1#1 then 1 else 0 := by
  show (((b.toNat : ℝ)) : EReal) = if b = 1#1 then 1 else 0
  by_cases h : b = 1#1
  · rw [if_pos h, h]; simp
  · rw [if_neg h, eq_zero_of_ne_one h]; simp

open Cert.KernelIdeal in
/-- The one-hot table before the transpose, at (n, p): 1 when row n's graph id is the word of p, else 0. -/
theorem oneHot_apply (h₁ : S50000.BroadcastsInDim S50000x1 ![0]) (h₂ : S50000x1.BroadcastsInDim S50000x256 ![0, 1])
    (h₃ : S1x256.BroadcastsInDim S50000x256 ![0, 1]) (batch : IVec S50000 32) (n : Fin 50000) (p : Fin 256) :
    (uitofp (F := Ideal) .f32 (cmpi .eq (broadcastInDim S50000x256 ![0, 1] h₂ (broadcastInDim S50000x1 ![0] h₁ batch)) (broadcastInDim S50000x256 ![0, 1] h₃ (iotaInDim S1x256 32 1))) : FVec Ideal S50000x256 .f32) (ix2 n p)
      = if batch (ix1 n) = BitVec.ofNat 32 p.val then (1 : EReal) else 0 := by
  show (FloatOps.uitofp (F := Ideal) .f32 (IntOp.cmpi .eq
      (broadcastInDim S50000x256 ![0, 1] h₂ (broadcastInDim S50000x1 ![0] h₁ batch) (ix2 n p))
      (broadcastInDim S50000x256 ![0, 1] h₃ (iotaInDim S1x256 32 1 : IVec S1x256 32) (ix2 n p))) : EReal) = _
  rw [idsRect_apply, binsRect_apply, uitofp_bit]
  exact if_congr StableHlo.Predicate.cmpi_eq_iff rfl rfl

/-- The padded one-hot table at a column below 50000. -/
theorem ohPad_inside (batch : (⟨Cert.KernelIdeal.S50000, .i32⟩ : BufTy).Contents (Elt Ideal)) (p : Fin 256) (n : Fin 50176) (hn : n.val < 50000) :
    ohPad (F := Ideal) batch (ix2 p n) = if batch (ix1 (⟨n.val, hn⟩ : Fin 50000)) = BitVec.ofNat 32 p.val then (1 : EReal) else 0 := by
  unfold ohPad
  rw [pad_apply_of_inside _ _ _ _ _ _ _ (ix2 p n) (ix2 p (⟨n.val, hn⟩ : Fin 50000)) (fun a => match a with
    | ⟨0, _⟩ => by show p.val = 0 + p.val * (0 + 1); omega
    | ⟨1, _⟩ => by show n.val = 0 + n.val * (0 + 1); omega)]
  rw [transpose_ix2_apply]
  exact oneHot_apply _ _ _ batch _ p

/-- The padded one-hot table at a column from 50000 on: zero. -/
theorem ohPad_outside (batch : (⟨Cert.KernelIdeal.S50000, .i32⟩ : BufTy).Contents (Elt Ideal)) (p : Fin 256) (n : Fin 50176) (hn : 50000 ≤ n.val) :
    ohPad (F := Ideal) batch (ix2 p n) = (0 : EReal) := by
  unfold ohPad
  rw [pad_apply_of_not_inside _ _ _ _ _ _ _ _ (1 : Fin 2) ?_]
  · exact padValue_eq_zero _
  · show ¬(0 ≤ n.val ∧ (n.val - 0) % (0 + 1) = 0 ∧ (n.val - 0) / (0 + 1) < 50000)
    omega

/-! ## The kernel side as a sum over the rows of one graph -/

/-- The kernel side at (p, q): of the 50176 products only the first 50000 can be non-zero, and there the table entry is
    1 or 0, so the sum is over the rows whose graph id is the word of p. On the extended reals 1 · y = y and 0 · y = 0 for
    every y, infinite ones included. -/
theorem poolSum_rows (batch : (⟨Cert.KernelIdeal.S50000, .i32⟩ : BufTy).Contents (Elt Ideal))
    (x : (⟨Cert.KernelIdeal.S50000x128, .f32⟩ : BufTy).Contents (Elt Ideal)) (p : Fin 256) (q : Fin 128) :
    poolSum (ohPad (F := Ideal) batch) (xPad (F := Ideal) x) (ix2 p q)
      = ∑ n : Fin 50000, if batch (ix1 n) = BitVec.ofNat 32 p.val then (x (ix2 n q) : EReal) else 0 := by
  rw [poolSum_apply]
  show ∑ n : Fin (50000 + 176), ohPad (F := Ideal) batch (ix2 p n) * xPad (F := Ideal) x (ix2 n q) = _
  rw [Fin.sum_univ_add]
  have hhi : ∑ i : Fin 176, ohPad (F := Ideal) batch (ix2 p (Fin.natAdd 50000 i)) * xPad (F := Ideal) x (ix2 (Fin.natAdd 50000 i) q) = 0 := by
    refine Finset.sum_eq_zero fun i _ => ?_
    rw [ohPad_outside batch p (Fin.natAdd 50000 i) (by show 50000 ≤ 50000 + i.val; omega), zero_mul]
  rw [hhi, add_zero]
  refine Finset.sum_congr rfl fun i _ => ?_
  rw [ohPad_inside batch p (Fin.castAdd 176 i) i.isLt, xPad_inside x (Fin.castAdd 176 i) i.isLt q]
  show (if batch (ix1 i) = BitVec.ofNat 32 p.val then (1 : EReal) else 0) * x (ix2 i q) = _
  by_cases h : batch (ix1 i) = BitVec.ofNat 32 p.val
  · rw [if_pos h, if_pos h, one_mul]
  · rw [if_neg h, if_neg h, zero_mul]

/-! ## The reference's scatter, read at an entry -/

open Cert.ReferenceIdeal in
/-- The reference's scatter dimension numbers with the well-formedness evidence as a parameter. -/
def segDims (h : ScatterDims.WF S256x128 S50000x1 S50000x128 [1] [0] [0] 1) : ScatterDims S256x128 S50000x1 S50000x128 :=
  ⟨[1], [0], [0], 1, h⟩

open Cert.ReferenceIdeal in
/-- Update (n, q') starts, on the bin axis, at the graph id of row n read signed. -/
theorem segDims_start0 (h : ScatterDims.WF S256x128 S50000x1 S50000x128 [1] [0] [0] 1) (idx : IVec S50000x1 32) (n : Fin 50000) (q' : Fin 128) :
    (segDims h).start (ix2 n q') idx (0 : Fin 2) = (idx (ix2 n (0 : Fin 1))).toInt := by
  unfold ScatterDims.start
  rw [dif_pos (by show (0 : Fin 2) ∈ ([0] : List (Fin 2)); decide)]
  refine congrArg (fun k => (idx k).toInt) (funext fun b => ?_)
  match b with
  | ⟨0, _⟩ => rfl
  | ⟨1, _⟩ => rfl

open Cert.ReferenceIdeal in
/-- On the feature axis every update starts at 0. -/
theorem segDims_start1 (h : ScatterDims.WF S256x128 S50000x1 S50000x128 [1] [0] [0] 1) (idx : IVec S50000x1 32) (n : Fin 50000) (q' : Fin 128) :
    (segDims h).start (ix2 n q') idx (1 : Fin 2) = 0 := by
  unfold ScatterDims.start
  rw [dif_neg (by show ¬ ((1 : Fin 2) ∈ ([0] : List (Fin 2))); decide)]

open Cert.ReferenceIdeal in
/-- The bin axis is an inserted axis: the window coordinate there is 0. -/
theorem segDims_window0 (h : ScatterDims.WF S256x128 S50000x1 S50000x128 [1] [0] [0] 1) (n : Fin 50000) (q' : Fin 128) :
    (segDims h).window (ix2 n q') (0 : Fin 2) = 0 := by
  unfold ScatterDims.window
  rw [dif_neg (by show ¬ ((0 : Fin 2) ∈ S256x128.kept [0]); decide)]

open Cert.ReferenceIdeal in
/-- On the feature axis the window coordinate of update (n, q') is q'. -/
theorem segDims_window1 (h : ScatterDims.WF S256x128 S50000x1 S50000x128 [1] [0] [0] 1) (n : Fin 50000) (q' : Fin 128) :
    (segDims h).window (ix2 n q') (1 : Fin 2) = q'.val := by
  unfold ScatterDims.window
  rw [dif_pos (by show (1 : Fin 2) ∈ S256x128.kept [0]; decide)]
  rfl

open Cert.ReferenceIdeal in
/-- Update (n, q') lands on (p, q) exactly when row n's graph id, read signed, is p and q' = q; an id outside 0 … 255
    lands nowhere. -/
theorem segDims_resultIdx (h : ScatterDims.WF S256x128 S50000x1 S50000x128 [1] [0] [0] 1) (idx : IVec S50000x1 32)
    (n : Fin 50000) (q' : Fin 128) (p : Fin 256) (q : Fin 128) :
    (segDims h).resultIdx? (ix2 n q') idx = some (ix2 p q) ↔ (idx (ix2 n (0 : Fin 1))).toInt = (p.val : Int) ∧ q' = q := by
  have h0 := segDims_start0 h idx n q'
  have h1 := segDims_start1 h idx n q'
  have w0 := segDims_window0 h n q'
  have w1 := segDims_window1 h n q'
  have hp := p.isLt
  have hq' := q'.isLt
  unfold ScatterDims.resultIdx?
  by_cases hc : ∀ a, 0 ≤ (segDims h).start (ix2 n q') idx a + ((segDims h).window (ix2 n q') a : Int)
      ∧ (segDims h).start (ix2 n q') idx a + ((segDims h).window (ix2 n q') a : Int) < S256x128.size a
  · rw [dif_pos hc]
    constructor
    · intro he
      have he' := Option.some.inj he
      have e0 : ((segDims h).start (ix2 n q') idx 0 + ((segDims h).window (ix2 n q') 0 : Int)).toNat = p.val :=
        congrArg (fun f => (f 0).val) he'
      have e1 : ((segDims h).start (ix2 n q') idx 1 + ((segDims h).window (ix2 n q') 1 : Int)).toNat = q.val :=
        congrArg (fun f => (f 1).val) he'
      have c0 := (hc 0).1
      rw [h0, w0] at e0 c0
      rw [h1, w1] at e1
      exact ⟨by omega, Fin.ext (by omega)⟩
    · rintro ⟨ht, rfl⟩
      refine congrArg some (funext fun a => ?_)
      match a with
      | ⟨0, _⟩ =>
        refine Fin.ext ?_
        show ((segDims h).start (ix2 n q') idx 0 + ((segDims h).window (ix2 n q') 0 : Int)).toNat = p.val
        rw [h0, w0, ht]; omega
      | ⟨1, _⟩ =>
        refine Fin.ext ?_
        show ((segDims h).start (ix2 n q') idx 1 + ((segDims h).window (ix2 n q') 1 : Int)).toNat = q'.val
        rw [h1, w1]; omega
  · rw [dif_neg hc]
    constructor
    · intro he; exact absurd he (by simp)
    · rintro ⟨ht, rfl⟩
      refine absurd (fun a => ?_) hc
      match a with
      | ⟨0, _⟩ =>
        show 0 ≤ (segDims h).start (ix2 n q') idx 0 + ((segDims h).window (ix2 n q') 0 : Int)
          ∧ (segDims h).start (ix2 n q') idx 0 + ((segDims h).window (ix2 n q') 0 : Int) < (256 : Nat)
        rw [h0, w0, ht]; omega
      | ⟨1, _⟩ =>
        show 0 ≤ (segDims h).start (ix2 n q') idx 1 + ((segDims h).window (ix2 n q') 1 : Int)
          ∧ (segDims h).start (ix2 n q') idx 1 + ((segDims h).window (ix2 n q') 1 : Int) < (128 : Nat)
        rw [h1, w1]; omega

open Cert.ReferenceIdeal in
/-- The reference side at (p, q): zero plus the sum of the update rows that land on (p, q), which are the entries (n, q)
    of the rows n whose graph id, read signed, is p. -/
theorem scatter_rows (h : ScatterDims.WF S256x128 S50000x1 S50000x128 [1] [0] [0] 1) (hb : S_.BroadcastsInDim S256x128 ![])
    (h₁ : S50000.BroadcastsInDim S50000x1 ![0]) (batch : IVec S50000 32) (x : FVec Ideal S50000x128 .f32) (p : Fin 256) (q : Fin 128) :
    Host.scatterAdd (F := Ideal) (segDims h) (broadcastInDim S256x128 ![] hb (constant (F := Ideal) S_ .f32 0x00000000#32))
        (broadcastInDim S50000x1 ![0] h₁ batch) x (ix2 p q)
      = ∑ n : Fin 50000, if (batch (ix1 n)).toInt = (p.val : Int) then (x (ix2 n q) : EReal) else 0 := by
  show Ideal.hostScatterAdd (segDims h) _ _ x (ix2 p q) = _
  unfold Ideal.hostScatterAdd
  rw [broadcastInDim_scalar_apply, constant_apply, Ideal.ofBits_zero_f32, zero_add]
  rw [Finset.sum_filter, sum_idx2]
  refine Finset.sum_congr rfl fun n _ => ?_
  simp only [segDims_resultIdx]
  rw [idsCol_apply h₁ batch n]
  by_cases ht : (batch (ix1 n)).toInt = (p.val : Int)
  · simp [ht]
  · simp [ht]

/-! ## The two sides meet -/

/-- A 32-bit word is the word of a number p below 256 exactly when, read signed, it is p. -/
theorem word_eq_iff_toInt (b : BitVec 32) (p : Fin 256) : b = BitVec.ofNat 32 p.val ↔ b.toInt = (p.val : Int) := by
  have hp := p.isLt
  constructor
  · rintro rfl
    exact StableHlo.Predicate.toInt_ofNat_small p.val (by omega)
  · intro hb
    apply BitVec.eq_of_toInt_eq
    rw [hb, StableHlo.Predicate.toInt_ofNat_small p.val (by omega)]

/-- The kernel program's pooled sums are the reference's segment sum. -/
theorem pool_eq_scatter (batch : (⟨Cert.KernelIdeal.S50000, .i32⟩ : BufTy).Contents (Elt Ideal))
    (x : (⟨Cert.KernelIdeal.S50000x128, .f32⟩ : BufTy).Contents (Elt Ideal)) :
    poolSum (ohPad (F := Ideal) batch) (xPad (F := Ideal) x)
      = Host.scatterAdd (F := Ideal) Cert.ReferenceIdeal.scatter_S256x128_S50000x1_S50000x128_1_0_0_1
          (broadcastInDim Cert.ReferenceIdeal.S256x128 ![] Cert.ReferenceIdeal.Gen.bcast_S_S256x128
            (constant (F := Ideal) Cert.ReferenceIdeal.S_ .f32 0x00000000#32))
          (broadcastInDim Cert.ReferenceIdeal.S50000x1 ![0] Cert.ReferenceIdeal.Gen.bcast_S50000_S50000x1_0 batch) x := by
  funext j
  obtain ⟨p, q, rfl⟩ : ∃ (p : Fin 256) (q : Fin 128), j = ix2 p q := ⟨j 0, j 1, eq_ix2 j⟩
  rw [poolSum_rows]
  refine Eq.trans ?_ (scatter_rows Cert.ReferenceIdeal.Gen.scatter_S256x128_S50000x1_S50000x128_1_0_0_1_wf _ _ batch x p q).symm
  exact Finset.sum_congr rfl fun n _ => if_congr (word_eq_iff_toInt _ _) rfl rfl

end Cert.Bridge

end
-- ==== Proof.Bridge.ReadA.lean ====
/-
  What the kernel program's host stretches compute up to its third kernel region, read off the chain of buffer contents
  at an arbitrary float family.  Each stretch is first read at the buffers it writes from arbitrary contents before it
  (st…); the reads are then chained along the boundaries of the program's items: the edges' endpoints with the self loops
  appended, the degrees, their inverse square roots and the edge weights are functions of the edge list alone and are the
  reference's srcR, dstR, dinvR, normR; each layer's weight matrix is the matching slice of the stacked weights; each
  layer's aggregation (gather at the sources, scaling by the edge weights, scatter-add at the destinations, bias, positive
  part) is the reference's aggR of the preceding kernel region's output.  A buffer that no item of a span writes keeps its
  contents across the span (keep_…), which carries the normalisation and the program's arguments to the third region's exit.
-/
import proofs.«430049_j55997783605449_1_alg».proof.Proof.KI.Keep
import proofs.«430049_j55997783605449_1_alg».proof.Proof.Bridge.RefForm
import proofs.«430049_j55997783605449_1_alg».proof.Proof.Bridge.PoolOps
import Idealize.ShloMosaic.Lib.StableHlo.Run

set_option maxRecDepth 16384

noncomputable section

namespace Cert.KernelIdeal.Hand

open Cert.KernelIdeal Cert.KernelIdeal.Gen Cert.Bridge
open Idealize.ShloMosaic Idealize.ShloMosaic.TcCoe
open Idealize.SL.Sem
open Idealize.ShloMosaic.StableHlo

variable {F : FTy → Type} [FloatOps F]

/-! ## One stretch of host operations read at the buffers it writes, from arbitrary contents `V` before it -/

section Stretch

variable (V : Valuation τ sig (Elt F))

/-- The first stretch: the sources with the self loops appended. -/
theorem st0_v3 : StableHlo.after hostOps0 V (Proc.devRef .tc main_v3) = srcR (V (Proc.devRef .tc main_arg7)) := by
  after_results
  rfl

/-- The first stretch: the destinations with the self loops appended. -/
theorem st0_v6 : StableHlo.after hostOps0 V (Proc.devRef .tc main_v6) = dstR (V (Proc.devRef .tc main_arg7)) := by
  after_results
  rfl

/-- The first stretch: the degrees. -/
theorem st0_v10 : StableHlo.after hostOps0 V (Proc.devRef .tc main_v10) = degR (V (Proc.devRef .tc main_arg7)) := by
  after_results
  rfl

/-- The first stretch: where the degree is positive. -/
theorem st0_v12 : StableHlo.after hostOps0 V (Proc.devRef .tc main_v12)
    = cmpf (F := F) .ogt (degR (V (Proc.devRef .tc main_arg7))) (broadcastInDim S50000 ![] bcast_S_S50000 (constant S_ .f32 0x00000000#32)) := by
  after_results
  rfl

/-- The first stretch: the inverse square root of the degree raised to at least one. -/
theorem st0_v15 : StableHlo.after hostOps0 V (Proc.devRef .tc main_v15)
    = Host.rsqrt (maximumf (degR (V (Proc.devRef .tc main_arg7))) (broadcastInDim S50000 ![] bcast_S_S50000 (constant S_ .f32 0x3F800000#32))) := by
  after_results
  rfl

/-- The first stretch: the zero the selection falls back to. -/
theorem st0_cst3 : StableHlo.after hostOps0 V (Proc.devRef .tc main_cst_3) = (constant S_ .f32 0x00000000#32 : (⟨S_, .f32⟩ : BufTy).Contents (Elt F)) := by
  after_results

/-- The selection stretch: the inverse square root where the degree is positive, zero elsewhere. -/
theorem st01_v16 : StableHlo.after hostOps0_1 V (Proc.devRef .tc main_v16)
    = select (V (Proc.devRef .tc main_v12)) (V (Proc.devRef .tc main_v15))
        (broadcastInDim S50000 ![] bcast_S_S50000 (id (V (Proc.devRef .tc main_cst_3)))) := by
  after_results
  simp only [StableHlo.TRef.ofBuf, StableHlo.TRef.toBuf, cast_eq]

/-- The third stretch: the edge weights, the product of the two endpoints' inverse square roots of the degrees
    (each endpoint's id wrapped around when negative). -/
theorem st02_v31 : StableHlo.after hostOps0_2 V (Proc.devRef .tc main_v31)
    = mulf (Host.gather gather_S50000_S650000x1_S650000_n_0_n_n_0_1_1 (V (Proc.devRef .tc main_v16))
              (broadcastInDim S650000x1 ![0] bcast_S650000_S650000x1_0 (fixR (V (Proc.devRef .tc main_v3)))))
           (Host.gather gather_S50000_S650000x1_S650000_n_0_n_n_0_1_1 (V (Proc.devRef .tc main_v16))
              (broadcastInDim S650000x1 ![0] bcast_S650000_S650000x1_0 (fixR (V (Proc.devRef .tc main_v6))))) := by
  after_results_simp
  unfold fixR
  rfl

/-- The third stretch: the first layer's weight matrix. -/
theorem st02_v33 : StableHlo.after hostOps0_2 V (Proc.devRef .tc main_v33)
    = shapeCast _ (extractStridedSlice Cert.ReferenceIdeal.S1x128x128 ![0, 0, 0] (V (Proc.devRef .tc main_arg1)) Cert.ReferenceIdeal.Gen.slices_S3x128x128_S1x128x128_0_0_0) Cert.ReferenceIdeal.Gen.shapeCasts_S1x128x128_S128x128 := by
  after_results_simp
  rfl

/-- A layer's aggregation before the positive part: the rows gathered at the sources, scaled by the edge weights,
    added up at the destinations, plus the layer's bias row. -/
def aggPre (h : (⟨S50000x128, .f32⟩ : BufTy).Contents (Elt F)) (src dst : (⟨S650000, .i32⟩ : BufTy).Contents (Elt F))
    (nrm : (⟨S650000, .f32⟩ : BufTy).Contents (Elt F)) (b : (⟨S128, .f32⟩ : BufTy).Contents (Elt F)) : (⟨S50000x128, .f32⟩ : BufTy).Contents (Elt F) :=
  addf (Host.scatterAdd scatter_S50000x128_S650000x1_S650000x128_1_0_0_1 (broadcastInDim S50000x128 ![] bcast_S_S50000x128 (constant S_ .f32 0x00000000#32))
          (broadcastInDim S650000x1 ![0] bcast_S650000_S650000x1_0 dst)
          (mulf (Host.gather gather_S50000x128_S650000x1_S650000x128_1_0_n_n_0_1_1128 h (broadcastInDim S650000x1 ![0] bcast_S650000_S650000x1_0 (fixR src)))
                (broadcastInDim S650000x128 ![0, 1] bcast_S650000x1_S650000x128_0_1 (broadcastInDim S650000x1 ![0] bcast_S650000_S650000x1_0 nrm))))
       (broadcastInDim S50000x128 ![0, 1] bcast_S1x128_S50000x128_0_1 (broadcastInDim S1x128 ![1] bcast_S128_S1x128_1 b))

/-- The first layer's aggregation stretch. -/
theorem st1_v52 : StableHlo.after hostOps1 V (Proc.devRef .tc main_v52)
    = aggPre (V (Proc.devRef .tc main_v34)) (V (Proc.devRef .tc main_v3)) (V (Proc.devRef .tc main_v6)) (V (Proc.devRef .tc main_v31))
        (shapeCast _ (extractStridedSlice S1x128 ![0, 0] (V (Proc.devRef .tc main_arg2)) slices_S3x128_S1x128_0_0) shapeCasts_S1x128_S128) := by
  after_results_simp
  unfold aggPre fixR
  rfl

/-- The first layer's positive part. -/
theorem st11_v53 : StableHlo.after hostOps1_1 V (Proc.devRef .tc main_v53)
    = maximumf (V (Proc.devRef .tc main_v52)) (broadcastInDim S50000x128 ![] bcast_S_S50000x128 (constant S_ .f32 0x00000000#32)) := by
  after_results_simp
  simp only [StableHlo.TRef.ofBuf, StableHlo.TRef.toBuf, cast_eq]

/-- The second layer's weight matrix. -/
theorem st12_v55 : StableHlo.after hostOps1_2 V (Proc.devRef .tc main_v55)
    = shapeCast _ (extractStridedSlice Cert.ReferenceIdeal.S1x128x128 ![1, 0, 0] (V (Proc.devRef .tc main_arg1)) Cert.ReferenceIdeal.Gen.slices_S3x128x128_S1x128x128_1_0_0) Cert.ReferenceIdeal.Gen.shapeCasts_S1x128x128_S128x128 := by
  after_results_simp
  rfl

/-- The second layer's aggregation stretch. -/
theorem st2_v74 : StableHlo.after hostOps2 V (Proc.devRef .tc main_v74)
    = aggPre (V (Proc.devRef .tc main_v56)) (V (Proc.devRef .tc main_v3)) (V (Proc.devRef .tc main_v6)) (V (Proc.devRef .tc main_v31))
        (shapeCast _ (extractStridedSlice S1x128 ![1, 0] (V (Proc.devRef .tc main_arg2)) slices_S3x128_S1x128_1_0) shapeCasts_S1x128_S128) := by
  after_results_simp
  unfold aggPre fixR
  rfl

/-- The second layer's positive part. -/
theorem st21_v75 : StableHlo.after hostOps2_1 V (Proc.devRef .tc main_v75)
    = maximumf (V (Proc.devRef .tc main_v74)) (broadcastInDim S50000x128 ![] bcast_S_S50000x128 (constant S_ .f32 0x00000000#32)) := by
  after_results_simp
  simp only [StableHlo.TRef.ofBuf, StableHlo.TRef.toBuf, cast_eq]

/-- The third layer's weight matrix. -/
theorem st22_v77 : StableHlo.after hostOps2_2 V (Proc.devRef .tc main_v77)
    = shapeCast _ (extractStridedSlice Cert.ReferenceIdeal.S1x128x128 ![2, 0, 0] (V (Proc.devRef .tc main_arg1)) Cert.ReferenceIdeal.Gen.slices_S3x128x128_S1x128x128_2_0_0) Cert.ReferenceIdeal.Gen.shapeCasts_S1x128x128_S128x128 := by
  after_results_simp
  rfl

end Stretch

variable (m : (ℓ : Loc nD τ sig) → Buf (Elt F) ℓ) (ρ : Dev nD → PrngReg) (c : Dev nD)

/-! ## A buffer that no item in a span writes keeps its contents across the span -/

/-- From the launch to the entry of the first kernel region. -/
theorem keep_0_3 (r : Ref sig .tc) (h0 : r ∉ hostOps0_W) (h1 : r ∉ hostOps0_1_W) (h2 : r ∉ hostOps0_2_W) :
    W3 m ρ c r = m ((c : Thread nD τ).loc r) :=
  (W3_keep m ρ c r h2).trans ((W2_keep m ρ c r h1).trans ((W1_keep m ρ c r h0).trans (W0_eq m ρ c r)))

/-- From the first region's exit to the second region's entry. -/
theorem keep_4_7 (r : Ref sig .tc) (h0 : r ∉ hostOps1_W) (h1 : r ∉ hostOps1_1_W) (h2 : r ∉ hostOps1_2_W) :
    W7 m ρ c r = W4 m ρ c r :=
  (W7_keep m ρ c r h2).trans ((W6_keep m ρ c r h1).trans (W5_keep m ρ c r h0))

/-- From the second region's exit to the third region's entry. -/
theorem keep_8_11 (r : Ref sig .tc) (h0 : r ∉ hostOps2_W) (h1 : r ∉ hostOps2_1_W) (h2 : r ∉ hostOps2_2_W) :
    W11 m ρ c r = W8 m ρ c r :=
  (W11_keep m ρ c r h2).trans ((W10_keep m ρ c r h1).trans (W9_keep m ρ c r h0))

/-- From the first region's entry to the third region's exit, for a buffer none of the three layers' items writes. -/
theorem keep_3_12 (r : Ref sig .tc)
    (k0 : ∀ w, Pipeline.arrRef spec0 w ≠ r) (h10 : r ∉ hostOps1_W) (h11 : r ∉ hostOps1_1_W) (h12 : r ∉ hostOps1_2_W)
    (k1 : ∀ w, Pipeline.arrRef spec1 w ≠ r) (h20 : r ∉ hostOps2_W) (h21 : r ∉ hostOps2_1_W) (h22 : r ∉ hostOps2_2_W)
    (k2 : ∀ w, Pipeline.arrRef spec2 w ≠ r) :
    W12 m ρ c r = W3 m ρ c r :=
  (W12_keep m ρ c r k2).trans ((keep_8_11 m ρ c r h20 h21 h22).trans ((W8_keep m ρ c r k1).trans
    ((keep_4_7 m ρ c r h10 h11 h12).trans (W4_keep m ρ c r k0))))

/-! ## The normalisation: sources, destinations, degrees, edge weights (levels 1 to 3) -/

theorem rd1_src : W1 m ρ c main_v3 = srcR (m ((c : Thread nD τ).loc main_arg7)) := st0_v3 (W0 m ρ c)
theorem rd1_dst : W1 m ρ c main_v6 = dstR (m ((c : Thread nD τ).loc main_arg7)) := st0_v6 (W0 m ρ c)
theorem rd1_v12 : W1 m ρ c main_v12
    = cmpf (F := F) .ogt (degR (m ((c : Thread nD τ).loc main_arg7))) (broadcastInDim S50000 ![] bcast_S_S50000 (constant S_ .f32 0x00000000#32)) := st0_v12 (W0 m ρ c)
theorem rd1_v15 : W1 m ρ c main_v15
    = Host.rsqrt (maximumf (degR (m ((c : Thread nD τ).loc main_arg7))) (broadcastInDim S50000 ![] bcast_S_S50000 (constant S_ .f32 0x3F800000#32))) := st0_v15 (W0 m ρ c)
theorem rd1_cst3 : W1 m ρ c main_cst_3 = (constant S_ .f32 0x00000000#32 : (⟨S_, .f32⟩ : BufTy).Contents (Elt F)) := st0_cst3 (W0 m ρ c)

theorem rd2_src : W2 m ρ c main_v3 = srcR (m ((c : Thread nD τ).loc main_arg7)) := (W2_keep m ρ c main_v3 (by decide)).trans (rd1_src m ρ c)
theorem rd2_dst : W2 m ρ c main_v6 = dstR (m ((c : Thread nD τ).loc main_arg7)) := (W2_keep m ρ c main_v6 (by decide)).trans (rd1_dst m ρ c)

/-- The inverse square roots of the degrees, after the selection stretch. -/
theorem rd2_dinv : W2 m ρ c main_v16 = dinvR (m ((c : Thread nD τ).loc main_arg7)) := by
  refine (st01_v16 (W1 m ρ c)).trans ?_
  rw [rd1_v12, rd1_v15, rd1_cst3]
  rfl

theorem rd_src : W3 m ρ c main_v3 = srcR (m ((c : Thread nD τ).loc main_arg7)) := (W3_keep m ρ c main_v3 (by decide)).trans (rd2_src m ρ c)
theorem rd_dst : W3 m ρ c main_v6 = dstR (m ((c : Thread nD τ).loc main_arg7)) := (W3_keep m ρ c main_v6 (by decide)).trans (rd2_dst m ρ c)

/-- The edge weights at the first region's entry. -/
theorem rd_norm : W3 m ρ c main_v31 = normR (m ((c : Thread nD τ).loc main_arg7)) := by
  refine (st02_v31 (W2 m ρ c)).trans ?_
  rw [rd2_dinv, rd2_src, rd2_dst]
  rfl

theorem rd_x0 : W3 m ρ c main_arg0 = (m ((c : Thread nD τ).loc main_arg0)) := keep_0_3 m ρ c main_arg0 (by decide) (by decide) (by decide)

/-- The first layer's weight matrix at the first region's entry. -/
theorem rd_w0 : W3 m ρ c main_v33
    = shapeCast _ (extractStridedSlice Cert.ReferenceIdeal.S1x128x128 ![0, 0, 0] (m ((c : Thread nD τ).loc main_arg1)) Cert.ReferenceIdeal.Gen.slices_S3x128x128_S1x128x128_0_0_0) Cert.ReferenceIdeal.Gen.shapeCasts_S1x128x128_S128x128 := by
  refine (st02_v33 (W2 m ρ c)).trans ?_
  rw [show W2 m ρ c main_arg1 = (m ((c : Thread nD τ).loc main_arg1)) from (W2_keep m ρ c main_arg1 (by decide)).trans ((W1_keep m ρ c main_arg1 (by decide)).trans (W0_eq m ρ c main_arg1))]

/-! ## The first layer's aggregation (levels 4 to 7) -/

theorem rd4_src : W4 m ρ c main_v3 = srcR (m ((c : Thread nD τ).loc main_arg7)) := (W4_keep m ρ c main_v3 (by decide)).trans (rd_src m ρ c)
theorem rd4_dst : W4 m ρ c main_v6 = dstR (m ((c : Thread nD τ).loc main_arg7)) := (W4_keep m ρ c main_v6 (by decide)).trans (rd_dst m ρ c)
theorem rd4_norm : W4 m ρ c main_v31 = normR (m ((c : Thread nD τ).loc main_arg7)) := (W4_keep m ρ c main_v31 (by decide)).trans (rd_norm m ρ c)
theorem rd4_arg1 : W4 m ρ c main_arg1 = (m ((c : Thread nD τ).loc main_arg1)) :=
  (W4_keep m ρ c main_arg1 (by decide)).trans (keep_0_3 m ρ c main_arg1 (by decide) (by decide) (by decide))
theorem rd4_arg2 : W4 m ρ c main_arg2 = (m ((c : Thread nD τ).loc main_arg2)) :=
  (W4_keep m ρ c main_arg2 (by decide)).trans (keep_0_3 m ρ c main_arg2 (by decide) (by decide) (by decide))

/-- The first layer's aggregation before the positive part, over the first region's output. -/
theorem rd5_v52 : W5 m ρ c main_v52
    = aggPre (W4 m ρ c main_v34) (srcR (m ((c : Thread nD τ).loc main_arg7))) (dstR (m ((c : Thread nD τ).loc main_arg7))) (normR (m ((c : Thread nD τ).loc main_arg7)))
        (shapeCast _ (extractStridedSlice S1x128 ![0, 0] (m ((c : Thread nD τ).loc main_arg2)) slices_S3x128_S1x128_0_0) shapeCasts_S1x128_S128) := by
  refine (st1_v52 (W4 m ρ c)).trans ?_
  rw [rd4_src, rd4_dst, rd4_norm, rd4_arg2]

/-- The first layer's result at the second region's entry. -/
theorem rd_v53 : W7 m ρ c main_v53 = aggR0 (W4 m ρ c main_v34) (m ((c : Thread nD τ).loc main_arg7)) (m ((c : Thread nD τ).loc main_arg2)) := by
  refine (W7_keep m ρ c main_v53 (by decide)).trans ((st11_v53 (W5 m ρ c)).trans ?_)
  rw [rd5_v52]
  unfold aggPre aggR0
  rfl

/-- The second layer's weight matrix at the second region's entry. -/
theorem rd_w1 : W7 m ρ c main_v55 = shapeCast _ (extractStridedSlice Cert.ReferenceIdeal.S1x128x128 ![1, 0, 0] (m ((c : Thread nD τ).loc main_arg1)) Cert.ReferenceIdeal.Gen.slices_S3x128x128_S1x128x128_1_0_0) Cert.ReferenceIdeal.Gen.shapeCasts_S1x128x128_S128x128 := by
  refine (st12_v55 (W6 m ρ c)).trans ?_
  rw [show W6 m ρ c main_arg1 = (m ((c : Thread nD τ).loc main_arg1)) from (W6_keep m ρ c main_arg1 (by decide)).trans ((W5_keep m ρ c main_arg1 (by decide)).trans (rd4_arg1 m ρ c))]

/-! ## The second layer's aggregation (levels 8 to 11) -/

theorem rd8_src : W8 m ρ c main_v3 = srcR (m ((c : Thread nD τ).loc main_arg7)) :=
  (W8_keep m ρ c main_v3 (by decide)).trans ((keep_4_7 m ρ c main_v3 (by decide) (by decide) (by decide)).trans (rd4_src m ρ c))
theorem rd8_dst : W8 m ρ c main_v6 = dstR (m ((c : Thread nD τ).loc main_arg7)) :=
  (W8_keep m ρ c main_v6 (by decide)).trans ((keep_4_7 m ρ c main_v6 (by decide) (by decide) (by decide)).trans (rd4_dst m ρ c))
theorem rd8_norm : W8 m ρ c main_v31 = normR (m ((c : Thread nD τ).loc main_arg7)) :=
  (W8_keep m ρ c main_v31 (by decide)).trans ((keep_4_7 m ρ c main_v31 (by decide) (by decide) (by decide)).trans (rd4_norm m ρ c))
theorem rd8_arg1 : W8 m ρ c main_arg1 = (m ((c : Thread nD τ).loc main_arg1)) :=
  (W8_keep m ρ c main_arg1 (by decide)).trans ((keep_4_7 m ρ c main_arg1 (by decide) (by decide) (by decide)).trans (rd4_arg1 m ρ c))
theorem rd8_arg2 : W8 m ρ c main_arg2 = (m ((c : Thread nD τ).loc main_arg2)) :=
  (W8_keep m ρ c main_arg2 (by decide)).trans ((keep_4_7 m ρ c main_arg2 (by decide) (by decide) (by decide)).trans (rd4_arg2 m ρ c))

/-- The second layer's aggregation before the positive part, over the second region's output. -/
theorem rd9_v74 : W9 m ρ c main_v74
    = aggPre (W8 m ρ c main_v56) (srcR (m ((c : Thread nD τ).loc main_arg7))) (dstR (m ((c : Thread nD τ).loc main_arg7))) (normR (m ((c : Thread nD τ).loc main_arg7)))
        (shapeCast _ (extractStridedSlice S1x128 ![1, 0] (m ((c : Thread nD τ).loc main_arg2)) slices_S3x128_S1x128_1_0) shapeCasts_S1x128_S128) := by
  refine (st2_v74 (W8 m ρ c)).trans ?_
  rw [rd8_src, rd8_dst, rd8_norm, rd8_arg2]

/-- The second layer's result at the third region's entry. -/
theorem rd_v75 : W11 m ρ c main_v75 = aggR1 (W8 m ρ c main_v56) (m ((c : Thread nD τ).loc main_arg7)) (m ((c : Thread nD τ).loc main_arg2)) := by
  refine (W11_keep m ρ c main_v75 (by decide)).trans ((st21_v75 (W9 m ρ c)).trans ?_)
  rw [rd9_v74]
  unfold aggPre aggR1
  rfl

/-- The third layer's weight matrix at the third region's entry. -/
theorem rd_w2 : W11 m ρ c main_v77 = shapeCast _ (extractStridedSlice Cert.ReferenceIdeal.S1x128x128 ![2, 0, 0] (m ((c : Thread nD τ).loc main_arg1)) Cert.ReferenceIdeal.Gen.slices_S3x128x128_S1x128x128_2_0_0) Cert.ReferenceIdeal.Gen.shapeCasts_S1x128x128_S128x128 := by
  refine (st22_v77 (W10 m ρ c)).trans ?_
  rw [show W10 m ρ c main_arg1 = (m ((c : Thread nD τ).loc main_arg1)) from (W10_keep m ρ c main_arg1 (by decide)).trans ((W9_keep m ρ c main_arg1 (by decide)).trans (rd8_arg1 m ρ c))]

/-! ## At the third region's exit (level 12) -/

theorem rd_src12 : W12 m ρ c main_v3 = srcR (m ((c : Thread nD τ).loc main_arg7)) :=
  (W12_keep m ρ c main_v3 (by decide)).trans ((keep_8_11 m ρ c main_v3 (by decide) (by decide) (by decide)).trans (rd8_src m ρ c))
theorem rd_dst12 : W12 m ρ c main_v6 = dstR (m ((c : Thread nD τ).loc main_arg7)) :=
  (W12_keep m ρ c main_v6 (by decide)).trans ((keep_8_11 m ρ c main_v6 (by decide) (by decide) (by decide)).trans (rd8_dst m ρ c))
theorem rd_norm12 : W12 m ρ c main_v31 = normR (m ((c : Thread nD τ).loc main_arg7)) :=
  (W12_keep m ρ c main_v31 (by decide)).trans ((keep_8_11 m ρ c main_v31 (by decide) (by decide) (by decide)).trans (rd8_norm m ρ c))
theorem rd_arg12_1 : W12 m ρ c main_arg1 = (m ((c : Thread nD τ).loc main_arg1)) :=
  (keep_3_12 m ρ c main_arg1 (by decide) (by decide) (by decide) (by decide) (by decide) (by decide) (by decide) (by decide) (by decide)).trans
    (keep_0_3 m ρ c main_arg1 (by decide) (by decide) (by decide))
theorem rd_arg12_2 : W12 m ρ c main_arg2 = (m ((c : Thread nD τ).loc main_arg2)) :=
  (keep_3_12 m ρ c main_arg2 (by decide) (by decide) (by decide) (by decide) (by decide) (by decide) (by decide) (by decide) (by decide)).trans
    (keep_0_3 m ρ c main_arg2 (by decide) (by decide) (by decide))
theorem rd_arg12_3 : W12 m ρ c main_arg3 = (m ((c : Thread nD τ).loc main_arg3)) :=
  (keep_3_12 m ρ c main_arg3 (by decide) (by decide) (by decide) (by decide) (by decide) (by decide) (by decide) (by decide) (by decide)).trans
    (keep_0_3 m ρ c main_arg3 (by decide) (by decide) (by decide))
theorem rd_arg12_4 : W12 m ρ c main_arg4 = (m ((c : Thread nD τ).loc main_arg4)) :=
  (keep_3_12 m ρ c main_arg4 (by decide) (by decide) (by decide) (by decide) (by decide) (by decide) (by decide) (by decide) (by decide)).trans
    (keep_0_3 m ρ c main_arg4 (by decide) (by decide) (by decide))
theorem rd_arg12_5 : W12 m ρ c main_arg5 = (m ((c : Thread nD τ).loc main_arg5)) :=
  (keep_3_12 m ρ c main_arg5 (by decide) (by decide) (by decide) (by decide) (by decide) (by decide) (by decide) (by decide) (by decide)).trans
    (keep_0_3 m ρ c main_arg5 (by decide) (by decide) (by decide))
theorem rd_arg12_6 : W12 m ρ c main_arg6 = (m ((c : Thread nD τ).loc main_arg6)) :=
  (keep_3_12 m ρ c main_arg6 (by decide) (by decide) (by decide) (by decide) (by decide) (by decide) (by decide) (by decide) (by decide)).trans
    (keep_0_3 m ρ c main_arg6 (by decide) (by decide) (by decide))
theorem rd_arg12_7 : W12 m ρ c main_arg7 = (m ((c : Thread nD τ).loc main_arg7)) :=
  (keep_3_12 m ρ c main_arg7 (by decide) (by decide) (by decide) (by decide) (by decide) (by decide) (by decide) (by decide) (by decide)).trans
    (keep_0_3 m ρ c main_arg7 (by decide) (by decide) (by decide))
theorem rd_arg12_8 : W12 m ρ c main_arg8 = (m ((c : Thread nD τ).loc main_arg8)) :=
  (keep_3_12 m ρ c main_arg8 (by decide) (by decide) (by decide) (by decide) (by decide) (by decide) (by decide) (by decide) (by decide)).trans
    (keep_0_3 m ρ c main_arg8 (by decide) (by decide) (by decide))

end Cert.KernelIdeal.Hand

end
-- ==== Proof.Bridge.ReadB.lean ====
/-
  What the kernel program's host stretches compute from region 2's exit to the end, read off the chain of buffer
  contents, for any float family.  Each stretch is a straight line of tensor operations; its result buffer holds the
  operations' term over the buffers the stretch reads.  The facts are first stated over an arbitrary valuation V the
  stretch starts from (so that nothing earlier in the chain is opened), then instantiated at the chain's levels:

    * the third graph-convolution's aggregation (gather by source, scaling by the edge weight, scatter-add by
      destination, bias, positive part) is the reference's aggR2 of region 2's output;
    * the two padded operands of the pooling product are xPad of that and ohPad of the graph ids;
    * the mean pool is the reference's pooledR of region 3's output;
    * the arguments are read as launched.
-/
import proofs.«430049_j55997783605449_1_alg».proof.Proof.KI.Keep
import proofs.«430049_j55997783605449_1_alg».proof.Proof.KI.Args
import proofs.«430049_j55997783605449_1_alg».proof.Proof.Bridge.RefForm
import proofs.«430049_j55997783605449_1_alg».proof.Proof.Bridge.PoolOps
import Idealize.ShloMosaic.Lib.StableHlo.Run

set_option maxRecDepth 16384

noncomputable section

namespace Cert.KernelIdeal.Hand

open Cert.KernelIdeal Cert.KernelIdeal.Gen Cert.Bridge
open Idealize.ShloMosaic Idealize.ShloMosaic.TcCoe
open Idealize.SL.Sem
open Idealize.ShloMosaic.StableHlo

variable {F : FTy → Type} [FloatOps F]

/-! ## The stretches over an arbitrary starting valuation -/

/-- Items 12–13: the aggregation of layer 3 and its positive part.  With the endpoint ids, the edge weights and the
    bias table read as the reference's terms, the result is the reference's aggR2 of the buffer main_v78. -/
theorem agg_of (V : Valuation τ sig (Elt F))
    (a7 : (⟨S2x600000, .i32⟩ : BufTy).Contents (Elt F)) (a2 : (⟨S3x128, .f32⟩ : BufTy).Contents (Elt F))
    (h3 : V (Proc.devRef .tc main_v3) = srcR a7) (h6 : V (Proc.devRef .tc main_v6) = dstR a7)
    (h31 : V (Proc.devRef .tc main_v31) = normR a7) (h2 : V (Proc.devRef .tc main_arg2) = a2) :
    StableHlo.after hostOps3_1 (StableHlo.after hostOps3 V) (Proc.devRef .tc main_v97)
      = aggR2 (V (Proc.devRef .tc main_v78)) a7 a2 := by
  after_results_simp
  simp only [StableHlo.TRef.ofBuf, StableHlo.TRef.toBuf, cast_eq]
  rw [h3, h6, h31, h2]
  unfold aggR2 fixR
  rfl

/-- Items 14–15: the node rows padded with 176 zero rows. -/
theorem xpad_of (V : Valuation τ sig (Elt F)) :
    StableHlo.after hostOps3_3 (StableHlo.after hostOps3_2 V) (Proc.devRef .tc main_v98)
      = xPad (V (Proc.devRef .tc main_v97)) := by
  after_results_simp
  simp only [StableHlo.TRef.ofBuf, StableHlo.TRef.toBuf, cast_eq]
  unfold xPad
  rfl

/-- Items 16–18: the one-hot table of the graph ids, transposed and padded with 176 zero columns. -/
theorem ohpad_of (V : Valuation τ sig (Elt F)) :
    StableHlo.after hostOps3_6 (StableHlo.after hostOps3_5 (StableHlo.after hostOps3_4 V)) (Proc.devRef .tc main_v101)
      = ohPad (V (Proc.devRef .tc main_arg8)) := by
  after_results_simp
  simp only [StableHlo.TRef.ofBuf, StableHlo.TRef.toBuf, cast_eq]
  unfold ohPad
  rfl

/-- Item 20: the per-graph sums divided by the node counts (at least one). -/
theorem pooled_of (V : Valuation τ sig (Elt F)) :
    StableHlo.after hostOps4 V (Proc.devRef .tc main_v110)
      = pooledR (V (Proc.devRef .tc main_v102)) (V (Proc.devRef .tc main_arg8)) := by
  after_results_simp
  unfold pooledR cntR
  rfl

variable (m : (ℓ : Loc nD τ sig) → Buf (Elt F) ℓ) (ρ : Dev nD → PrngReg)

/-! ## The arguments at the levels the stretches read them -/

theorem rd_a2_12 (c : Dev nD) : W12 m ρ c main_arg2 = m ((c : Thread nD τ).loc main_arg2) :=
  (W12_keep m ρ c main_arg2 (by decide)).trans <| (leg2 m ρ c main_arg2 (by decide) (by decide) (by decide)).trans <|
    (W8_keep m ρ c main_arg2 (by decide)).trans <| (leg1 m ρ c main_arg2 (by decide) (by decide) (by decide)).trans <|
    (W4_keep m ρ c main_arg2 (by decide)).trans (leg0 m ρ c main_arg2 (by decide) (by decide) (by decide))

theorem rd_a8_12 (c : Dev nD) : W12 m ρ c main_arg8 = m ((c : Thread nD τ).loc main_arg8) :=
  (W12_keep m ρ c main_arg8 (by decide)).trans <| (leg2 m ρ c main_arg8 (by decide) (by decide) (by decide)).trans <|
    (W8_keep m ρ c main_arg8 (by decide)).trans <| (leg1 m ρ c main_arg8 (by decide) (by decide) (by decide)).trans <|
    (W4_keep m ρ c main_arg8 (by decide)).trans (leg0 m ρ c main_arg8 (by decide) (by decide) (by decide))

theorem rd_a8_16 (c : Dev nD) : W16 m ρ c main_arg8 = m ((c : Thread nD τ).loc main_arg8) :=
  (W16_keep m ρ c main_arg8 (by decide)).trans <| (W15_keep m ρ c main_arg8 (by decide)).trans <|
    (W14_keep m ρ c main_arg8 (by decide)).trans <| (W13_keep m ρ c main_arg8 (by decide)).trans (rd_a8_12 m ρ c)

theorem rd_a8_20 (c : Dev nD) : W20 m ρ c main_arg8 = m ((c : Thread nD τ).loc main_arg8) :=
  (W20_keep m ρ c main_arg8 (by decide)).trans <| (W19_keep m ρ c main_arg8 (by decide)).trans <|
    (W18_keep m ρ c main_arg8 (by decide)).trans <| (W17_keep m ρ c main_arg8 (by decide)).trans (rd_a8_16 m ρ c)

/-! ## The reads at the chain's levels -/

/-- The layer-3 activations at region 3's entry. -/
theorem rd_v97 (c : Dev nD)
    (h3 : W12 m ρ c main_v3 = srcR (m ((c : Thread nD τ).loc main_arg7)))
    (h6 : W12 m ρ c main_v6 = dstR (m ((c : Thread nD τ).loc main_arg7)))
    (h31 : W12 m ρ c main_v31 = normR (m ((c : Thread nD τ).loc main_arg7))) :
    W19 m ρ c main_v97
      = aggR2 (W12 m ρ c main_v78) (m ((c : Thread nD τ).loc main_arg7)) (m ((c : Thread nD τ).loc main_arg2)) :=
  (W19_keep m ρ c main_v97 (by decide)).trans <| (W18_keep m ρ c main_v97 (by decide)).trans <|
    (W17_keep m ρ c main_v97 (by decide)).trans <| (W16_keep m ρ c main_v97 (by decide)).trans <|
    (W15_keep m ρ c main_v97 (by decide)).trans <|
    agg_of (W12 m ρ c) _ _ h3 h6 h31 (rd_a2_12 m ρ c)

/-- The padded node rows at region 3's entry. -/
theorem rd_v98 (c : Dev nD) : W19 m ρ c main_v98 = xPad (W19 m ρ c main_v97) :=
  (W19_keep m ρ c main_v98 (by decide)).trans <| (W18_keep m ρ c main_v98 (by decide)).trans <|
    (W17_keep m ρ c main_v98 (by decide)).trans <| (xpad_of (W14 m ρ c)).trans <| congrArg xPad <|
    ((W19_keep m ρ c main_v97 (by decide)).trans <| (W18_keep m ρ c main_v97 (by decide)).trans <|
      (W17_keep m ρ c main_v97 (by decide)).trans <| (W16_keep m ρ c main_v97 (by decide)).trans
      (W15_keep m ρ c main_v97 (by decide))).symm

/-- The padded one-hot table at region 3's entry. -/
theorem rd_v101 (c : Dev nD) : W19 m ρ c main_v101 = ohPad (m ((c : Thread nD τ).loc main_arg8)) :=
  (ohpad_of (W16 m ρ c)).trans (congrArg ohPad (rd_a8_16 m ρ c))

/-- The mean pool at region 4's entry. -/
theorem rd_v110 (c : Dev nD) :
    W21 m ρ c main_v110 = pooledR (W20 m ρ c main_v102) (m ((c : Thread nD τ).loc main_arg8)) :=
  (pooled_of (W20 m ρ c)).trans (congrArg (pooledR (W20 m ρ c main_v102)) (rd_a8_20 m ρ c))

end Cert.KernelIdeal.Hand

end
-- ==== Proof.Bridge.KValue.lean ====
/-
  The idealized kernel program's result as a function of its arguments, at the ideal values.

  Region by region: each of the three linear kernels leaves the host's matrix product of its two input arrays
  (the ten row blocks tile the 50000 rows); the host stretch after it gathers the rows along the edges, scales
  them by the edge weights, adds them into their destination rows, adds the bias and takes the positive part;
  the pooling kernel leaves the product of the padded one-hot table with the padded rows, which is the scatter
  of the rows into their graphs' bins (a one-hot entry is 1 or 0, and 1·y = y, 0·y = 0 for every extended real y);
  the host divides by the counts; the head kernel leaves the two-layer perceptron's value.  Nesting these gives
  exactly the nesting the reference's result is.
-/
import proofs.«430049_j55997783605449_1_alg».proof.Proof.KI.Run
import proofs.«430049_j55997783605449_1_alg».proof.Proof.KV.Lin0
import proofs.«430049_j55997783605449_1_alg».proof.Proof.KV.Lin1
import proofs.«430049_j55997783605449_1_alg».proof.Proof.KV.Lin2
import proofs.«430049_j55997783605449_1_alg».proof.Proof.KV.Pool3
import proofs.«430049_j55997783605449_1_alg».proof.Proof.KV.Mlp4
import proofs.«430049_j55997783605449_1_alg».proof.Proof.Bridge.PoolScatter
import proofs.«430049_j55997783605449_1_alg».proof.Proof.Bridge.ReadA
import proofs.«430049_j55997783605449_1_alg».proof.Proof.Bridge.ReadB
import proofs.«430049_j55997783605449_1_alg».proof.Proof.Gen.ReferenceIdeal

set_option maxRecDepth 65536

noncomputable section

namespace Cert.KernelIdeal.Val

open Cert.KernelIdeal Cert.KernelIdeal.Gen Cert.KernelIdeal.Hand Cert.Bridge
open Idealize.ShloMosaic Idealize.ShloMosaic.TcCoe Idealize.SL.Sem

variable (m : (ℓ : Loc nD τ sig) → Buf (Elt Ideal) ℓ) (ρ : Dev nD → PrngReg) (c : Dev nD)

abbrev a0 : Buf (Elt Ideal) ((c : Thread nD τ).loc main_arg0) := m ((c : Thread nD τ).loc main_arg0)
abbrev a1 : Buf (Elt Ideal) ((c : Thread nD τ).loc main_arg1) := m ((c : Thread nD τ).loc main_arg1)
abbrev a2 : Buf (Elt Ideal) ((c : Thread nD τ).loc main_arg2) := m ((c : Thread nD τ).loc main_arg2)
abbrev a3 : Buf (Elt Ideal) ((c : Thread nD τ).loc main_arg3) := m ((c : Thread nD τ).loc main_arg3)
abbrev a4 : Buf (Elt Ideal) ((c : Thread nD τ).loc main_arg4) := m ((c : Thread nD τ).loc main_arg4)
abbrev a5 : Buf (Elt Ideal) ((c : Thread nD τ).loc main_arg5) := m ((c : Thread nD τ).loc main_arg5)
abbrev a6 : Buf (Elt Ideal) ((c : Thread nD τ).loc main_arg6) := m ((c : Thread nD τ).loc main_arg6)
abbrev a7 : Buf (Elt Ideal) ((c : Thread nD τ).loc main_arg7) := m ((c : Thread nD τ).loc main_arg7)
abbrev a8 : Buf (Elt Ideal) ((c : Thread nD τ).loc main_arg8) := m ((c : Thread nD τ).loc main_arg8)

/-- Region 0 leaves the first layer's product. -/
theorem v34 : W4 (F := Ideal) m ρ c main_v34 = linR0 (a0 m c) (a1 m c) := by
  have e := final_lin0 (V3 m ρ) c
  have h0 : V3 m ρ c (Pipeline.arrRef spec0 0) = _ := rd_x0 m ρ c
  have h1 : V3 m ρ c (Pipeline.arrRef spec0 1) = _ := rd_w0 m ρ c
  rw [h0, h1] at e
  exact (W4_arr m ρ c 2).trans e

theorem v53 : W7 (F := Ideal) m ρ c main_v53 = aggR0 (linR0 (a0 m c) (a1 m c)) (a7 m c) (a2 m c) := by
  rw [rd_v53 m ρ c, v34 m ρ c]

/-- Region 1 leaves the second layer's product. -/
theorem v56 : W8 (F := Ideal) m ρ c main_v56 = linR1 (aggR0 (linR0 (a0 m c) (a1 m c)) (a7 m c) (a2 m c)) (a1 m c) := by
  have e := final_lin1 (V7 m ρ) c
  have h0 : V7 m ρ c (Pipeline.arrRef spec1 0) = _ := v53 m ρ c
  have h1 : V7 m ρ c (Pipeline.arrRef spec1 1) = _ := rd_w1 m ρ c
  rw [h0, h1] at e
  exact (W8_arr m ρ c 2).trans e

theorem v75 : W11 (F := Ideal) m ρ c main_v75 = aggR1 (linR1 (aggR0 (linR0 (a0 m c) (a1 m c)) (a7 m c) (a2 m c)) (a1 m c)) (a7 m c) (a2 m c) := by
  rw [rd_v75 m ρ c, v56 m ρ c]

/-- Region 2 leaves the third layer's product. -/
theorem v78 : W12 (F := Ideal) m ρ c main_v78 = linR2 (aggR1 (linR1 (aggR0 (linR0 (a0 m c) (a1 m c)) (a7 m c) (a2 m c)) (a1 m c)) (a7 m c) (a2 m c)) (a1 m c) := by
  have e := final_lin2 (V11 m ρ) c
  have h0 : V11 m ρ c (Pipeline.arrRef spec2 0) = _ := v75 m ρ c
  have h1 : V11 m ρ c (Pipeline.arrRef spec2 1) = _ := rd_w2 m ρ c
  rw [h0, h1] at e
  exact (W12_arr m ρ c 2).trans e

/-- The node features after the three layers. -/
abbrev x3 : (⟨Cert.ReferenceIdeal.S50000x128, .f32⟩ : BufTy).Contents (Elt Ideal) :=
  aggR2 (linR2 (aggR1 (linR1 (aggR0 (linR0 (a0 m c) (a1 m c)) (a7 m c) (a2 m c)) (a1 m c)) (a7 m c) (a2 m c)) (a1 m c)) (a7 m c) (a2 m c)

theorem v97 : W19 (F := Ideal) m ρ c main_v97 = x3 m c := by
  rw [rd_v97 m ρ c (rd_src12 m ρ c) (rd_dst12 m ρ c) (rd_norm12 m ρ c), v78 m ρ c]

/-- Region 3 leaves the per-graph sums. -/
theorem v102 : W20 (F := Ideal) m ρ c main_v102 = segSumR (x3 m c) (a8 m c) := by
  have e := final_pool (V19 m ρ) c
  have h0 : V19 m ρ c (Pipeline.arrRef spec3 0) = _ := rd_v101 m ρ c
  have h1 : V19 m ρ c (Pipeline.arrRef spec3 1) = _ := (rd_v98 m ρ c).trans (congrArg xPad (v97 m ρ c))
  rw [h0, h1] at e
  exact (W20_arr m ρ c 2).trans (e.trans (pool_eq_scatter (a8 m c) (x3 m c)))

theorem v110 : W21 (F := Ideal) m ρ c main_v110 = pooledR (segSumR (x3 m c) (a8 m c)) (a8 m c) := by
  rw [rd_v110 m ρ c, v102 m ρ c]

/-- Region 4 leaves the head's value: the whole result. -/
theorem kernel_value : W22 (F := Ideal) m ρ c main_v111 = resultR (a0 m c) (a1 m c) (a2 m c) (a3 m c) (a4 m c) (a5 m c) (a6 m c) (a7 m c) (a8 m c) := by
  have e := final_mlp (V21 m ρ) c
  have h0 : V21 m ρ c (Pipeline.arrRef spec4 0) = _ := v110 m ρ c
  have h1 : V21 m ρ c (Pipeline.arrRef spec4 1) = _ := rd_a3_21 m ρ c
  have h2 : V21 m ρ c (Pipeline.arrRef spec4 2) = _ := rd_a4_21 m ρ c
  have h3 : V21 m ρ c (Pipeline.arrRef spec4 3) = _ := rd_a5_21 m ρ c
  have h4 : V21 m ρ c (Pipeline.arrRef spec4 4) = _ := rd_a6_21 m ρ c
  rw [h0, h1, h2, h3, h4] at e
  exact (W22_arr m ρ c 5).trans e

end Cert.KernelIdeal.Val

end
-- ==== Proof.Bridge.RefRes.lean ====
/-
  The reference's run ends with its result buffer at the nesting of the pieces of RefForm: the composed term the run
  states is that nesting written out, so the two agree by unfolding the pieces.
-/
import proofs.«430049_j55997783605449_1_alg».proof.Proof.RefRun
import proofs.«430049_j55997783605449_1_alg».proof.Proof.Bridge.RefForm

set_option maxRecDepth 16384

noncomputable section

namespace Cert.Bridge

open Cert.ReferenceIdeal Cert.ReferenceIdeal.Gen Idealize.ShloMosaic Idealize.ShloMosaic.TcCoe Idealize.SL.Sem

variable {F : FTy → Type} [FloatOps F]

set_option maxHeartbeats 4000000 in
theorem res_eq (m : (ℓ : Loc nD τ sig) → Buf (Elt F) ℓ) (c : Dev nD) :
    Cert.ReferenceIdeal.ValueP.res_main_v117 m c =
      resultR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  unfold Cert.ReferenceIdeal.ValueP.res_main_v117 resultR mlpR pooledR cntR segSumR aggR2 linR2 aggR1 linR1 aggR0 linR0 normR dinvR degR fixR srcR dstR
  rfl

end Cert.Bridge

end
-- ==== Proof.lean ====
/-
  The certificate's five claims.

  The three frames: the word-level kernel program and its idealization are the same text read at two value families, and
  the run of that text (each of @main's 22 items carried over the table of buffer contents) ends with every unscoped
  buffer at the last boundary's contents, where no item has written an argument; the reference is a straight line of
  host operations, whose generated run says the same of its arguments.  Nothing was rewritten by the ideal pass, so
  the idealization claim is trivial.  The value claim: at the ideal values the kernel program's result buffer ends at
  the nesting of linear layers, edge aggregation, pooling and head that the reference's result is (three matrix
  products by row blocks are the host's products; the pooling product with a one-hot table is the scatter into bins),
  of arguments that agree.
-/
import proofs.«430049_j55997783605449_1_alg».proof.Defs
import proofs.«430049_j55997783605449_1_alg».proof.Proof.Gen.Kernel
import proofs.«430049_j55997783605449_1_alg».proof.Proof.Gen.KernelIdeal
import proofs.«430049_j55997783605449_1_alg».proof.Proof.Gen.ReferenceIdeal
import proofs.«430049_j55997783605449_1_alg».proof.Proof.Gen.Pre_finite_inputs
import proofs.«430049_j55997783605449_1_alg».proof.Proof.K.Run
import proofs.«430049_j55997783605449_1_alg».proof.Proof.K.Args
import proofs.«430049_j55997783605449_1_alg».proof.Proof.KI.Run
import proofs.«430049_j55997783605449_1_alg».proof.Proof.KI.Args
import proofs.«430049_j55997783605449_1_alg».proof.Proof.Bridge.KValue
import proofs.«430049_j55997783605449_1_alg».proof.Proof.Bridge.RefRes
import Idealize.ShloMosaic.Adequacy
import Idealize.ShloMosaic.Init

set_option maxRecDepth 16384

noncomputable section

namespace Cert.Proof

open Idealize.ShloMosaic Idealize.SL.Sem

/-- The word-level program runs and leaves its arguments as launched. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.rd_a0_22 m ρ c),
     (h c _ (Cert.Kernel.Hand.mem_uc Cert.Kernel.main_arg1 (by decide))).trans (Cert.Kernel.Hand.rd_a1_22 m ρ c),
     (h c _ (Cert.Kernel.Hand.mem_uc Cert.Kernel.main_arg2 (by decide))).trans (Cert.Kernel.Hand.rd_a2_22 m ρ c),
     (h c _ (Cert.Kernel.Hand.mem_uc Cert.Kernel.main_arg3 (by decide))).trans (Cert.Kernel.Hand.rd_a3_22 m ρ c),
     (h c _ (Cert.Kernel.Hand.mem_uc Cert.Kernel.main_arg4 (by decide))).trans (Cert.Kernel.Hand.rd_a4_22 m ρ c),
     (h c _ (Cert.Kernel.Hand.mem_uc Cert.Kernel.main_arg5 (by decide))).trans (Cert.Kernel.Hand.rd_a5_22 m ρ c),
     (h c _ (Cert.Kernel.Hand.mem_uc Cert.Kernel.main_arg6 (by decide))).trans (Cert.Kernel.Hand.rd_a6_22 m ρ c),
     (h c _ (Cert.Kernel.Hand.mem_uc Cert.Kernel.main_arg7 (by decide))).trans (Cert.Kernel.Hand.rd_a7_22 m ρ c),
     (h c _ (Cert.Kernel.Hand.mem_uc Cert.Kernel.main_arg8 (by decide))).trans (Cert.Kernel.Hand.rd_a8_22 m ρ c)⟩)
    (Cert.Kernel.Hand.run_all (F := Bits) m ρ)

/-- The idealized program runs and leaves its arguments as launched. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.rd_a0_22 m ρ c),
     (h c _ (Cert.KernelIdeal.Hand.mem_uc Cert.KernelIdeal.main_arg1 (by decide))).trans (Cert.KernelIdeal.Hand.rd_a1_22 m ρ c),
     (h c _ (Cert.KernelIdeal.Hand.mem_uc Cert.KernelIdeal.main_arg2 (by decide))).trans (Cert.KernelIdeal.Hand.rd_a2_22 m ρ c),
     (h c _ (Cert.KernelIdeal.Hand.mem_uc Cert.KernelIdeal.main_arg3 (by decide))).trans (Cert.KernelIdeal.Hand.rd_a3_22 m ρ c),
     (h c _ (Cert.KernelIdeal.Hand.mem_uc Cert.KernelIdeal.main_arg4 (by decide))).trans (Cert.KernelIdeal.Hand.rd_a4_22 m ρ c),
     (h c _ (Cert.KernelIdeal.Hand.mem_uc Cert.KernelIdeal.main_arg5 (by decide))).trans (Cert.KernelIdeal.Hand.rd_a5_22 m ρ c),
     (h c _ (Cert.KernelIdeal.Hand.mem_uc Cert.KernelIdeal.main_arg6 (by decide))).trans (Cert.KernelIdeal.Hand.rd_a6_22 m ρ c),
     (h c _ (Cert.KernelIdeal.Hand.mem_uc Cert.KernelIdeal.main_arg7 (by decide))).trans (Cert.KernelIdeal.Hand.rd_a7_22 m ρ c),
     (h c _ (Cert.KernelIdeal.Hand.mem_uc Cert.KernelIdeal.main_arg8 (by decide))).trans (Cert.KernelIdeal.Hand.rd_a8_22 m ρ c)⟩) (Cert.KernelIdeal.Hand.run_all (F := Ideal) m ρ)

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end with the result buffer at the same nesting of the arguments. -/
theorem algebraic : Cert.algebraic_KernelIdeal_ReferenceIdeal := by
  intro m ρ m' ρ' _ hagree
  refine ⟨fun c => Cert.Bridge.resultR (m ((c.tc : Thread _ _).loc Cert.KernelIdeal.main_arg0)) (m ((c.tc : Thread _ _).loc Cert.KernelIdeal.main_arg1)) (m ((c.tc : Thread _ _).loc Cert.KernelIdeal.main_arg2))
      (m ((c.tc : Thread _ _).loc Cert.KernelIdeal.main_arg3)) (m ((c.tc : Thread _ _).loc Cert.KernelIdeal.main_arg4)) (m ((c.tc : Thread _ _).loc Cert.KernelIdeal.main_arg5))
      (m ((c.tc : Thread _ _).loc Cert.KernelIdeal.main_arg6)) (m ((c.tc : Thread _ _).loc Cert.KernelIdeal.main_arg7)) (m ((c.tc : Thread _ _).loc Cert.KernelIdeal.main_arg8)), ?_, ?_⟩
  · exact (θ_run (Cert.KernelIdeal.defs (F := Ideal)) _ _).mono (fun r h c =>
      ⟨(h c _ (Cert.KernelIdeal.Hand.mem_uc Cert.KernelIdeal.main_v111 (by decide))).trans (Cert.KernelIdeal.Val.kernel_value m ρ c),
       (h c _ (Cert.KernelIdeal.Hand.mem_uc Cert.KernelIdeal.main_arg0 (by decide))).trans (Cert.KernelIdeal.Hand.rd_a0_22 m ρ c),
       (h c _ (Cert.KernelIdeal.Hand.mem_uc Cert.KernelIdeal.main_arg1 (by decide))).trans (Cert.KernelIdeal.Hand.rd_a1_22 m ρ c),
       (h c _ (Cert.KernelIdeal.Hand.mem_uc Cert.KernelIdeal.main_arg2 (by decide))).trans (Cert.KernelIdeal.Hand.rd_a2_22 m ρ c),
       (h c _ (Cert.KernelIdeal.Hand.mem_uc Cert.KernelIdeal.main_arg3 (by decide))).trans (Cert.KernelIdeal.Hand.rd_a3_22 m ρ c),
       (h c _ (Cert.KernelIdeal.Hand.mem_uc Cert.KernelIdeal.main_arg4 (by decide))).trans (Cert.KernelIdeal.Hand.rd_a4_22 m ρ c),
       (h c _ (Cert.KernelIdeal.Hand.mem_uc Cert.KernelIdeal.main_arg5 (by decide))).trans (Cert.KernelIdeal.Hand.rd_a5_22 m ρ c),
       (h c _ (Cert.KernelIdeal.Hand.mem_uc Cert.KernelIdeal.main_arg6 (by decide))).trans (Cert.KernelIdeal.Hand.rd_a6_22 m ρ c),
       (h c _ (Cert.KernelIdeal.Hand.mem_uc Cert.KernelIdeal.main_arg7 (by decide))).trans (Cert.KernelIdeal.Hand.rd_a7_22 m ρ c),
       (h c _ (Cert.KernelIdeal.Hand.mem_uc Cert.KernelIdeal.main_arg8 (by decide))).trans (Cert.KernelIdeal.Hand.rd_a8_22 m ρ c)⟩)
      (Cert.KernelIdeal.Hand.run_all (F := Ideal) m ρ)
  · refine (θ_run Cert.ReferenceIdeal.defs _ _).mono (fun r h c => ⟨(h c).1.trans ?_, (h c).2⟩) (Cert.ReferenceIdeal.ValueP.run (F := Ideal) m' ρ')
    rw [Cert.Bridge.res_eq m' c, (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
